-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v64)) (v2 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_arg1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x500x1024 : Shape := ⟨3, ![64, 500, 1024]⟩
abbrev S64x501 : Shape := ⟨2, ![64, 501]⟩
abbrev S_ : Shape := ⟨0, ![]⟩

class Facts : Prop where
  bcast_S_S64x500x1024 : S_.BroadcastsInDim S64x500x1024 (![] : Fin 0 → Fin S64x500x1024.rank)
  reducesTo_S64x500x1024_S_d0_1_2 : S64x500x1024.ReducesTo [0, 1, 2] S_
  h_S_ : 0 < S_.numel
  bcast_S_S64x501 : S_.BroadcastsInDim S64x501 (![] : Fin 0 → Fin S64x501.rank)
  reducesTo_S64x501_S_d0_1 : S64x501.ReducesTo [0, 1] S_

variable [Facts]

def fn {F : FTy → Type} [FloatOps F] (main_arg0 : FVec F S64x500x1024 .f32) (main_arg1 : FVec F S64x501 .f32) : IVec S_ 1 :=
  let main_v0 : FVec F S64x500x1024 .f32 := Host.absf main_arg0
  let main_cst : FVec F S_ .f32 := constant S_ .f32 0x7F800000#32
  let main_v1 : FVec F S64x500x1024 .f32 := broadcastInDim S64x500x1024 ![] bcast_S_S64x500x1024 main_cst
  let main_v2 : IVec S64x500x1024 1 := cmpf .olt main_v0 main_v1
  let main_c : IVec S_ 1 := constantI S_ 1 1#1
  let main_v3 : IVec S_ 1 := (fun x v => Host.reduce IntOp.andi x v reducesTo_S64x500x1024_S_d0_1_2 h_S_) main_v2 main_c
  let main_v4 : FVec F S64x501 .f32 := Host.absf main_arg1
  let main_cst_0 : FVec F S_ .f32 := constant S_ .f32 0x7F800000#32
  let main_v5 : FVec F S64x501 .f32 := broadcastInDim S64x501 ![] bcast_S_S64x501 main_cst_0
  let main_v6 : IVec S64x501 1 := cmpf .olt main_v4 main_v5
  let main_c_1 : IVec S_ 1 := constantI S_ 1 1#1
  let main_v7 : IVec S_ 1 := (fun x v => Host.reduce IntOp.andi x v reducesTo_S64x501_S_d0_1 h_S_) main_v6 main_c_1
  let main_v8 : IVec S_ 1 := andi main_v3 main_v7
  main_v8
-- ==== Kernel.lean ====
abbrev S64x500x1024 : Shape := ⟨3, ![64, 500, 1024]⟩
abbrev S64x501 : Shape := ⟨2, ![64, 501]⟩
abbrev S_ : Shape := ⟨0, ![]⟩
abbrev S1 : Shape := ⟨1, ![1]⟩
abbrev S64 : Shape := ⟨1, ![64]⟩
abbrev S64x500 : Shape := ⟨2, ![64, 500]⟩
abbrev S64x502 : Shape := ⟨2, ![64, 502]⟩
abbrev S501 : Shape := ⟨1, ![501]⟩
abbrev S64x1 : Shape := ⟨2, ![64, 1]⟩
abbrev S64x501x1 : Shape := ⟨3, ![64, 501, 1]⟩
abbrev S64x501x2 : Shape := ⟨3, ![64, 501, 2]⟩
abbrev S64x500x1 : Shape := ⟨3, ![64, 500, 1]⟩
abbrev S1x1x1 : Shape := ⟨3, ![1, 1, 1]⟩
abbrev S1x1x50 : Shape := ⟨3, ![1, 1, 50]⟩
abbrev S64x500x50 : Shape := ⟨3, ![64, 500, 50]⟩
abbrev S64x50x500 : Shape := ⟨3, ![64, 50, 500]⟩
abbrev S64x50x1024 : Shape := ⟨3, ![64, 50, 1024]⟩
abbrev S4x50x500 : Shape := ⟨3, ![4, 50, 500]⟩
abbrev S4x500x1024 : Shape := ⟨3, ![4, 500, 1024]⟩
abbrev S4x50x1024 : Shape := ⟨3, ![4, 50, 1024]⟩
abbrev S64x50 : Shape := ⟨2, ![64, 50]⟩

abbrev nBuf : Space → Nat
  | .hbm => 144
  | .vmem => 6
  | .smem => 0
  | _ => 0

abbrev hbmTy0_0 (i : Nat) : BufTy := match i % 128 with
  | 0 => ⟨S64x500x1024, .f32⟩
  | 1 => ⟨S64x501, .f32⟩
  | 2 => ⟨S_, .f32⟩
  | 3 => ⟨S64x501, .f32⟩
  | 4 => ⟨S64x501, .i1⟩
  | 5 => ⟨S64x501, .i32⟩
  | 6 => ⟨S_, .i32⟩
  | 7 => ⟨S1, .i32⟩
  | 8 => ⟨S_, .i32⟩
  | 9 => ⟨S64, .i32⟩
  | 10 => ⟨S64x501, .i32⟩
  | 11 => ⟨S_, .i32⟩
  | 12 => ⟨S_, .i32⟩
  | 13 => ⟨S64x501, .i32⟩
  | 14 => ⟨S64x500, .i32⟩
  | 15 => ⟨S_, .i32⟩
  | 16 => ⟨S64x500, .i32⟩
  | 17 => ⟨S64x500, .i32⟩
  | 18 => ⟨S_, .i32⟩
  | 19 => ⟨S64x501, .i32⟩
  | 20 => ⟨S64x501, .i1⟩
  | 21 => ⟨S_, .i32⟩
  | 22 => ⟨S64x501, .i32⟩
  | 23 => ⟨S64x501, .i32⟩
  | 24 => ⟨S_, .i32⟩
  | 25 => ⟨S_, .i32⟩
  | 26 => ⟨S64x501, .i32⟩
  | 27 => ⟨S64x501, .i32⟩
  | 28 => ⟨S_, .i32⟩
  | 29 => ⟨S64x502, .i32⟩
  | 30 => ⟨S501, .i32⟩
  | 31 => ⟨S64x501, .i32⟩
  | 32 => ⟨S64, .i32⟩
  | 33 => ⟨S64x1, .i32⟩
  | 34 => ⟨S_, .i32⟩
  | 35 => ⟨S64x1, .i32⟩
  | 36 => ⟨S64x1, .i1⟩
  | 37 => ⟨S_, .i32⟩
  | 38 => ⟨S64x1, .i32⟩
  | 39 => ⟨S64x1, .i32⟩
  | 40 => ⟨S64x1, .i32⟩
  | 41 => ⟨S_, .i32⟩
  | 42 => ⟨S64x501, .i32⟩
  | 43 => ⟨S64x501, .i1⟩
  | 44 => ⟨S_, .i32⟩
  | 45 => ⟨S64x501, .i32⟩
  | 46 => ⟨S64x501, .i32⟩
  | 47 => ⟨S64x501, .i32⟩
  | 48 => ⟨S64x501, .i32⟩
  | 49 => ⟨S64x501x1, .i32⟩
  | 50 => ⟨S64x501x1, .i32⟩
  | 51 => ⟨S64x501x2, .i32⟩
  | 52 => ⟨S64x502, .i32⟩
  | 53 => ⟨S_, .i32⟩
  | 54 => ⟨S64x500, .i32⟩
  | 55 => ⟨S64x500, .i1⟩
  | 56 => ⟨S_, .i32⟩
  | 57 => ⟨S64x500, .i32⟩
  | 58 => ⟨S64x500, .i32⟩
  | 59 => ⟨S64x500, .i32⟩
  | 60 => ⟨S64x500x1, .i32⟩
  | 61 => ⟨S1, .i32⟩
  | 62 => ⟨S_, .i32⟩
  | 63 => ⟨S64x500x1, .i32⟩
  | 64 => ⟨S64x500x1, .i1⟩
  | 65 => ⟨S1x1x1, .i32⟩
  | 66 => ⟨S64x500x1, .i32⟩
  | 67 => ⟨S64x500x1, .i1⟩
  | 68 => ⟨S64x500x1, .i1⟩
  | 69 => ⟨S_, .i1⟩
  | 70 => ⟨S64x500, .i1⟩
  | 71 => ⟨S64x500, .i32⟩
  | 72 => ⟨S_, .i32⟩
  | 73 => ⟨S64x500, .i32⟩
  | 74 => ⟨S64x500, .i32⟩
  | 75 => ⟨S_, .i32⟩
  | 76 => ⟨S64x500, .i32⟩
  | 77 => ⟨S64x500, .i32⟩
  | 78 => ⟨S_, .i32⟩
  | 79 => ⟨S64x500, .i32⟩
  | 80 => ⟨S64x500, .i1⟩
  | 81 => ⟨S_, .i32⟩
  | 82 => ⟨S64x500, .i32⟩
  | 83 => ⟨S64x500, .i32⟩
  | 84 => ⟨S64x500, .i32⟩
  | 85 => ⟨S64x500x1, .i32⟩
  | 86 => ⟨S1, .i32⟩
  | 87 => ⟨S_, .i32⟩
  | 88 => ⟨S64x500x1, .i32⟩
  | 89 => ⟨S64x500x1, .i1⟩
  | 90 => ⟨S1x1x1, .i32⟩
  | 91 => ⟨S64x500x1, .i32⟩
  | 92 => ⟨S64x500x1, .i1⟩
  | 93 => ⟨S64x500x1, .i1⟩
  | 94 => ⟨S_, .i1⟩
  | 95 => ⟨S64x500, .i1⟩
  | 96 => ⟨S64x500, .i32⟩
  | 97 => ⟨S_, .i32⟩
  | 98 => ⟨S64x500, .i32⟩
  | 99 => ⟨S64x500, .i32⟩
  | 100 => ⟨S64x500, .i32⟩
  | 101 => ⟨S_, .i32⟩
  | 102 => ⟨S64x500, .i32⟩
  | 103 => ⟨S64x500, .i1⟩
  | 104 => ⟨S_, .i32⟩
  | 105 => ⟨S64x500, .i32⟩
  | 106 => ⟨S64x500, .i1⟩
  | 107 => ⟨S64x500, .i1⟩
  | 108 => ⟨S_, .i32⟩
  | 109 => ⟨S64x500, .i32⟩
  | 110 => ⟨S64x500, .i1⟩
  | 111 => ⟨S64x500, .i1⟩
  | 112 => ⟨S_, .i32⟩
  | 113 => ⟨S64x500, .i32⟩
  | 114 => ⟨S64x500, .i1⟩
  | 115 => ⟨S64x500, .i1⟩
  | 116 => ⟨S_, .i32⟩
  | 117 => ⟨S64x500, .i32⟩
  | 118 => ⟨S64x500, .i32⟩
  | 119 => ⟨S64x500, .f32⟩
  | 120 => ⟨S_, .f32⟩
  | 121 => ⟨S64x500, .f32⟩
  | 122 => ⟨S64x500, .f32⟩
  | 123 => ⟨S_, .f32⟩
  | 124 => ⟨S_, .f32⟩
  | 125 => ⟨S64x500, .f32⟩
  | 126 => ⟨S64x500, .f32⟩
  | 127 => ⟨S_, .i32⟩
  | _ => ⟨S64x500x1024, .f32⟩

abbrev hbmTy0_1 (i : Nat) : BufTy := match i % 128 with
  | 0 => ⟨S_, .i32⟩
  | 1 => ⟨S64x500, .i32⟩
  | 2 => ⟨S64x500, .i32⟩
  | 3 => ⟨S64x500x1, .i32⟩
  | 4 => ⟨S1x1x50, .i32⟩
  | 5 => ⟨S64x500x50, .i32⟩
  | 6 => ⟨S64x500x50, .i32⟩
  | 7 => ⟨S64x500x50, .i1⟩
  | 8 => ⟨S64x500x50, .f32⟩
  | 9 => ⟨S64x500x1, .f32⟩
  | 10 => ⟨S64x500x50, .f32⟩
  | 11 => ⟨S64x500x50, .f32⟩
  | 12 => ⟨S64x50x500, .f32⟩
  | 13 => ⟨S64x50x1024, .f32⟩
  | 14 => ⟨S_, .f32⟩
  | 15 => ⟨S64x50, .f32⟩
  | _ => ⟨S64x500x1024, .f32⟩

abbrev hbmTy (i : Nat) : BufTy := match i / 128 with
  | 0 => hbmTy0_0 i
  | 1 => hbmTy0_1 i
  | _ => ⟨S64x500x1024, .f32⟩

abbrev bufTy : (tb : Table) → Fin (tcTables nBuf tb) → BufTy
  | .hbm, ⟨i, _⟩ => hbmTy i
  | .local _ .vmem, ⟨0, _⟩ => ⟨S4x50x500, .f32⟩
  | .local _ .vmem, ⟨1, _⟩ => ⟨S4x50x500, .f32⟩
  | .local _ .vmem, ⟨2, _⟩ => ⟨S4x500x1024, .f32⟩
  | .local _ .vmem, ⟨3, _⟩ => ⟨S4x500x1024, .f32⟩
  | .local _ .vmem, ⟨4, _⟩ => ⟨S4x50x1024, .f32⟩
  | .local _ .vmem, ⟨5, _⟩ => ⟨S4x50x1024, .f32⟩
  | _, _ => ⟨S64x500x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_call0_call0_c : Ref sig .tc := ⟨.hbm, 11, rfl⟩
abbrev main_call0_call0_v0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_call1_v0 : Ref sig .tc := ⟨.hbm, 25, rfl⟩
abbrev main_call1_v1 : Ref sig .tc := ⟨.hbm, 26, rfl⟩
abbrev main_v14 : Ref sig .tc := ⟨.hbm, 27, rfl⟩
abbrev main_c_5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_6 : Ref sig .tc := ⟨.hbm, 34, rfl⟩
abbrev main_v20 : Ref sig .tc := ⟨.hbm, 35, rfl⟩
abbrev main_v21 : Ref sig .tc := ⟨.hbm, 36, rfl⟩
abbrev main_c_7 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_8 : Ref sig .tc := ⟨.hbm, 41, rfl⟩
abbrev main_v25 : Ref sig .tc := ⟨.hbm, 42, rfl⟩
abbrev main_v26 : Ref sig .tc := ⟨.hbm, 43, rfl⟩
abbrev main_c_9 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c_1 : Ref sig .tc := ⟨.hbm, 61, rfl⟩
abbrev main_call2_c_2 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_3 : Ref sig .tc := ⟨.hbm, 69, rfl⟩
abbrev main_call2_v12 : Ref sig .tc := ⟨.hbm, 70, rfl⟩
abbrev main_call2_v13 : Ref sig .tc := ⟨.hbm, 71, rfl⟩
abbrev main_call2_c_4 : Ref sig .tc := ⟨.hbm, 72, rfl⟩
abbrev main_call2_v14 : Ref sig .tc := ⟨.hbm, 73, rfl⟩
abbrev main_v35 : Ref sig .tc := ⟨.hbm, 74, rfl⟩
abbrev main_c_10 : Ref sig .tc := ⟨.hbm, 75, rfl⟩
abbrev main_v36 : Ref sig .tc := ⟨.hbm, 76, rfl⟩
abbrev main_v37 : Ref sig .tc := ⟨.hbm, 77, rfl⟩
abbrev main_call3_c : Ref sig .tc := ⟨.hbm, 78, rfl⟩
abbrev main_call3_v0 : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_c_1 : Ref sig .tc := ⟨.hbm, 86, rfl⟩
abbrev main_call3_c_2 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_3 : Ref sig .tc := ⟨.hbm, 94, rfl⟩
abbrev main_call3_v12 : Ref sig .tc := ⟨.hbm, 95, rfl⟩
abbrev main_call3_v13 : Ref sig .tc := ⟨.hbm, 96, rfl⟩
abbrev main_call3_c_4 : Ref sig .tc := ⟨.hbm, 97, rfl⟩
abbrev main_call3_v14 : Ref sig .tc := ⟨.hbm, 98, rfl⟩
abbrev main_v38 : Ref sig .tc := ⟨.hbm, 99, rfl⟩
abbrev main_v39 : Ref sig .tc := ⟨.hbm, 100, rfl⟩
abbrev main_c_11 : Ref sig .tc := ⟨.hbm, 101, rfl⟩
abbrev main_v40 : Ref sig .tc := ⟨.hbm, 102, rfl⟩
abbrev main_v41 : Ref sig .tc := ⟨.hbm, 103, rfl⟩
abbrev main_c_12 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_c_13 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_c_14 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_c_15 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_cst_16 : Ref sig .tc := ⟨.hbm, 120, rfl⟩
abbrev main_v54 : Ref sig .tc := ⟨.hbm, 121, rfl⟩
abbrev main_v55 : Ref sig .tc := ⟨.hbm, 122, rfl⟩
abbrev main_cst_17 : Ref sig .tc := ⟨.hbm, 123, rfl⟩
abbrev main_call4_v0 : Ref sig .tc := ⟨.hbm, 124, rfl⟩
abbrev main_call4_v1 : Ref sig .tc := ⟨.hbm, 125, rfl⟩
abbrev main_v56 : Ref sig .tc := ⟨.hbm, 126, rfl⟩
abbrev main_c_18 : Ref sig .tc := ⟨.hbm, 127, rfl⟩
abbrev main_call5_v0 : Ref sig .tc := ⟨.hbm, 128, rfl⟩
abbrev main_call5_v1 : Ref sig .tc := ⟨.hbm, 129, rfl⟩
abbrev main_v57 : Ref sig .tc := ⟨.hbm, 130, rfl⟩
abbrev main_call6_v0 : Ref sig .tc := ⟨.hbm, 131, rfl⟩
abbrev main_call6_v1 : Ref sig .tc := ⟨.hbm, 132, rfl⟩
abbrev main_call6_v2 : Ref sig .tc := ⟨.hbm, 133, rfl⟩
abbrev main_call6_v3 : Ref sig .tc := ⟨.hbm, 134, rfl⟩
abbrev main_call6_v4 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_cst_19 : Ref sig .tc := ⟨.hbm, 142, rfl⟩
abbrev main_v64 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x50x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x500x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x50x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S64x501 : S_.BroadcastsInDim S64x501 (![] : Fin 0 → Fin S64x501.rank)
  natLt_1_32 : 1 < 32
  bcast_S_S1 : S_.BroadcastsInDim S1 (![] : Fin 0 → Fin S1.rank)
  bcast_S_S64 : S_.BroadcastsInDim S64 (![] : Fin 0 → Fin S64.rank)
  bcast_S_S_ : S_.BroadcastsInDim S_ (![] : Fin 0 → Fin S_.rank)
  reduceWindows_S64x501_S64x501_w1s1p0_0_w501s1p500_0 : S64x501.ReduceWindows (![1, 501] : Fin 2 → Nat) ![1, 1] ![0, 500] ![0, 0] S64x501
  h_S_ : 0 < S_.numel
  slices_S64x501_S64x500_0_0 : S64x501.Slices ![0, 0] S64x500
  bcast_S_S64x500 : S_.BroadcastsInDim S64x500 (![] : Fin 0 → Fin S64x500.rank)
  bcast_S_S64x502 : S_.BroadcastsInDim S64x502 (![] : Fin 0 → Fin S64x502.rank)
  bcast_S501_S64x501_1 : S501.BroadcastsInDim S64x501 (![1] : Fin 1 → Fin S64x501.rank)
  bcast_S64_S64x1_0 : S64.BroadcastsInDim S64x1 (![0] : Fin 1 → Fin S64x1.rank)
  bcast_S_S64x1 : S_.BroadcastsInDim S64x1 (![] : Fin 0 → Fin S64x1.rank)
  bcast_S64x1_S64x501_0_1 : S64x1.BroadcastsInDim S64x501 (![0, 1] : Fin 2 → Fin S64x501.rank)
  bcast_S64x501_S64x501x1_0_1 : S64x501.BroadcastsInDim S64x501x1 (![0, 1] : Fin 2 → Fin S64x501x1.rank)
  concatenates_S64x501x1_S64x501x1_S64x501x2_d2 : Shape.Concatenates [S64x501x1, S64x501x1] S64x501x2 2
  shapeCasts_S64x500_S64x500x1 : S64x500.ShapeCasts S64x500x1
  bcast_S_S64x500x1 : S_.BroadcastsInDim S64x500x1 (![] : Fin 0 → Fin S64x500x1.rank)
  bcast_S1_S1x1x1_2 : S1.BroadcastsInDim S1x1x1 (![2] : Fin 1 → Fin S1x1x1.rank)
  bcast_S1x1x1_S64x500x1_0_1_2 : S1x1x1.BroadcastsInDim S64x500x1 (![0, 1, 2] : Fin 3 → Fin S64x500x1.rank)
  reducesTo_S64x500x1_S64x500_d2 : S64x500x1.ReducesTo [2] S64x500
  bcast_S64x500_S64x500x1_0_1 : S64x500.BroadcastsInDim S64x500x1 (![0, 1] : Fin 2 → Fin S64x500x1.rank)
  bcast_S64x500x1_S64x500x50_0_1_2 : S64x500x1.BroadcastsInDim S64x500x50 (![0, 1, 2] : Fin 3 → Fin S64x500x50.rank)
  bcast_S1x1x50_S64x500x50_0_1_2 : S1x1x50.BroadcastsInDim S64x500x50 (![0, 1, 2] : Fin 3 → Fin S64x500x50.rank)
  transposes_S64x500x50_S64x50x500_0_2_1 : S64x500x50.Transposes [0, 2, 1] S64x50x500
  inb_S4x50x500_S4x50x500_0_0_0 : ∀ a, (![0, 0, 0] : Fin 3 → Nat) a + S4x50x500.size a ≤ S4x50x500.size a
  h_S4x50x500 : 0 < S4x50x500.numel
  shapeCasts_S4x50x500_S4x50x500 : S4x50x500.ShapeCasts S4x50x500
  bitsLt_bf16_f32 : FTy.bits .bf16 < FTy.bits .f32
  inb_S4x500x1024_S4x500x1024_0_0_0 : ∀ a, (![0, 0, 0] : Fin 3 → Nat) a + S4x500x1024.size a ≤ S4x500x1024.size a
  h_S4x500x1024 : 0 < S4x500x1024.numel
  inb_S4x50x1024_S4x50x1024_0_0_0 : ∀ a, (![0, 0, 0] : Fin 3 → Nat) a + S4x50x1024.size a ≤ S4x50x1024.size a
  h_S4x50x1024 : 0 < S4x50x1024.numel
  reducesTo_S64x50x500_S64x50_d2 : S64x50x500.ReducesTo [2] S64x50
  scatter_S64x501_S1_S64_0_1_1_0_wf : ScatterDims.WF S64x501 S1 S64 [0] [1] [1] 0
  scatter_S64x502_S64x501x2_S64x501_n_01_01_2_wf : ScatterDims.WF S64x502 S64x501x2 S64x501 [] [0, 1] [0, 1] 2
  gather_S64x502_S64x500x1_S64x500_n_1_0_0_1_2_11_wf : GatherDims.WF S64x502 S64x500x1 S64x500 [] [1] [0] [1] [0] 2 ![1, 1]
  dot_S4x50x500_S4x500x1024_S4x50x1024_2_1_1_2_0_0_wf : DotDims.WF S4x50x500 S4x500x1024 S4x50x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x50x500.size a ≤ S64x50x500.size a
  hwx0_0 : ∀ i : grid0.Coords, EltTy.bits .f32 = 32 ∨ (Rect.block (s := S64x50x500) S4x50x500.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x500x1024.size a ≤ S64x500x1024.size a
  hwx0_1 : ∀ i : grid0.Coords, EltTy.bits .f32 = 32 ∨ (Rect.block (s := S64x500x1024) S4x500x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x50x1024.size a ≤ S64x50x1024.size a
  hwx0_2 : ∀ i : grid0.Coords, EltTy.bits .f32 = 32 ∨ (Rect.block (s := S64x50x1024) S4x50x1024.size (cc0_transform_2 i) (hinb0_2 i)).WholeWords (EltTy.packing .f32)

variable [Facts₀]

def scatter_S64x501_S1_S64_0_1_1_0 : ScatterDims S64x501 S1 S64 where
  updateWindowDims := [0]
  insertedWindowDims := [1]
  scatterDimsToOperandDims := [1]
  indexVectorDim := 0
  wf := scatter_S64x501_S1_S64_0_1_1_0_wf
def scatter_S64x502_S64x501x2_S64x501_n_01_01_2 : ScatterDims S64x502 S64x501x2 S64x501 where
  updateWindowDims := []
  insertedWindowDims := [0, 1]
  scatterDimsToOperandDims := [0, 1]
  indexVectorDim := 2
  wf := scatter_S64x502_S64x501x2_S64x501_n_01_01_2_wf
def gather_S64x502_S64x500x1_S64x500_n_1_0_0_1_2_11 : GatherDims S64x502 S64x500x1 S64x500 where
  offsetDims := []
  collapsedSliceDims := [1]
  operandBatchingDims := [0]
  startIndicesBatchingDims := [0]
  startIndexMap := [1]
  indexVectorDim := 2
  sliceSizes := ![1, 1]
  wf := gather_S64x502_S64x500x1_S64x500_n_1_0_0_1_2_11_wf
def dot_S4x50x500_S4x500x1024_S4x50x1024_2_1_1_2_0_0 : DotDims S4x50x500 S4x500x1024 S4x50x1024 where
  lhsContracting := [2]
  rhsContracting := [1]
  lhsNonContracting := [1]
  rhsNonContracting := [2]
  lhsBatch := [0]
  rhsBatch := [0]
  wf := dot_S4x50x500_S4x500x1024_S4x50x1024_2_1_1_2_0_0_wf

abbrev win0_0 : Pipeline.Window sig grid0 :=
  Pipeline.Window.ofSpec (Memref.whole main_v62) S4x50x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4x500x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v63) S4x50x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x500x1024 : Shape := ⟨3, ![64, 500, 1024]⟩
abbrev S64x501 : Shape := ⟨2, ![64, 501]⟩
abbrev S_ : Shape := ⟨0, ![]⟩
abbrev S1 : Shape := ⟨1, ![1]⟩
abbrev S64 : Shape := ⟨1, ![64]⟩
abbrev S64x500 : Shape := ⟨2, ![64, 500]⟩
abbrev S64x502 : Shape := ⟨2, ![64, 502]⟩
abbrev S501 : Shape := ⟨1, ![501]⟩
abbrev S64x1 : Shape := ⟨2, ![64, 1]⟩
abbrev S64x501x1 : Shape := ⟨3, ![64, 501, 1]⟩
abbrev S64x501x2 : Shape := ⟨3, ![64, 501, 2]⟩
abbrev S64x500x1 : Shape := ⟨3, ![64, 500, 1]⟩
abbrev S1x1x1 : Shape := ⟨3, ![1, 1, 1]⟩
abbrev S1x1x50 : Shape := ⟨3, ![1, 1, 50]⟩
abbrev S64x500x50 : Shape := ⟨3, ![64, 500, 50]⟩
abbrev S64x50x500 : Shape := ⟨3, ![64, 50, 500]⟩
abbrev S64x50x1024 : Shape := ⟨3, ![64, 50, 1024]⟩
abbrev S64x50 : Shape := ⟨2, ![64, 50]⟩

abbrev nBuf : Space → Nat
  | .hbm => 144
  | .vmem => 0
  | .smem => 0
  | _ => 0

abbrev hbmTy0_0 (i : Nat) : BufTy := match i % 128 with
  | 0 => ⟨S64x500x1024, .f32⟩
  | 1 => ⟨S64x501, .f32⟩
  | 2 => ⟨S_, .f32⟩
  | 3 => ⟨S64x501, .f32⟩
  | 4 => ⟨S64x501, .i1⟩
  | 5 => ⟨S64x501, .i32⟩
  | 6 => ⟨S_, .i32⟩
  | 7 => ⟨S1, .i32⟩
  | 8 => ⟨S_, .i32⟩
  | 9 => ⟨S64, .i32⟩
  | 10 => ⟨S64x501, .i32⟩
  | 11 => ⟨S_, .i32⟩
  | 12 => ⟨S_, .i32⟩
  | 13 => ⟨S64x501, .i32⟩
  | 14 => ⟨S64x500, .i32⟩
  | 15 => ⟨S_, .i32⟩
  | 16 => ⟨S64x500, .i32⟩
  | 17 => ⟨S64x500, .i32⟩
  | 18 => ⟨S_, .i32⟩
  | 19 => ⟨S64x501, .i32⟩
  | 20 => ⟨S64x501, .i1⟩
  | 21 => ⟨S_, .i32⟩
  | 22 => ⟨S64x501, .i32⟩
  | 23 => ⟨S64x501, .i32⟩
  | 24 => ⟨S_, .i32⟩
  | 25 => ⟨S_, .i32⟩
  | 26 => ⟨S64x501, .i32⟩
  | 27 => ⟨S64x501, .i32⟩
  | 28 => ⟨S_, .i32⟩
  | 29 => ⟨S64x502, .i32⟩
  | 30 => ⟨S501, .i32⟩
  | 31 => ⟨S64x501, .i32⟩
  | 32 => ⟨S64, .i32⟩
  | 33 => ⟨S64x1, .i32⟩
  | 34 => ⟨S_, .i32⟩
  | 35 => ⟨S64x1, .i32⟩
  | 36 => ⟨S64x1, .i1⟩
  | 37 => ⟨S_, .i32⟩
  | 38 => ⟨S64x1, .i32⟩
  | 39 => ⟨S64x1, .i32⟩
  | 40 => ⟨S64x1, .i32⟩
  | 41 => ⟨S_, .i32⟩
  | 42 => ⟨S64x501, .i32⟩
  | 43 => ⟨S64x501, .i1⟩
  | 44 => ⟨S_, .i32⟩
  | 45 => ⟨S64x501, .i32⟩
  | 46 => ⟨S64x501, .i32⟩
  | 47 => ⟨S64x501, .i32⟩
  | 48 => ⟨S64x501, .i32⟩
  | 49 => ⟨S64x501x1, .i32⟩
  | 50 => ⟨S64x501x1, .i32⟩
  | 51 => ⟨S64x501x2, .i32⟩
  | 52 => ⟨S64x502, .i32⟩
  | 53 => ⟨S_, .i32⟩
  | 54 => ⟨S64x500, .i32⟩
  | 55 => ⟨S64x500, .i1⟩
  | 56 => ⟨S_, .i32⟩
  | 57 => ⟨S64x500, .i32⟩
  | 58 => ⟨S64x500, .i32⟩
  | 59 => ⟨S64x500, .i32⟩
  | 60 => ⟨S64x500x1, .i32⟩
  | 61 => ⟨S1, .i32⟩
  | 62 => ⟨S_, .i32⟩
  | 63 => ⟨S64x500x1, .i32⟩
  | 64 => ⟨S64x500x1, .i1⟩
  | 65 => ⟨S1x1x1, .i32⟩
  | 66 => ⟨S64x500x1, .i32⟩
  | 67 => ⟨S64x500x1, .i1⟩
  | 68 => ⟨S64x500x1, .i1⟩
  | 69 => ⟨S_, .i1⟩
  | 70 => ⟨S64x500, .i1⟩
  | 71 => ⟨S64x500, .i32⟩
  | 72 => ⟨S_, .i32⟩
  | 73 => ⟨S64x500, .i32⟩
  | 74 => ⟨S64x500, .i32⟩
  | 75 => ⟨S_, .i32⟩
  | 76 => ⟨S64x500, .i32⟩
  | 77 => ⟨S64x500, .i32⟩
  | 78 => ⟨S_, .i32⟩
  | 79 => ⟨S64x500, .i32⟩
  | 80 => ⟨S64x500, .i1⟩
  | 81 => ⟨S_, .i32⟩
  | 82 => ⟨S64x500, .i32⟩
  | 83 => ⟨S64x500, .i32⟩
  | 84 => ⟨S64x500, .i32⟩
  | 85 => ⟨S64x500x1, .i32⟩
  | 86 => ⟨S1, .i32⟩
  | 87 => ⟨S_, .i32⟩
  | 88 => ⟨S64x500x1, .i32⟩
  | 89 => ⟨S64x500x1, .i1⟩
  | 90 => ⟨S1x1x1, .i32⟩
  | 91 => ⟨S64x500x1, .i32⟩
  | 92 => ⟨S64x500x1, .i1⟩
  | 93 => ⟨S64x500x1, .i1⟩
  | 94 => ⟨S_, .i1⟩
  | 95 => ⟨S64x500, .i1⟩
  | 96 => ⟨S64x500, .i32⟩
  | 97 => ⟨S_, .i32⟩
  | 98 => ⟨S64x500, .i32⟩
  | 99 => ⟨S64x500, .i32⟩
  | 100 => ⟨S64x500, .i32⟩
  | 101 => ⟨S_, .i32⟩
  | 102 => ⟨S64x500, .i32⟩
  | 103 => ⟨S64x500, .i1⟩
  | 104 => ⟨S_, .i32⟩
  | 105 => ⟨S64x500, .i32⟩
  | 106 => ⟨S64x500, .i1⟩
  | 107 => ⟨S64x500, .i1⟩
  | 108 => ⟨S_, .i32⟩
  | 109 => ⟨S64x500, .i32⟩
  | 110 => ⟨S64x500, .i1⟩
  | 111 => ⟨S64x500, .i1⟩
  | 112 => ⟨S_, .i32⟩
  | 113 => ⟨S64x500, .i32⟩
  | 114 => ⟨S64x500, .i1⟩
  | 115 => ⟨S64x500, .i1⟩
  | 116 => ⟨S_, .i32⟩
  | 117 => ⟨S64x500, .i32⟩
  | 118 => ⟨S64x500, .i32⟩
  | 119 => ⟨S64x500, .f32⟩
  | 120 => ⟨S_, .f32⟩
  | 121 => ⟨S64x500, .f32⟩
  | 122 => ⟨S64x500, .f32⟩
  | 123 => ⟨S_, .f32⟩
  | 124 => ⟨S_, .f32⟩
  | 125 => ⟨S64x500, .f32⟩
  | 126 => ⟨S64x500, .f32⟩
  | 127 => ⟨S_, .i32⟩
  | _ => ⟨S64x500x1024, .f32⟩

abbrev hbmTy0_1 (i : Nat) : BufTy := match i % 128 with
  | 0 => ⟨S_, .i32⟩
  | 1 => ⟨S64x500, .i32⟩
  | 2 => ⟨S64x500, .i32⟩
  | 3 => ⟨S64x500x1, .i32⟩
  | 4 => ⟨S1x1x50, .i32⟩
  | 5 => ⟨S64x500x50, .i32⟩
  | 6 => ⟨S64x500x50, .i32⟩
  | 7 => ⟨S64x500x50, .i1⟩
  | 8 => ⟨S64x500x50, .f32⟩
  | 9 => ⟨S64x500x1, .f32⟩
  | 10 => ⟨S64x500x50, .f32⟩
  | 11 => ⟨S64x500x50, .f32⟩
  | 12 => ⟨S64x50x500, .f32⟩
  | 13 => ⟨S64x50x1024, .f32⟩
  | 14 => ⟨S_, .f32⟩
  | 15 => ⟨S64x50, .f32⟩
  | _ => ⟨S64x500x1024, .f32⟩

abbrev hbmTy (i : Nat) : BufTy := match i / 128 with
  | 0 => hbmTy0_0 i
  | 1 => hbmTy0_1 i
  | _ => ⟨S64x500x1024, .f32⟩

abbrev bufTy : (tb : Table) → Fin (tcTables nBuf tb) → BufTy
  | .hbm, ⟨i, _⟩ => hbmTy i
  | _, _ => ⟨S64x500x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_call0_call0_c : Ref sig .tc := ⟨.hbm, 11, rfl⟩
abbrev main_call0_call0_v0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_call1_v0 : Ref sig .tc := ⟨.hbm, 25, rfl⟩
abbrev main_call1_v1 : Ref sig .tc := ⟨.hbm, 26, rfl⟩
abbrev main_v14 : Ref sig .tc := ⟨.hbm, 27, rfl⟩
abbrev main_c_5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_6 : Ref sig .tc := ⟨.hbm, 34, rfl⟩
abbrev main_v20 : Ref sig .tc := ⟨.hbm, 35, rfl⟩
abbrev main_v21 : Ref sig .tc := ⟨.hbm, 36, rfl⟩
abbrev main_c_7 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_8 : Ref sig .tc := ⟨.hbm, 41, rfl⟩
abbrev main_v25 : Ref sig .tc := ⟨.hbm, 42, rfl⟩
abbrev main_v26 : Ref sig .tc := ⟨.hbm, 43, rfl⟩
abbrev main_c_9 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c_1 : Ref sig .tc := ⟨.hbm, 61, rfl⟩
abbrev main_call2_c_2 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_3 : Ref sig .tc := ⟨.hbm, 69, rfl⟩
abbrev main_call2_v12 : Ref sig .tc := ⟨.hbm, 70, rfl⟩
abbrev main_call2_v13 : Ref sig .tc := ⟨.hbm, 71, rfl⟩
abbrev main_call2_c_4 : Ref sig .tc := ⟨.hbm, 72, rfl⟩
abbrev main_call2_v14 : Ref sig .tc := ⟨.hbm, 73, rfl⟩
abbrev main_v35 : Ref sig .tc := ⟨.hbm, 74, rfl⟩
abbrev main_c_10 : Ref sig .tc := ⟨.hbm, 75, rfl⟩
abbrev main_v36 : Ref sig .tc := ⟨.hbm, 76, rfl⟩
abbrev main_v37 : Ref sig .tc := ⟨.hbm, 77, rfl⟩
abbrev main_call3_c : Ref sig .tc := ⟨.hbm, 78, rfl⟩
abbrev main_call3_v0 : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_c_1 : Ref sig .tc := ⟨.hbm, 86, rfl⟩
abbrev main_call3_c_2 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_3 : Ref sig .tc := ⟨.hbm, 94, rfl⟩
abbrev main_call3_v12 : Ref sig .tc := ⟨.hbm, 95, rfl⟩
abbrev main_call3_v13 : Ref sig .tc := ⟨.hbm, 96, rfl⟩
abbrev main_call3_c_4 : Ref sig .tc := ⟨.hbm, 97, rfl⟩
abbrev main_call3_v14 : Ref sig .tc := ⟨.hbm, 98, rfl⟩
abbrev main_v38 : Ref sig .tc := ⟨.hbm, 99, rfl⟩
abbrev main_v39 : Ref sig .tc := ⟨.hbm, 100, rfl⟩
abbrev main_c_11 : Ref sig .tc := ⟨.hbm, 101, rfl⟩
abbrev main_v40 : Ref sig .tc := ⟨.hbm, 102, rfl⟩
abbrev main_v41 : Ref sig .tc := ⟨.hbm, 103, rfl⟩
abbrev main_c_12 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_c_13 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_c_14 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_c_15 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_cst_16 : Ref sig .tc := ⟨.hbm, 120, rfl⟩
abbrev main_v54 : Ref sig .tc := ⟨.hbm, 121, rfl⟩
abbrev main_v55 : Ref sig .tc := ⟨.hbm, 122, rfl⟩
abbrev main_cst_17 : Ref sig .tc := ⟨.hbm, 123, rfl⟩
abbrev main_call4_v0 : Ref sig .tc := ⟨.hbm, 124, rfl⟩
abbrev main_call4_v1 : Ref sig .tc := ⟨.hbm, 125, rfl⟩
abbrev main_v56 : Ref sig .tc := ⟨.hbm, 126, rfl⟩
abbrev main_c_18 : Ref sig .tc := ⟨.hbm, 127, rfl⟩
abbrev main_call5_v0 : Ref sig .tc := ⟨.hbm, 128, rfl⟩
abbrev main_call5_v1 : Ref sig .tc := ⟨.hbm, 129, rfl⟩
abbrev main_v57 : Ref sig .tc := ⟨.hbm, 130, rfl⟩
abbrev main_call6_v0 : Ref sig .tc := ⟨.hbm, 131, rfl⟩
abbrev main_call6_v1 : Ref sig .tc := ⟨.hbm, 132, rfl⟩
abbrev main_call6_v2 : Ref sig .tc := ⟨.hbm, 133, rfl⟩
abbrev main_call6_v3 : Ref sig .tc := ⟨.hbm, 134, rfl⟩
abbrev main_call6_v4 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_cst_19 : Ref sig .tc := ⟨.hbm, 142, rfl⟩
abbrev main_v64 : Ref sig .tc := ⟨.hbm, 143, rfl⟩

abbrev nD : Nat := 1
abbrev τ : Topo := Topo.v7x

variable {F : FTy → Type} [FloatOps F]

class Facts₀ : Prop where
  bcast_S_S64x501 : S_.BroadcastsInDim S64x501 (![] : Fin 0 → Fin S64x501.rank)
  natLt_1_32 : 1 < 32
  bcast_S_S1 : S_.BroadcastsInDim S1 (![] : Fin 0 → Fin S1.rank)
  bcast_S_S64 : S_.BroadcastsInDim S64 (![] : Fin 0 → Fin S64.rank)
  bcast_S_S_ : S_.BroadcastsInDim S_ (![] : Fin 0 → Fin S_.rank)
  reduceWindows_S64x501_S64x501_w1s1p0_0_w501s1p500_0 : S64x501.ReduceWindows (![1, 501] : Fin 2 → Nat) ![1, 1] ![0, 500] ![0, 0] S64x501
  h_S_ : 0 < S_.numel
  slices_S64x501_S64x500_0_0 : S64x501.Slices ![0, 0] S64x500
  bcast_S_S64x500 : S_.BroadcastsInDim S64x500 (![] : Fin 0 → Fin S64x500.rank)
  bcast_S_S64x502 : S_.BroadcastsInDim S64x502 (![] : Fin 0 → Fin S64x502.rank)
  bcast_S501_S64x501_1 : S501.BroadcastsInDim S64x501 (![1] : Fin 1 → Fin S64x501.rank)
  bcast_S64_S64x1_0 : S64.BroadcastsInDim S64x1 (![0] : Fin 1 → Fin S64x1.rank)
  bcast_S_S64x1 : S_.BroadcastsInDim S64x1 (![] : Fin 0 → Fin S64x1.rank)
  bcast_S64x1_S64x501_0_1 : S64x1.BroadcastsInDim S64x501 (![0, 1] : Fin 2 → Fin S64x501.rank)
  bcast_S64x501_S64x501x1_0_1 : S64x501.BroadcastsInDim S64x501x1 (![0, 1] : Fin 2 → Fin S64x501x1.rank)
  concatenates_S64x501x1_S64x501x1_S64x501x2_d2 : Shape.Concatenates [S64x501x1, S64x501x1] S64x501x2 2
  shapeCasts_S64x500_S64x500x1 : S64x500.ShapeCasts S64x500x1
  bcast_S_S64x500x1 : S_.BroadcastsInDim S64x500x1 (![] : Fin 0 → Fin S64x500x1.rank)
  bcast_S1_S1x1x1_2 : S1.BroadcastsInDim S1x1x1 (![2] : Fin 1 → Fin S1x1x1.rank)
  bcast_S1x1x1_S64x500x1_0_1_2 : S1x1x1.BroadcastsInDim S64x500x1 (![0, 1, 2] : Fin 3 → Fin S64x500x1.rank)
  reducesTo_S64x500x1_S64x500_d2 : S64x500x1.ReducesTo [2] S64x500
  bcast_S64x500_S64x500x1_0_1 : S64x500.BroadcastsInDim S64x500x1 (![0, 1] : Fin 2 → Fin S64x500x1.rank)
  bcast_S64x500x1_S64x500x50_0_1_2 : S64x500x1.BroadcastsInDim S64x500x50 (![0, 1, 2] : Fin 3 → Fin S64x500x50.rank)
  bcast_S1x1x50_S64x500x50_0_1_2 : S1x1x50.BroadcastsInDim S64x500x50 (![0, 1, 2] : Fin 3 → Fin S64x500x50.rank)
  transposes_S64x500x50_S64x50x500_0_2_1 : S64x500x50.Transposes [0, 2, 1] S64x50x500
  reducesTo_S64x50x500_S64x50_d2 : S64x50x500.ReducesTo [2] S64x50
  scatter_S64x501_S1_S64_0_1_1_0_wf : ScatterDims.WF S64x501 S1 S64 [0] [1] [1] 0
  scatter_S64x502_S64x501x2_S64x501_n_01_01_2_wf : ScatterDims.WF S64x502 S64x501x2 S64x501 [] [0, 1] [0, 1] 2
  gather_S64x502_S64x500x1_S64x500_n_1_0_0_1_2_11_wf : GatherDims.WF S64x502 S64x500x1 S64x500 [] [1] [0] [1] [0] 2 ![1, 1]
  dot_S64x50x500_S64x500x1024_S64x50x1024_2_1_1_2_0_0_wf : DotDims.WF S64x50x500 S64x500x1024 S64x50x1024 [2] [1] [1] [2] [0] [0]

variable [Facts₀]

def scatter_S64x501_S1_S64_0_1_1_0 : ScatterDims S64x501 S1 S64 where
  updateWindowDims := [0]
  insertedWindowDims := [1]
  scatterDimsToOperandDims := [1]
  indexVectorDim := 0
  wf := scatter_S64x501_S1_S64_0_1_1_0_wf
def scatter_S64x502_S64x501x2_S64x501_n_01_01_2 : ScatterDims S64x502 S64x501x2 S64x501 where
  updateWindowDims := []
  insertedWindowDims := [0, 1]
  scatterDimsToOperandDims := [0, 1]
  indexVectorDim := 2
  wf := scatter_S64x502_S64x501x2_S64x501_n_01_01_2_wf
def gather_S64x502_S64x500x1_S64x500_n_1_0_0_1_2_11 : GatherDims S64x502 S64x500x1 S64x500 where
  offsetDims := []
  collapsedSliceDims := [1]
  operandBatchingDims := [0]
  startIndicesBatchingDims := [0]
  startIndexMap := [1]
  indexVectorDim := 2
  sliceSizes := ![1, 1]
  wf := gather_S64x502_S64x500x1_S64x500_n_1_0_0_1_2_11_wf
def dot_S64x50x500_S64x500x1024_S64x50x1024_2_1_1_2_0_0 : DotDims S64x50x500 S64x500x1024 S64x50x1024 where
  lhsContracting := [2]
  rhsContracting := [1]
  lhsNonContracting := [1]
  rhsNonContracting := [2]
  lhsBatch := [0]
  rhsBatch := [0]
  wf := dot_S64x50x500_S64x500x1024_S64x50x1024_2_1_1_2_0_0_wf

class Facts : Prop extends Facts₀ where

variable [Facts]
-- ==== Proof.MaskSpec.lean ====
/-
  The segment-mean weights as ONE function of the boundary indicators.

  Both programs build, from `in_boundary : f32[64, 501]`, the same weight array `mask : f32[64, 50, 500]`
  with the same chain of host operations: `mask[b, s, l] = 1 / len(segment s of row b)` if frame `l` lies in
  segment `s` and that segment is kept, else `0`.  This module names that chain stage by stage as pure
  functions, generic in the float instance; each stage takes the arrays it reads, and the weights are their
  composition:

    bnd     : the 0/1 boundary flags with slot 0 of every row forced to 1;
    csOf    : the running count of flags along a row (a windowed sum over the 501 slots ending at the slot);
    segIdOf : the segment index of each of the 500 frames (the count on the first 500 slots, minus one);
    ranksOf : the rank of a slot among its row's boundaries where it is one, 501 elsewhere;
    posOf   : per row, the slot of the r-th boundary (a scatter-min of the slot numbers by rank, 510 where none);
    take    : `take_along_axis` of a row table at (possibly negative, wrapped) indices, out of range → INT_MIN;
    keepOf  : the frames whose segment is real, ends within the 500 frames, is one of the first 50, is non-empty;
    recipOf : `1 / max(len, 1)`;
    hotOf   : the one-hot rows of the (clamped) segment index over 50 segments;
    maskOf  : one-hot rows times the frame's weight, transposed to [row, segment, frame].

  Nothing here is evaluated: the two runs are read back to exactly these terms, and the value claims only use
  that the two programs apply the same function to the same indicators.
-/
import proofs.«148147_j35012573397109_1_alg».proof.KernelIdeal

noncomputable section

namespace Cert.SegMask

open Idealize.ShloMosaic Idealize.SL.Sem Cert.KernelIdeal
open Cert.KernelIdeal.Facts₀

variable {F : FTy → Type} [FloatOps F] [Facts₀]

/-- Contents of a buffer of shape `S` and element type `e` at the instance `F`. -/
abbrev C (F : FTy → Type) (S : Shape) (e : EltTy) : Type := (⟨S, e⟩ : BufTy).Contents (Elt F)

/-- A 32-bit integer constant splat over `S`. -/
abbrev splatI (F : FTy → Type) [FloatOps F] (S : Shape) (h : S_.BroadcastsInDim S (![] : Fin 0 → Fin S.rank)) (w : BitVec 32) : C F S .i32 :=
  broadcastInDim S ![] h (constantI S_ 32 w : C F S_ .i32)

/-- The boundary flags: `in_boundary ≠ 0` as 0/1 words, with slot 0 of every row overwritten by 1. -/
def bnd (a : C F S64x501 .f32) : C F S64x501 .i32 :=
  Host.scatter scatter_S64x501_S1_S64_0_1_1_0 (fun _ b => b)
    (extui 32 (cmpf .une a (broadcastInDim S64x501 ![] bcast_S_S64x501 (constant S_ .f32 0x00000000#32 : C F S_ .f32))) natLt_1_32 : C F S64x501 .i32)
    (broadcastInDim S1 ![] bcast_S_S1 (constantI S_ 32 0#32 : C F S_ .i32) : C F S1 .i32)
    (broadcastInDim S64 ![] bcast_S_S64 (constantI S_ 32 1#32 : C F S_ .i32) : C F S64 .i32)

/-- The running count of flags along each row: the sum over the window of 501 slots ending at the slot. -/
def csOf (b : C F S64x501 .i32) : C F S64x501 .i32 :=
  Host.reduceWindow IntOp.addi ![1, 501] ![1, 1] ![0, 500] ![0, 0] b
    (broadcastInDim S_ ![] bcast_S_S_ (constantI S_ 32 0#32 : C F S_ .i32) : C F S_ .i32)
    reduceWindows_S64x501_S64x501_w1s1p0_0_w501s1p500_0 h_S_

/-- The segment index of each frame: the running count on the first 500 slots, minus one. -/
def segIdOf (c : C F S64x501 .i32) : C F S64x500 .i32 :=
  subi (extractStridedSlice S64x500 ![0, 0] c slices_S64x501_S64x500_0_0 : C F S64x500 .i32) (splatI F S64x500 bcast_S_S64x500 1#32)

/-- Which slots are boundaries. -/
def isBndOf (b : C F S64x501 .i32) : C F S64x501 .i1 := cmpi .eq b (splatI F S64x501 bcast_S_S64x501 1#32)

/-- The running count minus one: a boundary's rank in its row. -/
def rankOf (c : C F S64x501 .i32) : C F S64x501 .i32 := subi c (splatI F S64x501 bcast_S_S64x501 1#32)

/-- The column that takes every slot that is no boundary. -/
def dumpCol : C F S_ .i32 := constantI S_ 32 501#32

/-- `where p, d, k` over the slots: `d` where `p`, the scalar `k` elsewhere. -/
def whereSlots (p : C F S64x501 .i1) (d : C F S64x501 .i32) (k : C F S_ .i32) : C F S64x501 .i32 :=
  select p d (broadcastInDim S64x501 ![] bcast_S_S64x501 (id k) : C F S64x501 .i32)

/-- The row numbers 0 … 63 as a column, wrapped into range the way jnp indexing wraps negatives. -/
def rowIx : C F S64x1 .i32 :=
  select (cmpi .slt (broadcastInDim S64x1 ![0] bcast_S64_S64x1_0 (iotaInDim S64 32 0 : C F S64 .i32) : C F S64x1 .i32) (splatI F S64x1 bcast_S_S64x1 0#32) : C F S64x1 .i1)
    (addi (broadcastInDim S64x1 ![0] bcast_S64_S64x1_0 (iotaInDim S64 32 0 : C F S64 .i32) : C F S64x1 .i32) (splatI F S64x1 bcast_S_S64x1 64#32) : C F S64x1 .i32)
    (broadcastInDim S64x1 ![0] bcast_S64_S64x1_0 (iotaInDim S64 32 0 : C F S64 .i32) : C F S64x1 .i32)

/-- The ranks wrapped into range the same way (over the 502 columns of the table). -/
def colIxOf (r : C F S64x501 .i32) : C F S64x501 .i32 :=
  select (cmpi .slt r (splatI F S64x501 bcast_S_S64x501 0#32) : C F S64x501 .i1)
    (addi r (splatI F S64x501 bcast_S_S64x501 502#32) : C F S64x501 .i32) r

/-- Per row, the slot of the r-th boundary: 510 everywhere, then the minimum of the slot numbers scattered at
    (row, rank of the slot). -/
def posOf (r : C F S64x501 .i32) : C F S64x502 .i32 :=
  Host.scatter scatter_S64x502_S64x501x2_S64x501_n_01_01_2 IntOp.minsi
    (splatI F S64x502 bcast_S_S64x502 510#32)
    (concatenate S64x501x2 2
      [⟨S64x501x1, (broadcastInDim S64x501x1 ![0, 1] bcast_S64x501_S64x501x1_0_1
          (broadcastInDim S64x501 ![0, 1] bcast_S64x1_S64x501_0_1 (rowIx (F := F)) : C F S64x501 .i32) : C F S64x501x1 .i32)⟩,
       ⟨S64x501x1, (broadcastInDim S64x501x1 ![0, 1] bcast_S64x501_S64x501x1_0_1 (colIxOf r) : C F S64x501x1 .i32)⟩]
      concatenates_S64x501x1_S64x501x1_S64x501x2_d2 : C F S64x501x2 .i32)
    (broadcastInDim S64x501 ![1] bcast_S501_S64x501_1 (iotaInDim S501 32 0 : C F S501 .i32) : C F S64x501 .i32)

/-- The wrapped index column of a `take_along_axis`: negatives moved up by 502, as a trailing unit axis. -/
def takeIx (i : C F S64x500 .i32) : C F S64x500x1 .i32 :=
  shapeCast S64x500x1
    (select (cmpi .slt i (splatI F S64x500 bcast_S_S64x500 0#32) : C F S64x500 .i1) (addi i (splatI F S64x500 bcast_S_S64x500 502#32) : C F S64x500 .i32) i : C F S64x500 .i32)
    shapeCasts_S64x500_S64x500x1

/-- `take_along_axis` of the row table `p` at the indices `i`: the gathered entry where the wrapped index lies in
    0 … 501, the smallest integer elsewhere. -/
def take (p : C F S64x502 .i32) (i : C F S64x500 .i32) : C F S64x500 .i32 :=
  select
    (Host.reduce IntOp.andi
      (andi (cmpi .sge (takeIx i) (splatI F S64x500x1 bcast_S_S64x500x1 0#32) : C F S64x500x1 .i1)
        (cmpi .sle (takeIx i)
          (broadcastInDim S64x500x1 ![0, 1, 2] bcast_S1x1x1_S64x500x1_0_1_2
            (broadcastInDim S1x1x1 ![2] bcast_S1_S1x1x1_2 (constantI S1 32 501#32 : C F S1 .i32) : C F S1x1x1 .i32) : C F S64x500x1 .i32) : C F S64x500x1 .i1) : C F S64x500x1 .i1)
      (constantI S_ 1 1#1 : C F S_ .i1) reducesTo_S64x500x1_S64x500_d2 h_S_ : C F S64x500 .i1)
    (Host.gather gather_S64x502_S64x500x1_S64x500_n_1_0_0_1_2_11 p (takeIx i) : C F S64x500 .i32)
    (splatI F S64x500 bcast_S_S64x500 2147483648#32)

/-- The next segment's index. -/
def nextOf (s : C F S64x500 .i32) : C F S64x500 .i32 := addi s (splatI F S64x500 bcast_S_S64x500 1#32)

/-- The length of each frame's segment. -/
def lenOf (stop start : C F S64x500 .i32) : C F S64x500 .i32 := subi stop start

/-- The frames that count: the next boundary exists (`stop < 510`) within the 500 frames, the segment is one of the
    first 50, and it is not empty. -/
def keepOf (stop start s : C F S64x500 .i32) : C F S64x500 .i1 :=
  andi
    (andi
      (andi (cmpi .slt stop (splatI F S64x500 bcast_S_S64x500 510#32) : C F S64x500 .i1)
        (cmpi .sle stop (splatI F S64x500 bcast_S_S64x500 500#32) : C F S64x500 .i1) : C F S64x500 .i1)
      (cmpi .slt s (splatI F S64x500 bcast_S_S64x500 50#32) : C F S64x500 .i1) : C F S64x500 .i1)
    (cmpi .sgt (lenOf stop start) (splatI F S64x500 bcast_S_S64x500 0#32) : C F S64x500 .i1)

/-- The reciprocal of a segment's length, the length taken at least 1. -/
def recipOf (stop start : C F S64x500 .i32) : C F S64x500 .f32 :=
  Host.divf (broadcastInDim S64x500 ![] bcast_S_S64x500 (constant S_ .f32 0x3F800000#32 : C F S_ .f32) : C F S64x500 .f32)
    (sitofp .f32 (maxsi (lenOf stop start) (splatI F S64x500 bcast_S_S64x500 1#32) : C F S64x500 .i32) : C F S64x500 .f32)

/-- The weight of a frame that is not kept. -/
def zeroW : C F S_ .f32 := constant S_ .f32 0x00000000#32

/-- `where p, d, k` over the frames, for float values: `d` where `p`, the scalar `k` elsewhere. -/
def whereFramesF (p : C F S64x500 .i1) (d : C F S64x500 .f32) (k : C F S_ .f32) : C F S64x500 .f32 :=
  select p d (broadcastInDim S64x500 ![] bcast_S_S64x500 (id k) : C F S64x500 .f32)

/-- The segment index given to a frame that is not kept: none of the 50. -/
def noSeg : C F S_ .i32 := constantI S_ 32 50#32

/-- The same for integer values. -/
def whereFramesI (p : C F S64x500 .i1) (d : C F S64x500 .i32) (k : C F S_ .i32) : C F S64x500 .i32 :=
  select p d (broadcastInDim S64x500 ![] bcast_S_S64x500 (id k) : C F S64x500 .i32)

/-- The one-hot rows over the 50 segments. -/
def hotOf (s : C F S64x500 .i32) : C F S64x500x50 .f32 :=
  uitofp .f32
    (cmpi .eq
      (broadcastInDim S64x500x50 ![0, 1, 2] bcast_S64x500x1_S64x500x50_0_1_2
        (broadcastInDim S64x500x1 ![0, 1] bcast_S64x500_S64x500x1_0_1 s : C F S64x500x1 .i32) : C F S64x500x50 .i32)
      (broadcastInDim S64x500x50 ![0, 1, 2] bcast_S1x1x50_S64x500x50_0_1_2 (iotaInDim S1x1x50 32 2 : C F S1x1x50 .i32) : C F S64x500x50 .i32) : C F S64x500x50 .i1)

/-- The weights: the one-hot rows scaled by the frame's weight, as [row, segment, frame]. -/
def maskOf (h : C F S64x500x50 .f32) (w : C F S64x500 .f32) : C F S64x50x500 .f32 :=
  transpose S64x50x500 [0, 2, 1]
    (mulf h
      (broadcastInDim S64x500x50 ![0, 1, 2] bcast_S64x500x1_S64x500x50_0_1_2
        (broadcastInDim S64x500x1 ![0, 1] bcast_S64x500_S64x500x1_0_1 w : C F S64x500x1 .f32) : C F S64x500x50 .f32) : C F S64x500x50 .f32)
    transposes_S64x500x50_S64x50x500_0_2_1

/-! ## The composition -/

/-- The running count of the indicators' flags. -/
def cs (a : C F S64x501 .f32) : C F S64x501 .i32 := csOf (bnd a)
/-- Each frame's segment index. -/
def segId (a : C F S64x501 .f32) : C F S64x500 .i32 := segIdOf (cs a)
/-- Per row, the slot of the r-th boundary. -/
def pos (a : C F S64x501 .f32) : C F S64x502 .i32 := posOf (whereSlots (isBndOf (bnd a)) (rankOf (cs a)) (dumpCol (F := F)))
/-- Where each frame's segment starts, and where the next one starts. -/
def start (a : C F S64x501 .f32) : C F S64x500 .i32 := take (pos a) (segId a)
@[inherit_doc start]
def stop (a : C F S64x501 .f32) : C F S64x500 .i32 := take (pos a) (nextOf (segId a))
/-- The kept frames. -/
def keep (a : C F S64x501 .f32) : C F S64x500 .i1 := keepOf (stop a) (start a) (segId a)
/-- The weight of each frame: the reciprocal of its segment's length where kept, zero elsewhere. -/
def wgt (a : C F S64x501 .f32) : C F S64x500 .f32 := whereFramesF (keep a) (recipOf (stop a) (start a)) (zeroW (F := F))
/-- The weights `mask[b, s, l]`. -/
def mask (a : C F S64x501 .f32) : C F S64x50x500 .f32 :=
  maskOf (hotOf (whereFramesI (keep a) (segId a) (noSeg (F := F)))) (wgt a)

end Cert.SegMask

end
-- ==== Proof.LibHostChain.lean ====
/-
  A straight line of host operations given stretch by stretch.

  A host program is often printed as several stretches of operations run one after the other (a stretch per
  called function, or per window of a long @main).  Running the stretches in order is running the one line made of
  all their operations, so its effect on the buffers is the fold of all the operations' results:
  `chain_map_seq` says the first, and with it `run_seq` applies to the concatenation.
-/
import Idealize.ShloMosaic.Lib.Pipeline.Regions
import Idealize.ShloMosaic.Lib.StableHlo.Run

namespace Idealize.ShloMosaic.StableHlo

open Idealize.SL.Sem

variable {nD : Nat} {τ : Topo} {sig : RefSig} {Val : EltTy → Type} {Λ : Labels}

/-- The chain of the stretches `ls`, each run as a straight line, is the straight line of all their operations
    in order. -/
theorem chain_map_seq (ls : List (List (HloOp τ sig Val))) :
    (Pipeline.chain (ls.map fun l => (seq l : Prog (TpuEff nD τ sig Val Λ .tc) PUnit)) : Prog (TpuEff nD τ sig Val Λ .tc) PUnit)
      = seq ls.flatten := by
  induction ls with
  | nil => rfl
  | cons l ls ih => simp only [List.map_cons, Pipeline.chain_cons, List.flatten_cons, seq_append, ih]

/-- The buffers after the stretches `l₁` then `l₂` are those after `l₂` from those after `l₁`. -/
theorem after_append' (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A property of every operation of every stretch holds of every operation of their concatenation. -/
theorem forall_flatten {P : HloOp τ sig Val → Prop} (ls : List (List (HloOp τ sig Val)))
    (h : ∀ l ∈ ls, l.Forall P) : ls.flatten.Forall P :=
  List.forall_iff_forall_mem.mpr fun op hop => by
    obtain ⟨l, hl, hop⟩ := List.mem_flatten.mp hop
    exact List.forall_iff_forall_mem.mp (h l hl) op hop

end Idealize.ShloMosaic.StableHlo
-- ==== Proof.MaskK.lean ====
/-
  The weights read back from the host operations that build them.

  The 140 operations before the batched product are run stretch by stretch.  Of each stretch two things are
  recorded, for ANY contents `V` of the buffers before it: what it leaves in the buffers later stretches read,
  as the stage function of the weights' specification applied to `V` at the buffers the stretch reads; and that it
  leaves every buffer it does not write as it was.  Chaining the stretches, the weights' buffer ends at
  `SegMask.mask` of the indicators' buffer, whatever else the buffers held.
-/
import proofs.«148147_j35012573397109_1_alg».proof.Proof.MaskSpec
import proofs.«148147_j35012573397109_1_alg».proof.Proof.LibHostChain
import proofs.«148147_j35012573397109_1_alg».proof.Proof.Gen.KernelIdeal.Launch

set_option maxRecDepth 8192

noncomputable section

namespace Cert.KernelIdeal.MaskEval

open Cert.KernelIdeal Cert.KernelIdeal.Gen
open Idealize.ShloMosaic Idealize.ShloMosaic.TcCoe Idealize.ShloMosaic.StableHlo Idealize.SL.Sem

variable {F : FTy → Type} [FloatOps F]

-- the gathers, scatters and windowed sums are folds over an operand's elements: no equation here looks inside one
attribute [local irreducible] Host.reduce Host.gather Host.scatter Host.reduceWindow

/-- An operation whose one written buffer is in the list writes inside the list. -/
theorem wr {op : HloOp τ sig (Elt F)} {y : Ref sig .tc} {W : List (Ref sig .tc)} (h : y ∈ W)
    (e : op.writes = {Proc.devRef .tc y} := by rfl) : op.writes ⊆ (W.map (Proc.devRef (τ := τ) .tc)).toFinset := by
  rw [e, Finset.singleton_subset_iff, List.mem_toFinset]
  exact List.mem_map_of_mem h

/-! ### Stretch 0: the boundary flags -/

/-- The stretch, named so that a rewrite is keyed on the name and never on its operations. -/
def s0 : List (HloOp τ sig (Elt F)) := hostOps0
/-- The buffers it writes. -/
abbrev W0 : List (Ref sig .tc) := [main_cst, main_v0, main_v1, main_v2, main_c, main_v3, main_c_0, main_v4, main_v5]
theorem writes0 : (s0 : List (HloOp τ sig (Elt F))).Forall fun op => op.writes ⊆ (W0.map (Proc.devRef (τ := τ) .tc)).toFinset :=
  ⟨wr (y := main_cst) (by decide), wr (y := main_v0) (by decide), wr (y := main_v1) (by decide), wr (y := main_v2) (by decide), wr (y := main_c) (by decide), wr (y := main_v3) (by decide), wr (y := main_c_0) (by decide), wr (y := main_v4) (by decide), wr (y := main_v5) (by decide)⟩
/-- Every other buffer keeps its contents. -/
theorem keep0 (V : Valuation τ sig (Elt F)) {r : Ref sig .tc} (h : r ∉ W0) :
    after s0 V (no_index (Proc.devRef .tc r)) = V (Proc.devRef .tc r) :=
  after_of_writes_sub _ V writes0 h
set_option maxHeartbeats 1000000 in
theorem out0_main_v5 (V : Valuation τ sig (Elt F)) :
    after s0 V (no_index (Proc.devRef .tc main_v5)) = SegMask.bnd (V (Proc.devRef .tc main_arg1)) := by
  unfold s0; simp only [hostOps0]; after_results <;> rfl

/-! ### Stretch 1: the running count (the call to cumsum) -/

/-- The stretch, named so that a rewrite is keyed on the name and never on its operations. -/
def s1 : List (HloOp τ sig (Elt F)) := hostOps0_1
/-- The buffers it writes. -/
abbrev W1 : List (Ref sig .tc) := [main_call0_call0_c, main_call0_call0_v0, main_v6]
theorem writes1 : (s1 : List (HloOp τ sig (Elt F))).Forall fun op => op.writes ⊆ (W1.map (Proc.devRef (τ := τ) .tc)).toFinset :=
  ⟨wr (y := main_call0_call0_c) (by decide), wr (y := main_call0_call0_v0) (by decide), wr (y := main_v6) (by decide)⟩
/-- Every other buffer keeps its contents. -/
theorem keep1 (V : Valuation τ sig (Elt F)) {r : Ref sig .tc} (h : r ∉ W1) :
    after s1 V (no_index (Proc.devRef .tc r)) = V (Proc.devRef .tc r) :=
  after_of_writes_sub _ V writes1 h
set_option maxHeartbeats 1000000 in
theorem out1_main_v6 (V : Valuation τ sig (Elt F)) :
    after s1 V (no_index (Proc.devRef .tc main_v6)) = SegMask.csOf (F := F) (V (Proc.devRef .tc main_v5)) := by
  unfold s1; simp only [hostOps0_1]; after_results <;> rfl

/-! ### Stretch 2: the segment indices, the boundary test, the ranks, the dump column -/

/-- The stretch, named so that a rewrite is keyed on the name and never on its operations. -/
def s2 : List (HloOp τ sig (Elt F)) := hostOps0_2
/-- The buffers it writes. -/
abbrev W2 : List (Ref sig .tc) := [main_v7, main_c_1, main_v8, main_v9, main_c_2, main_v10, main_v11, main_c_3, main_v12, main_v13, main_c_4]
theorem writes2 : (s2 : List (HloOp τ sig (Elt F))).Forall fun op => op.writes ⊆ (W2.map (Proc.devRef (τ := τ) .tc)).toFinset :=
  ⟨wr (y := main_v7) (by decide), wr (y := main_c_1) (by decide), wr (y := main_v8) (by decide), wr (y := main_v9) (by decide), wr (y := main_c_2) (by decide), wr (y := main_v10) (by decide), wr (y := main_v11) (by decide), wr (y := main_c_3) (by decide), wr (y := main_v12) (by decide), wr (y := main_v13) (by decide), wr (y := main_c_4) (by decide)⟩
/-- Every other buffer keeps its contents. -/
theorem keep2 (V : Valuation τ sig (Elt F)) {r : Ref sig .tc} (h : r ∉ W2) :
    after s2 V (no_index (Proc.devRef .tc r)) = V (Proc.devRef .tc r) :=
  after_of_writes_sub _ V writes2 h
set_option maxHeartbeats 1000000 in
theorem out2_main_v9 (V : Valuation τ sig (Elt F)) :
    after s2 V (no_index (Proc.devRef .tc main_v9)) = SegMask.segIdOf (F := F) (V (Proc.devRef .tc main_v6)) := by
  unfold s2; simp only [hostOps0_2]; after_results <;> rfl
set_option maxHeartbeats 1000000 in
theorem out2_main_v11 (V : Valuation τ sig (Elt F)) :
    after s2 V (no_index (Proc.devRef .tc main_v11)) = SegMask.isBndOf (F := F) (V (Proc.devRef .tc main_v5)) := by
  unfold s2; simp only [hostOps0_2]; after_results <;> rfl
set_option maxHeartbeats 1000000 in
theorem out2_main_v13 (V : Valuation τ sig (Elt F)) :
    after s2 V (no_index (Proc.devRef .tc main_v13)) = SegMask.rankOf (F := F) (V (Proc.devRef .tc main_v6)) := by
  unfold s2; simp only [hostOps0_2]; after_results <;> rfl
set_option maxHeartbeats 1000000 in
theorem out2_main_c_4 (V : Valuation τ sig (Elt F)) :
    after s2 V (no_index (Proc.devRef .tc main_c_4)) = SegMask.dumpCol (F := F) := by
  unfold s2; simp only [hostOps0_2]; after_results <;> rfl

/-! ### Stretch 3: the ranks where a boundary (the call to where) -/

/-- The stretch, named so that a rewrite is keyed on the name and never on its operations. -/
def s3 : List (HloOp τ sig (Elt F)) := hostOps0_3
/-- The buffers it writes. -/
abbrev W3 : List (Ref sig .tc) := [main_call1_v0, main_call1_v1, main_v14]
theorem writes3 : (s3 : List (HloOp τ sig (Elt F))).Forall fun op => op.writes ⊆ (W3.map (Proc.devRef (τ := τ) .tc)).toFinset :=
  ⟨wr (y := main_call1_v0) (by decide), wr (y := main_call1_v1) (by decide), wr (y := main_v14) (by decide)⟩
/-- Every other buffer keeps its contents. -/
theorem keep3 (V : Valuation τ sig (Elt F)) {r : Ref sig .tc} (h : r ∉ W3) :
    after s3 V (no_index (Proc.devRef .tc r)) = V (Proc.devRef .tc r) :=
  after_of_writes_sub _ V writes3 h
set_option maxHeartbeats 1000000 in
theorem out3_main_v14 (V : Valuation τ sig (Elt F)) :
    after s3 V (no_index (Proc.devRef .tc main_v14)) = SegMask.whereSlots (F := F) (V (Proc.devRef .tc main_v11)) (V (Proc.devRef .tc main_v13)) (V (Proc.devRef .tc main_c_4)) := by
  unfold s3; simp only [hostOps0_3]; after_results <;> rfl

/-! ### Stretch 4: the table of boundary slots by rank -/

/-- The stretch, named so that a rewrite is keyed on the name and never on its operations. -/
def s4 : List (HloOp τ sig (Elt F)) := hostOps0_4
/-- The buffers it writes. -/
abbrev W4 : List (Ref sig .tc) := [main_c_5, main_v15, main_v16, main_v17, main_v18, main_v19, main_c_6, main_v20, main_v21, main_c_7, main_v22, main_v23, main_v24, main_c_8, main_v25, main_v26, main_c_9, main_v27, main_v28, main_v29, main_v30, main_v31, main_v32, main_v33, main_v34]
theorem writes4 : (s4 : List (HloOp τ sig (Elt F))).Forall fun op => op.writes ⊆ (W4.map (Proc.devRef (τ := τ) .tc)).toFinset :=
  ⟨wr (y := main_c_5) (by decide), wr (y := main_v15) (by decide), wr (y := main_v16) (by decide), wr (y := main_v17) (by decide), wr (y := main_v18) (by decide), wr (y := main_v19) (by decide), wr (y := main_c_6) (by decide), wr (y := main_v20) (by decide), wr (y := main_v21) (by decide), wr (y := main_c_7) (by decide), wr (y := main_v22) (by decide), wr (y := main_v23) (by decide), wr (y := main_v24) (by decide), wr (y := main_c_8) (by decide), wr (y := main_v25) (by decide), wr (y := main_v26) (by decide), wr (y := main_c_9) (by decide), wr (y := main_v27) (by decide), wr (y := main_v28) (by decide), wr (y := main_v29) (by decide), wr (y := main_v30) (by decide), wr (y := main_v31) (by decide), wr (y := main_v32) (by decide), wr (y := main_v33) (by decide), wr (y := main_v34) (by decide)⟩
/-- Every other buffer keeps its contents. -/
theorem keep4 (V : Valuation τ sig (Elt F)) {r : Ref sig .tc} (h : r ∉ W4) :
    after s4 V (no_index (Proc.devRef .tc r)) = V (Proc.devRef .tc r) :=
  after_of_writes_sub _ V writes4 h
set_option maxHeartbeats 1000000 in
theorem out4_main_v34 (V : Valuation τ sig (Elt F)) :
    after s4 V (no_index (Proc.devRef .tc main_v34)) = SegMask.posOf (F := F) (V (Proc.devRef .tc main_v14)) := by
  unfold s4; simp only [hostOps0_4]; after_results <;> rfl

/-! ### Stretch 5: where each frame's segment starts (the first take_along_axis) -/

/-- The stretch, named so that a rewrite is keyed on the name and never on its operations. -/
def s5 : List (HloOp τ sig (Elt F)) := hostOps0_5
/-- The buffers it writes. -/
abbrev W5 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_c_4, main_call2_v14, main_v35]
theorem writes5 : (s5 : List (HloOp τ sig (Elt F))).Forall fun op => op.writes ⊆ (W5.map (Proc.devRef (τ := τ) .tc)).toFinset :=
  ⟨wr (y := main_call2_c) (by decide), wr (y := main_call2_v0) (by decide), wr (y := main_call2_v1) (by decide), wr (y := main_call2_c_0) (by decide), wr (y := main_call2_v2) (by decide), wr (y := main_call2_v3) (by decide), wr (y := main_call2_v4) (by decide), wr (y := main_call2_v5) (by decide), wr (y := main_call2_c_1) (by decide), wr (y := main_call2_c_2) (by decide), wr (y := main_call2_v6) (by decide), wr (y := main_call2_v7) (by decide), wr (y := main_call2_v8) (by decide), wr (y := main_call2_v9) (by decide), wr (y := main_call2_v10) (by decide), wr (y := main_call2_v11) (by decide), wr (y := main_call2_c_3) (by decide), wr (y := main_call2_v12) (by decide), wr (y := main_call2_v13) (by decide), wr (y := main_call2_c_4) (by decide), wr (y := main_call2_v14) (by decide), wr (y := main_v35) (by decide)⟩
/-- Every other buffer keeps its contents. -/
theorem keep5 (V : Valuation τ sig (Elt F)) {r : Ref sig .tc} (h : r ∉ W5) :
    after s5 V (no_index (Proc.devRef .tc r)) = V (Proc.devRef .tc r) :=
  after_of_writes_sub _ V writes5 h
set_option maxHeartbeats 1000000 in
theorem out5_main_v35 (V : Valuation τ sig (Elt F)) :
    after s5 V (no_index (Proc.devRef .tc main_v35)) = SegMask.take (F := F) (V (Proc.devRef .tc main_v34)) (V (Proc.devRef .tc main_v9)) := by
  unfold s5; simp only [hostOps0_5]; after_results <;> rfl

/-! ### Stretch 6: the next segment's index -/

/-- The stretch, named so that a rewrite is keyed on the name and never on its operations. -/
def s6 : List (HloOp τ sig (Elt F)) := hostOps0_6
/-- The buffers it writes. -/
abbrev W6 : List (Ref sig .tc) := [main_c_10, main_v36, main_v37]
theorem writes6 : (s6 : List (HloOp τ sig (Elt F))).Forall fun op => op.writes ⊆ (W6.map (Proc.devRef (τ := τ) .tc)).toFinset :=
  ⟨wr (y := main_c_10) (by decide), wr (y := main_v36) (by decide), wr (y := main_v37) (by decide)⟩
/-- Every other buffer keeps its contents. -/
theorem keep6 (V : Valuation τ sig (Elt F)) {r : Ref sig .tc} (h : r ∉ W6) :
    after s6 V (no_index (Proc.devRef .tc r)) = V (Proc.devRef .tc r) :=
  after_of_writes_sub _ V writes6 h
set_option maxHeartbeats 1000000 in
theorem out6_main_v37 (V : Valuation τ sig (Elt F)) :
    after s6 V (no_index (Proc.devRef .tc main_v37)) = SegMask.nextOf (F := F) (V (Proc.devRef .tc main_v9)) := by
  unfold s6; simp only [hostOps0_6]; after_results <;> rfl

/-! ### Stretch 7: where the next segment starts (the second take_along_axis) -/

/-- The stretch, named so that a rewrite is keyed on the name and never on its operations. -/
def s7 : List (HloOp τ sig (Elt F)) := hostOps0_7
/-- The buffers it writes. -/
abbrev W7 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_c_4, main_call3_v14, main_v38]
theorem writes7 : (s7 : List (HloOp τ sig (Elt F))).Forall fun op => op.writes ⊆ (W7.map (Proc.devRef (τ := τ) .tc)).toFinset :=
  ⟨wr (y := main_call3_c) (by decide), wr (y := main_call3_v0) (by decide), wr (y := main_call3_v1) (by decide), wr (y := main_call3_c_0) (by decide), wr (y := main_call3_v2) (by decide), wr (y := main_call3_v3) (by decide), wr (y := main_call3_v4) (by decide), wr (y := main_call3_v5) (by decide), wr (y := main_call3_c_1) (by decide), wr (y := main_call3_c_2) (by decide), wr (y := main_call3_v6) (by decide), wr (y := main_call3_v7) (by decide), wr (y := main_call3_v8) (by decide), wr (y := main_call3_v9) (by decide), wr (y := main_call3_v10) (by decide), wr (y := main_call3_v11) (by decide), wr (y := main_call3_c_3) (by decide), wr (y := main_call3_v12) (by decide), wr (y := main_call3_v13) (by decide), wr (y := main_call3_c_4) (by decide), wr (y := main_call3_v14) (by decide), wr (y := main_v38) (by decide)⟩
/-- Every other buffer keeps its contents. -/
theorem keep7 (V : Valuation τ sig (Elt F)) {r : Ref sig .tc} (h : r ∉ W7) :
    after s7 V (no_index (Proc.devRef .tc r)) = V (Proc.devRef .tc r) :=
  after_of_writes_sub _ V writes7 h
set_option maxHeartbeats 1000000 in
theorem out7_main_v38 (V : Valuation τ sig (Elt F)) :
    after s7 V (no_index (Proc.devRef .tc main_v38)) = SegMask.take (F := F) (V (Proc.devRef .tc main_v34)) (V (Proc.devRef .tc main_v37)) := by
  unfold s7; simp only [hostOps0_7]; after_results <;> rfl

/-! ### Stretch 8: the kept frames, the reciprocal lengths, the zero weight -/

/-- The stretch, named so that a rewrite is keyed on the name and never on its operations. -/
def s8 : List (HloOp τ sig (Elt F)) := hostOps0_8
/-- The buffers it writes. -/
abbrev W8 : List (Ref sig .tc) := [main_v39, main_c_11, main_v40, main_v41, main_c_12, main_v42, main_v43, main_v44, main_c_13, main_v45, main_v46, main_v47, main_c_14, main_v48, main_v49, main_v50, main_c_15, main_v51, main_v52, main_v53, main_cst_16, main_v54, main_v55, main_cst_17]
theorem writes8 : (s8 : List (HloOp τ sig (Elt F))).Forall fun op => op.writes ⊆ (W8.map (Proc.devRef (τ := τ) .tc)).toFinset :=
  ⟨wr (y := main_v39) (by decide), wr (y := main_c_11) (by decide), wr (y := main_v40) (by decide), wr (y := main_v41) (by decide), wr (y := main_c_12) (by decide), wr (y := main_v42) (by decide), wr (y := main_v43) (by decide), wr (y := main_v44) (by decide), wr (y := main_c_13) (by decide), wr (y := main_v45) (by decide), wr (y := main_v46) (by decide), wr (y := main_v47) (by decide), wr (y := main_c_14) (by decide), wr (y := main_v48) (by decide), wr (y := main_v49) (by decide), wr (y := main_v50) (by decide), wr (y := main_c_15) (by decide), wr (y := main_v51) (by decide), wr (y := main_v52) (by decide), wr (y := main_v53) (by decide), wr (y := main_cst_16) (by decide), wr (y := main_v54) (by decide), wr (y := main_v55) (by decide), wr (y := main_cst_17) (by decide)⟩
/-- Every other buffer keeps its contents. -/
theorem keep8 (V : Valuation τ sig (Elt F)) {r : Ref sig .tc} (h : r ∉ W8) :
    after s8 V (no_index (Proc.devRef .tc r)) = V (Proc.devRef .tc r) :=
  after_of_writes_sub _ V writes8 h
set_option maxHeartbeats 1000000 in
theorem out8_main_v50 (V : Valuation τ sig (Elt F)) :
    after s8 V (no_index (Proc.devRef .tc main_v50)) = SegMask.keepOf (F := F) (V (Proc.devRef .tc main_v38)) (V (Proc.devRef .tc main_v35)) (V (Proc.devRef .tc main_v9)) := by
  unfold s8; simp only [hostOps0_8]; after_results <;> rfl
set_option maxHeartbeats 1000000 in
theorem out8_main_v55 (V : Valuation τ sig (Elt F)) :
    after s8 V (no_index (Proc.devRef .tc main_v55)) = SegMask.recipOf (F := F) (V (Proc.devRef .tc main_v38)) (V (Proc.devRef .tc main_v35)) := by
  unfold s8; simp only [hostOps0_8]; after_results <;> rfl
set_option maxHeartbeats 1000000 in
theorem out8_main_cst_17 (V : Valuation τ sig (Elt F)) :
    after s8 V (no_index (Proc.devRef .tc main_cst_17)) = SegMask.zeroW (F := F) := by
  unfold s8; simp only [hostOps0_8]; after_results <;> rfl

/-! ### Stretch 9: the frames' weights (the call to where) -/

/-- The stretch, named so that a rewrite is keyed on the name and never on its operations. -/
def s9 : List (HloOp τ sig (Elt F)) := hostOps0_9
/-- The buffers it writes. -/
abbrev W9 : List (Ref sig .tc) := [main_call4_v0, main_call4_v1, main_v56]
theorem writes9 : (s9 : List (HloOp τ sig (Elt F))).Forall fun op => op.writes ⊆ (W9.map (Proc.devRef (τ := τ) .tc)).toFinset :=
  ⟨wr (y := main_call4_v0) (by decide), wr (y := main_call4_v1) (by decide), wr (y := main_v56) (by decide)⟩
/-- Every other buffer keeps its contents. -/
theorem keep9 (V : Valuation τ sig (Elt F)) {r : Ref sig .tc} (h : r ∉ W9) :
    after s9 V (no_index (Proc.devRef .tc r)) = V (Proc.devRef .tc r) :=
  after_of_writes_sub _ V writes9 h
set_option maxHeartbeats 1000000 in
theorem out9_main_v56 (V : Valuation τ sig (Elt F)) :
    after s9 V (no_index (Proc.devRef .tc main_v56)) = SegMask.whereFramesF (F := F) (V (Proc.devRef .tc main_v50)) (V (Proc.devRef .tc main_v55)) (V (Proc.devRef .tc main_cst_17)) := by
  unfold s9; simp only [hostOps0_9]; after_results <;> rfl

/-! ### Stretch 10: the index of no segment -/

/-- The stretch, named so that a rewrite is keyed on the name and never on its operations. -/
def s10 : List (HloOp τ sig (Elt F)) := hostOps0_10
/-- The buffers it writes. -/
abbrev W10 : List (Ref sig .tc) := [main_c_18]
theorem writes10 : (s10 : List (HloOp τ sig (Elt F))).Forall fun op => op.writes ⊆ (W10.map (Proc.devRef (τ := τ) .tc)).toFinset :=
  wr (y := main_c_18) (by decide)
/-- Every other buffer keeps its contents. -/
theorem keep10 (V : Valuation τ sig (Elt F)) {r : Ref sig .tc} (h : r ∉ W10) :
    after s10 V (no_index (Proc.devRef .tc r)) = V (Proc.devRef .tc r) :=
  after_of_writes_sub _ V writes10 h
set_option maxHeartbeats 1000000 in
theorem out10_main_c_18 (V : Valuation τ sig (Elt F)) :
    after s10 V (no_index (Proc.devRef .tc main_c_18)) = SegMask.noSeg (F := F) := by
  unfold s10; simp only [hostOps0_10]; after_results <;> rfl

/-! ### Stretch 11: the clamped segment indices (the call to where) -/

/-- The stretch, named so that a rewrite is keyed on the name and never on its operations. -/
def s11 : List (HloOp τ sig (Elt F)) := hostOps0_11
/-- The buffers it writes. -/
abbrev W11 : List (Ref sig .tc) := [main_call5_v0, main_call5_v1, main_v57]
theorem writes11 : (s11 : List (HloOp τ sig (Elt F))).Forall fun op => op.writes ⊆ (W11.map (Proc.devRef (τ := τ) .tc)).toFinset :=
  ⟨wr (y := main_call5_v0) (by decide), wr (y := main_call5_v1) (by decide), wr (y := main_v57) (by decide)⟩
/-- Every other buffer keeps its contents. -/
theorem keep11 (V : Valuation τ sig (Elt F)) {r : Ref sig .tc} (h : r ∉ W11) :
    after s11 V (no_index (Proc.devRef .tc r)) = V (Proc.devRef .tc r) :=
  after_of_writes_sub _ V writes11 h
set_option maxHeartbeats 1000000 in
theorem out11_main_v57 (V : Valuation τ sig (Elt F)) :
    after s11 V (no_index (Proc.devRef .tc main_v57)) = SegMask.whereFramesI (F := F) (V (Proc.devRef .tc main_v50)) (V (Proc.devRef .tc main_v9)) (V (Proc.devRef .tc main_c_18)) := by
  unfold s11; simp only [hostOps0_11]; after_results <;> rfl

/-! ### Stretch 12: the one-hot rows (the call to one_hot) -/

/-- The stretch, named so that a rewrite is keyed on the name and never on its operations. -/
def s12 : List (HloOp τ sig (Elt F)) := hostOps0_12
/-- The buffers it writes. -/
abbrev W12 : List (Ref sig .tc) := [main_call6_v0, main_call6_v1, main_call6_v2, main_call6_v3, main_call6_v4, main_v58]
theorem writes12 : (s12 : List (HloOp τ sig (Elt F))).Forall fun op => op.writes ⊆ (W12.map (Proc.devRef (τ := τ) .tc)).toFinset :=
  ⟨wr (y := main_call6_v0) (by decide), wr (y := main_call6_v1) (by decide), wr (y := main_call6_v2) (by decide), wr (y := main_call6_v3) (by decide), wr (y := main_call6_v4) (by decide), wr (y := main_v58) (by decide)⟩
/-- Every other buffer keeps its contents. -/
theorem keep12 (V : Valuation τ sig (Elt F)) {r : Ref sig .tc} (h : r ∉ W12) :
    after s12 V (no_index (Proc.devRef .tc r)) = V (Proc.devRef .tc r) :=
  after_of_writes_sub _ V writes12 h
set_option maxHeartbeats 1000000 in
theorem out12_main_v58 (V : Valuation τ sig (Elt F)) :
    after s12 V (no_index (Proc.devRef .tc main_v58)) = SegMask.hotOf (F := F) (V (Proc.devRef .tc main_v57)) := by
  unfold s12; simp only [hostOps0_12]; after_results <;> rfl

/-! ### Stretch 13: the weights, transposed -/

/-- The stretch, named so that a rewrite is keyed on the name and never on its operations. -/
def s13 : List (HloOp τ sig (Elt F)) := hostOps0_13
/-- The buffers it writes. -/
abbrev W13 : List (Ref sig .tc) := [main_v59, main_v60, main_v61, main_v62]
theorem writes13 : (s13 : List (HloOp τ sig (Elt F))).Forall fun op => op.writes ⊆ (W13.map (Proc.devRef (τ := τ) .tc)).toFinset :=
  ⟨wr (y := main_v59) (by decide), wr (y := main_v60) (by decide), wr (y := main_v61) (by decide), wr (y := main_v62) (by decide)⟩
/-- Every other buffer keeps its contents. -/
theorem keep13 (V : Valuation τ sig (Elt F)) {r : Ref sig .tc} (h : r ∉ W13) :
    after s13 V (no_index (Proc.devRef .tc r)) = V (Proc.devRef .tc r) :=
  after_of_writes_sub _ V writes13 h
set_option maxHeartbeats 1000000 in
theorem out13_main_v62 (V : Valuation τ sig (Elt F)) :
    after s13 V (no_index (Proc.devRef .tc main_v62)) = SegMask.maskOf (F := F) (V (Proc.devRef .tc main_v58)) (V (Proc.devRef .tc main_v56)) := by
  unfold s13; simp only [hostOps0_13]; after_results <;> rfl

/-! ## The chain -/

/-- The operations before the batched product are the stretches in order. -/
theorem maskOps_eq : (List.flatten [hostOps0, hostOps0_1, hostOps0_2, hostOps0_3, hostOps0_4, hostOps0_5, hostOps0_6, hostOps0_7, hostOps0_8, hostOps0_9, hostOps0_10, hostOps0_11, hostOps0_12, hostOps0_13] : List (HloOp τ sig (Elt F)))
    = s0 ++ (s1 ++ (s2 ++ (s3 ++ (s4 ++ (s5 ++ (s6 ++ (s7 ++ (s8 ++ (s9 ++ (s10 ++ (s11 ++ (s12 ++ s13)))))))))))) := by
  unfold s0 s1 s2 s3 s4 s5 s6 s7 s8 s9 s10 s11 s12 s13
  simp only [List.flatten_cons, List.flatten_nil, List.append_nil]

/-- After the 140 operations the weights' buffer holds `SegMask.mask` of the indicators' buffer as it was before them. -/
theorem mask_eval (V : Valuation τ sig (Elt F)) :
    after (List.flatten [hostOps0, hostOps0_1, hostOps0_2, hostOps0_3, hostOps0_4, hostOps0_5, hostOps0_6, hostOps0_7, hostOps0_8, hostOps0_9, hostOps0_10, hostOps0_11, hostOps0_12, hostOps0_13]) V (Proc.devRef .tc main_v62)
      = SegMask.mask (F := F) (V (Proc.devRef .tc main_arg1)) := by
  rw [maskOps_eq]
  simp only [after_append']
  simp (disch := decide) only [out0_main_v5, out1_main_v6, out2_main_v9, out2_main_v11, out2_main_v13, out2_main_c_4, out3_main_v14, out4_main_v34, out5_main_v35, out6_main_v37, out7_main_v38, out8_main_v50, out8_main_v55, out8_main_cst_17, out9_main_v56, out10_main_c_18, out11_main_v57, out12_main_v58, out13_main_v62,
    keep0, keep1, keep2, keep3, keep4, keep5, keep6, keep7, keep8, keep9, keep10, keep11, keep12, keep13]
  rfl

/-- None of the 140 operations writes an argument array. -/
theorem arg0_kept (V : Valuation τ sig (Elt F)) :
    after (List.flatten [hostOps0, hostOps0_1, hostOps0_2, hostOps0_3, hostOps0_4, hostOps0_5, hostOps0_6, hostOps0_7, hostOps0_8, hostOps0_9, hostOps0_10, hostOps0_11, hostOps0_12, hostOps0_13]) V (Proc.devRef .tc main_arg0) = V (Proc.devRef .tc main_arg0) := by
  rw [maskOps_eq]
  simp only [after_append']
  simp (disch := decide) only [keep0, keep1, keep2, keep3, keep4, keep5, keep6, keep7, keep8, keep9, keep10, keep11, keep12, keep13]
@[inherit_doc arg0_kept]
theorem arg1_kept (V : Valuation τ sig (Elt F)) :
    after (List.flatten [hostOps0, hostOps0_1, hostOps0_2, hostOps0_3, hostOps0_4, hostOps0_5, hostOps0_6, hostOps0_7, hostOps0_8, hostOps0_9, hostOps0_10, hostOps0_11, hostOps0_12, hostOps0_13]) V (Proc.devRef .tc main_arg1) = V (Proc.devRef .tc main_arg1) := by
  rw [maskOps_eq]
  simp only [after_append']
  simp (disch := decide) only [keep0, keep1, keep2, keep3, keep4, keep5, keep6, keep7, keep8, keep9, keep10, keep11, keep12, keep13]

end Cert.KernelIdeal.MaskEval

end
-- ==== Proof.Block.lean ====
/-
  One grid point's batched product is four rows of the whole batched product.

  The kernel's body multiplies, for each of the 4 batch rows of its blocks, the [50, 500] weights by the
  [500, 1024] frames: `(b0 ⊛ b1)[r, s, d] = Σ_l b0[r, s, l] · b1[r, l, d]` (the bf16 roundings are the identity on
  the extended reals and the accumulator starts at zero).  If the blocks are rows `4q … 4q+3` of whole arrays
  `w` and `x`, this is entry `[4q + r, s, d]` of the reference's one dot_general of `w` and `x`: both are the
  same sum over the 500 frames, term by term.
-/
import proofs.«148147_j35012573397109_1_alg».proof.Proof.Gen.KernelIdeal.Skeleton
import proofs.«148147_j35012573397109_1_alg».proof.Proof.Gen.ReferenceIdeal
import Idealize.ShloMosaic.PureOps.Ideal.Laws
import Idealize.ShloMosaic.Lib.ValueIdx

noncomputable section

namespace Cert.KernelIdeal.Block

open Idealize.ShloMosaic Idealize.SL.Sem Cert.KernelIdeal Cert.KernelIdeal.Gen

/-- The kernel's dimension numbers on a block: batch axis 0, contraction of the weights' axis 2 with the frames' axis 1. -/
abbrev DK := Cert.KernelIdeal.dot_S4x50x500_S4x500x1024_S4x50x1024_2_1_1_2_0_0
/-- The reference's, on the whole arrays: the same axes. -/
abbrev DR := Cert.ReferenceIdeal.dot_S64x50x500_S64x500x1024_S64x50x1024_2_1_1_2_0_0

/-! ### The block product's operand indices, coordinate by coordinate

At the output index `j = (r, s, d)` and the contraction position `k` the left operand is read at `(r, s, k)` and the
right one at `(r, k, d)`: the batch axis of both operands follows the output's axis 0. -/

theorem lhsK_0 (j : S4x50x1024.Idx) (k : DK.contr.Idx) : (DK.lhsIdx j k 0 : ℕ) = j 0 := by
  simp [DotDims.lhsIdx, DK, Cert.KernelIdeal.dot_S4x50x500_S4x500x1024_S4x50x1024_2_1_1_2_0_0]; rfl
theorem lhsK_1 (j : S4x50x1024.Idx) (k : DK.contr.Idx) : (DK.lhsIdx j k 1 : ℕ) = j 1 := by
  simp [DotDims.lhsIdx, DK, Cert.KernelIdeal.dot_S4x50x500_S4x500x1024_S4x50x1024_2_1_1_2_0_0]; rfl
theorem lhsK_2 (j : S4x50x1024.Idx) (k : DK.contr.Idx) : (DK.lhsIdx j k 2 : ℕ) = k ⟨0, by decide⟩ := by
  simp [DotDims.lhsIdx, DK, Cert.KernelIdeal.dot_S4x50x500_S4x500x1024_S4x50x1024_2_1_1_2_0_0]; rfl
theorem rhsK_0 (j : S4x50x1024.Idx) (k : DK.contr.Idx) : (DK.rhsIdx j k 0 : ℕ) = j 0 := by
  simp [DotDims.rhsIdx, DK, Cert.KernelIdeal.dot_S4x50x500_S4x500x1024_S4x50x1024_2_1_1_2_0_0]; rfl
theorem rhsK_1 (j : S4x50x1024.Idx) (k : DK.contr.Idx) : (DK.rhsIdx j k 1 : ℕ) = k ⟨0, by decide⟩ := by
  simp [DotDims.rhsIdx, DK, Cert.KernelIdeal.dot_S4x50x500_S4x500x1024_S4x50x1024_2_1_1_2_0_0]; rfl
theorem rhsK_2 (j : S4x50x1024.Idx) (k : DK.contr.Idx) : (DK.rhsIdx j k 2 : ℕ) = j 2 := by
  simp [DotDims.rhsIdx, DK, Cert.KernelIdeal.dot_S4x50x500_S4x500x1024_S4x50x1024_2_1_1_2_0_0]; rfl

/-! ### The whole product's operand indices: the same reading on the 64-row arrays -/

theorem lhsR_0 (j : Cert.ReferenceIdeal.S64x50x1024.Idx) (k : DR.contr.Idx) : (DR.lhsIdx j k 0 : ℕ) = j 0 := by
  simp [DotDims.lhsIdx, DR, Cert.ReferenceIdeal.dot_S64x50x500_S64x500x1024_S64x50x1024_2_1_1_2_0_0]; rfl
theorem lhsR_1 (j : Cert.ReferenceIdeal.S64x50x1024.Idx) (k : DR.contr.Idx) : (DR.lhsIdx j k 1 : ℕ) = j 1 := by
  simp [DotDims.lhsIdx, DR, Cert.ReferenceIdeal.dot_S64x50x500_S64x500x1024_S64x50x1024_2_1_1_2_0_0]; rfl
theorem lhsR_2 (j : Cert.ReferenceIdeal.S64x50x1024.Idx) (k : DR.contr.Idx) : (DR.lhsIdx j k 2 : ℕ) = k ⟨0, by decide⟩ := by
  simp [DotDims.lhsIdx, DR, Cert.ReferenceIdeal.dot_S64x50x500_S64x500x1024_S64x50x1024_2_1_1_2_0_0]; rfl
theorem rhsR_0 (j : Cert.ReferenceIdeal.S64x50x1024.Idx) (k : DR.contr.Idx) : (DR.rhsIdx j k 0 : ℕ) = j 0 := by
  simp [DotDims.rhsIdx, DR, Cert.ReferenceIdeal.dot_S64x50x500_S64x500x1024_S64x50x1024_2_1_1_2_0_0]; rfl
theorem rhsR_1 (j : Cert.ReferenceIdeal.S64x50x1024.Idx) (k : DR.contr.Idx) : (DR.rhsIdx j k 1 : ℕ) = k ⟨0, by decide⟩ := by
  simp [DotDims.rhsIdx, DR, Cert.ReferenceIdeal.dot_S64x50x500_S64x500x1024_S64x50x1024_2_1_1_2_0_0]; rfl
theorem rhsR_2 (j : Cert.ReferenceIdeal.S64x50x1024.Idx) (k : DR.contr.Idx) : (DR.rhsIdx j k 2 : ℕ) = j 2 := by
  simp [DotDims.rhsIdx, DR, Cert.ReferenceIdeal.dot_S64x50x500_S64x500x1024_S64x50x1024_2_1_1_2_0_0]; rfl

/-- The body's payload on blocks that are rows `4q …` of `w` and `x` (read through `e0`, `e1`), at the block index `y`,
    is the whole product at the array index `e2 y` (row `4q + y 0`). -/
theorem pay_block (w : FVec Ideal Cert.ReferenceIdeal.S64x50x500 .f32) (x : FVec Ideal Cert.ReferenceIdeal.S64x500x1024 .f32) (q : Nat)
    (b0 : Vec Ideal S4x50x500 .f32) (b1 : Vec Ideal S4x500x1024 .f32)
    (e0 : S4x50x500.Idx → Cert.ReferenceIdeal.S64x50x500.Idx) (e1 : S4x500x1024.Idx → Cert.ReferenceIdeal.S64x500x1024.Idx)
    (e2 : S4x50x1024.Idx → Cert.ReferenceIdeal.S64x50x1024.Idx)
    (h0 : ∀ i, b0 i = w (e0 i)) (h1 : ∀ i, b1 i = x (e1 i))
    (he0 : ∀ i, (e0 i 0).val = 4 * q + (i 0).val ∧ (e0 i 1).val = (i 1).val ∧ (e0 i 2).val = (i 2).val)
    (he1 : ∀ i, (e1 i 0).val = 4 * q + (i 0).val ∧ (e1 i 1).val = (i 1).val ∧ (e1 i 2).val = (i 2).val)
    (he2 : ∀ i, (e2 i 0).val = 4 * q + (i 0).val ∧ (e2 i 1).val = (i 1).val ∧ (e2 i 2).val = (i 2).val)
    (y : S4x50x1024.Idx) :
    k0_pay1 (F := Ideal) b0 b1 y = Host.dotGeneral (F := Ideal) DR none w x (e2 y) := by
  -- on the extended reals the reshape to the same shape and the two roundings to bf16 change no element
  have hb0 : ∀ i, (truncf .bf16 (shapeCast S4x50x500 b0 shapeCasts_S4x50x500_S4x50x500) bitsLt_bf16_f32 : FVec Ideal S4x50x500 .bf16) i = b0 i :=
    fun i => congrArg b0 (Shape.reshapeEquiv_self _ i)
  have hb1 : ∀ i, (truncf .bf16 b1 bitsLt_bf16_f32 : FVec Ideal S4x500x1024 .bf16) i = b1 i := fun i => rfl
  unfold k0_pay1
  simp only [Host.dotGeneral]
  -- both sides are sums of products over the one contracted axis; the block's accumulator starts at zero
  refine (Ideal.matmul_constant_zero_apply DK none _ _ y).trans ?_
  refine Eq.trans ?_ (Ideal.dotGeneral_apply DR none .single w x (e2 y)).symm
  -- sum both over the frame number `l : Fin 500`
  rw [← Equiv.sum_comp (ValueIdx.contrEquiv1 DK 500 rfl rfl).symm, ← Equiv.sum_comp (ValueIdx.contrEquiv1 DR 500 rfl rfl).symm]
  refine Finset.sum_congr rfl fun l _ => ?_
  rw [hb0, hb1, h0, h1]
  have hkK := ValueIdx.contrEquiv1_symm_val DK 500 rfl rfl l
  have hkR := ValueIdx.contrEquiv1_symm_val DR 500 rfl rfl l
  -- the weights' element: block index `(y 0, y 1, l)` sits at `(4q + y 0, y 1, l)` of `w`
  have hw : e0 (DK.lhsIdx y ((ValueIdx.contrEquiv1 DK 500 rfl rfl).symm l)) = DR.lhsIdx (e2 y) ((ValueIdx.contrEquiv1 DR 500 rfl rfl).symm l) := by
    funext a
    apply Fin.ext
    match a with
    | ⟨0, _⟩ =>
      exact ((he0 _).1.trans (congrArg (4 * q + ·) (lhsK_0 _ _))).trans ((lhsR_0 _ _).trans (he2 y).1).symm
    | ⟨1, _⟩ =>
      exact ((he0 _).2.1.trans (lhsK_1 _ _)).trans ((lhsR_1 _ _).trans (he2 y).2.1).symm
    | ⟨2, _⟩ =>
      exact ((he0 _).2.2.trans ((lhsK_2 _ _).trans hkK)).trans ((lhsR_2 _ _).trans hkR).symm
  -- the frames' element: block index `(y 0, l, y 2)` sits at `(4q + y 0, l, y 2)` of `x`
  have hx : e1 (DK.rhsIdx y ((ValueIdx.contrEquiv1 DK 500 rfl rfl).symm l)) = DR.rhsIdx (e2 y) ((ValueIdx.contrEquiv1 DR 500 rfl rfl).symm l) := by
    funext a
    apply Fin.ext
    match a with
    | ⟨0, _⟩ =>
      exact ((he1 _).1.trans (congrArg (4 * q + ·) (rhsK_0 _ _))).trans ((rhsR_0 _ _).trans (he2 y).1).symm
    | ⟨1, _⟩ =>
      exact ((he1 _).2.1.trans ((rhsK_1 _ _).trans hkK)).trans ((rhsR_1 _ _).trans hkR).symm
    | ⟨2, _⟩ =>
      exact ((he1 _).2.2.trans (rhsK_2 _ _)).trans ((rhsR_2 _ _).trans (he2 y).2.2).symm
  rw [hw, hx]

end Cert.KernelIdeal.Block

end
-- ==== Proof.KerValue.lean ====
/-
  What the kernel program leaves in its result buffers, at the extended reals.

  The pallas_call runs 16 grid points; point `t` reads rows `4t … 4t+3` of the weights `w` (as the region finds them)
  and of the frames `x`, and writes rows `4t … 4t+3` of the output with their batched product.  Each such block is
  the same rows of the whole batched product `Σ_l w[b, s, l] · x[b, l, d]` (`Block.pay_block`), the 16 blocks tile
  the output, so the output array after the region IS the whole product.  The host line after the region sums the
  weights over the frames; the region leaves the weights' array as it found it, so that sum is taken of the same `w`.
-/
import proofs.«148147_j35012573397109_1_alg».proof.Proof.Gen.KernelIdeal.Frame
import proofs.«148147_j35012573397109_1_alg».proof.Proof.Block
import Idealize.ShloMosaic.Lib.Pipeline.Value
import Idealize.ShloMosaic.Lib.StableHlo.Run

set_option maxRecDepth 16384

noncomputable section

namespace Cert.KernelIdeal.KerValue

open Cert.KernelIdeal Cert.KernelIdeal.Gen
open Idealize.ShloMosaic Idealize.ShloMosaic.TcCoe Idealize.ShloMosaic.StableHlo Idealize.SL.Sem
open Idealize.ShloMosaic.Pipeline (Dat Cfg Window)

variable (m : (ℓ : Loc nD τ sig) → Buf (Elt Ideal) ℓ) (ρ : Dev nD → PrngReg)

/-- The weights as the region finds them, at their literal type. -/
abbrev warr (c : Dev nD) : FVec Ideal Cert.ReferenceIdeal.S64x50x500 .f32 := V m c main_v62
/-- The frames as the region finds them (the argument array), at their literal type. -/
abbrev xarr (c : Dev nD) : FVec Ideal Cert.ReferenceIdeal.S64x500x1024 .f32 := V m c main_arg0

/-- The whole batched product of the weights and the frames: the reference's one dot_general of them. -/
abbrev prodArr (c : Dev nD) : FVec Ideal Cert.ReferenceIdeal.S64x50x1024 .f32 :=
  Host.dotGeneral (F := Ideal) Block.DR none (warr m c) (xarr m c)

/-- The body's rectangles start at the origin of their staging buffers. -/
theorem hz : (![0, 0, 0] : Fin 3 → Nat) = fun _ => 0 := funext fun a => by fin_cases a <;> rfl

/-- The printed index maps, decided over the 16 grid points: all three windows move along axis 0 together and stay at
    block 0 on the other two axes; the block number on axis 0 is at most 15. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (1 : Fin 3) = 0 ∧ win0_2.index t (2 : Fin 3) = 0 ∧ win0_2.index t (0 : Fin 3) ≤ 15 :=
  (by decide +kernel : ∀ t : Fin grid0.N, _)

/-- Every block row of the output is some point's. -/
theorem idx_onto : ∀ q0 : Fin 16, ∃ t : Fin cfg0.N, win0_2.index t = ![q0.val, 0, 0] :=
  (by decide +kernel : ∀ q0 : Fin 16, ∃ t : Fin grid0.N, win0_2.index t = ![q0.val, 0, 0])

/-- WHAT POINT `t` WRITES BACK is block `t` (rows `4t … 4t+3`) of the whole product. -/
theorem flushed2_eq (c : Dev nD) (t : Fin cfg0.N) :
    (dats m 0 c).flushed 2 t = ((cfg0.win 2).blk t).view.read (Elt Ideal) (prodArr m c) := by
  show (cfg0.win 2).cut (grid0.coords t) ((dats m 0 c).after 2 t) = _
  rw [after0_2]
  unfold out0_2
  rw [View.canon_unit_zero hz]
  simp only [View.ld_unit_zero (S := S4x50x500) hz, View.ld_unit_zero (S := S4x500x1024) hz]
  obtain ⟨f00, f01, f02, f10, f11, f12, f21, f22, f20⟩ := idx_facts t
  funext y
  show k0_pay1 (F := Ideal) (iblk m c 0 t) (iblk m c 1 t) y = prodArr m c (((cfg0.win 2).blk t).view.emb y)
  refine Block.pay_block (warr m c) (xarr m c) (win0_2.index t (0 : Fin 3)) (iblk m c 0 t) (iblk m c 1 t)
    (((cfg0.win 0).blk t).view.emb) (((cfg0.win 1).blk t).view.emb) (((cfg0.win 2).blk t).view.emb)
    (fun _ => rfl) (fun _ => rfl) ?_ ?_ ?_ y
  · intro i
    refine ⟨?_, ?_, ?_⟩
    · show win0_0.index t (0 : Fin 3) * 4 + 1 * (i 0).val = _; omega
    · show win0_0.index t (1 : Fin 3) * 50 + 1 * (i 1).val = _; omega
    · show win0_0.index t (2 : Fin 3) * 500 + 1 * (i 2).val = _; omega
  · intro i
    refine ⟨?_, ?_, ?_⟩
    · show win0_1.index t (0 : Fin 3) * 4 + 1 * (i 0).val = _; omega
    · show win0_1.index t (1 : Fin 3) * 500 + 1 * (i 1).val = _; omega
    · show win0_1.index t (2 : Fin 3) * 1024 + 1 * (i 2).val = _; omega
  · intro i
    refine ⟨?_, ?_, ?_⟩
    · show win0_2.index t (0 : Fin 3) * 4 + 1 * (i 0).val = _; omega
    · show win0_2.index t (1 : Fin 3) * 50 + 1 * (i 1).val = _; omega
    · show win0_2.index t (2 : Fin 3) * 1024 + 1 * (i 2).val = _; omega

/-- An index of the output array is in point `t`'s block iff each coordinate is in the block's range on its axis. -/
theorem mem_blk (t : Fin cfg0.N) (i : S64x50x1024.Idx) :
    i ∈ ((cfg0.win 2).blk t).view.set ↔ ∀ a : Fin 3, win0_2.index t a * S4x50x1024.size a ≤ (i a).val ∧ (i a).val < win0_2.index t a * S4x50x1024.size a + S4x50x1024.size a := by
  show i ∈ ((View.whole main_v63).slice (win0_2.rect t)).set ↔ _
  rw [View.set_slice_whole, Rect.mem_set_unit]
  exact Iff.rfl

/-- Every index of the output array lies in some point's block. -/
theorem cover2 (i : S64x50x1024.Idx) : ∃ t : Fin cfg0.N, (cfg0.win 2).flush t = true ∧ i ∈ ((cfg0.win 2).blk t).view.set := by
  have hi0 : (i 0).val < 64 := (i 0).isLt
  have hi1 : (i 1).val < 50 := (i 1).isLt
  have hi2 : (i 2).val < 1024 := (i 2).isLt
  -- row `r` lies in the block of the point whose block number is `r / 4`
  obtain ⟨t, ht⟩ := idx_onto ⟨(i 0).val / 4, by omega⟩
  have q0 : win0_2.index t (0 : Fin 3) = (i 0).val / 4 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 50 ≤ (i 1).val ∧ (i 1).val < win0_2.index t (1 : Fin 3) * 50 + 50; omega
  | ⟨2, _⟩ => show win0_2.index t (2 : Fin 3) * 1024 ≤ (i 2).val ∧ (i 2).val < win0_2.index t (2 : Fin 3) * 1024 + 1024; omega

/-- THE OUTPUT ARRAY after the region is the whole product. -/
theorem final2 (c : Dev nD) : (dats m 0 c).arrAt 2 cfg0.N = prodArr m c := by
  -- every point writes back its block of the whole product, and the blocks cover the array
  exact (dats m 0 c).arrAt_eq_of_cover 2 (prodArr m c) (fun t _ => flushed2_eq m c t) cover2

/-- The host line after the region: the counts are the sums over the frames of the weights as the region found them. -/
theorem tail_v64 (c : Dev nD) :
    Pipeline.afterTail₀ cfgs (dats m) 0 (V0 m) [hostOps1] c main_v64
      = Host.reduceAdd (F := Ideal) (warr m c) (constant S_ .f32 0x00000000#32) reducesTo_S64x50x500_S64x50_d2 h_S_ := by
  unfold Pipeline.afterTail₀
  show StableHlo.after hostOps1 _ (Proc.devRef .tc main_v64) = _
  simp only [hostOps1]
  after_results
  -- the weights' array is the pipeline's input window 0: the region leaves it as it found it
  have hw : Pipeline.withArrays (cfgs 0).spec c (V0 m c) (fun w => (dats m 0 c).arrAt w (cfgs 0).N) (Proc.devRef .tc main_v62) = warr m c :=
    (Pipeline.withArrays_arr spec0 launch0.win.arr_inj c (V0 m c) _ 0).trans (((dats m 0 c).arrAt_in 0 rfl _).trans (A_eq m c 0))
  rw [hw]

/-- The kernel program's run with its results named: the output at the whole product, the counts at the weights'
    sums, the arguments unchanged. -/
theorem run_values : θ_run defs (onTc (τ := τ) (main (F := Ideal))) ⟨m, fun _ => 0, ρ⟩ fun r => ∀ c : Dev nD,
      r.2.mem ((c.tc : Thread nD τ).loc main_v63) = prodArr m c
      ∧ r.2.mem ((c.tc : Thread nD τ).loc main_v64)
          = Host.reduceAdd (F := Ideal) (warr m c) (constant S_ .f32 0x00000000#32) reducesTo_S64x50x500_S64x50_d2 h_S_
      ∧ r.2.mem ((c.tc : Thread nD τ).loc main_arg1) = m ((c.tc : Thread nD τ).loc main_arg1)
      ∧ r.2.mem ((c.tc : Thread nD τ).loc main_arg0) = m ((c.tc : Thread nD τ).loc main_arg0) := by
  -- the frame run's post read buffer by buffer: the output array and the frames are windows of the pipeline, the
  -- counts and the other argument are buffers the region does not touch, read after the host line that follows it
  exact (θ_run defs _ _).mono (fun r h c =>
    ⟨((h c).1 2).trans (final2 m c),
      ((h c).2 main_v64 (Pipeline.mem_restRefs_of main_v64 (by decide) (by decide))).trans (tail_v64 m c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg0 m c)))⟩)
    (run_main m ρ)

end Cert.KernelIdeal.KerValue

end
-- ==== Proof.RefOps.lean ====
/-
  The reference's @main as a straight line of host operations.

  The reference computes the segment weights `mask` from the boundary indicators with 140 host operations (the
  calls to cumsum, where, take_along_axis and one_hot opened in place: each call's body runs on that call's own
  buffers), then the batched product `out[b, s, d] = Σ_l mask[b, s, l] · x[b, l, d]` as ONE dot_general, the
  counts `Σ_l mask[b, s, l]` as one reduction, and returns both with the indicators.  Listed here are those
  operations in program order, cut into stretches at the calls (`hostOps0` … `hostOps0_13`: the 140 operations
  that build `mask`; `hostOps1`: the product, the zero and the reduction), the same stretches per window of the
  printed @main, and the equation that @main is the chain of the stretches.
-/
import proofs.«148147_j35012573397109_1_alg».proof.Proof.Gen.ReferenceIdeal
import Idealize.ShloMosaic.Lib.Pipeline.Regions
import Idealize.ShloMosaic.Lib.StableHlo.Run

set_option maxRecDepth 2048

noncomputable section

namespace Cert.ReferenceIdeal.Host

open Cert.ReferenceIdeal Cert.ReferenceIdeal.Gen
open Idealize.ShloMosaic Idealize.ShloMosaic.TcCoe
open Idealize.SL Idealize.SL.Sem

variable {F : FTy → Type} [FloatOps F]

/-! ## The stretches, in program order, each with the fact that it touches TensorCore buffers only -/

abbrev hostOps0 : List (HloOp τ sig (Elt F)) :=
  [ StableHlo.nullary main_cst (constant S_ .f32 0x00000000#32),
    StableHlo.unary main_cst main_v0 (broadcastInDim S64x501 ![] bcast_S_S64x501 : (⟨S_, .f32⟩ : BufTy).Contents (Elt F) → (⟨S64x501, .f32⟩ : BufTy).Contents (Elt F)),
    StableHlo.binary main_arg1 main_v0 main_v1 (cmpf .une : (⟨S64x501, .f32⟩ : BufTy).Contents (Elt F) → (⟨S64x501, .f32⟩ : BufTy).Contents (Elt F) → (⟨S64x501, .i1⟩ : BufTy).Contents (Elt F)),
    StableHlo.unary main_v1 main_v2 ((extui 32 · natLt_1_32) : (⟨S64x501, .i1⟩ : BufTy).Contents (Elt F) → (⟨S64x501, .i32⟩ : BufTy).Contents (Elt F)),
    StableHlo.nullary main_c (constantI S_ 32 0#32),
    StableHlo.unary main_c main_v3 (broadcastInDim S1 ![] bcast_S_S1 : (⟨S_, .i32⟩ : BufTy).Contents (Elt F) → (⟨S1, .i32⟩ : BufTy).Contents (Elt F)),
    StableHlo.nullary main_c_0 (constantI S_ 32 1#32),
    StableHlo.unary main_c_0 main_v4 (broadcastInDim S64 ![] bcast_S_S64 : (⟨S_, .i32⟩ : BufTy).Contents (Elt F) → (⟨S64, .i32⟩ : BufTy).Contents (Elt F)),
    StableHlo.ternary main_v2 main_v3 main_v4 main_v5 ((fun x i u => Host.scatter scatter_S64x501_S1_S64_0_1_1_0 (fun _ b => b) x i u) : (⟨S64x501, .i32⟩ : BufTy).Contents (Elt F) → (⟨S1, .i32⟩ : BufTy).Contents (Elt F) → (⟨S64, .i32⟩ : BufTy).Contents (Elt F) → (⟨S64x501, .i32⟩ : BufTy).Contents (Elt F)) ]
theorem hostOps0_sub : (hostOps0 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.ternary_bufs_sub ..⟩
abbrev hostOps0_1 : List (HloOp τ sig (Elt F)) :=
  [ StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_v5 : StableHlo.TRef sig ⟨S64x501, .i32⟩) (.of main_call0_call0_v0 : StableHlo.TRef sig ⟨S_, .i32⟩) (.of main_v6 : StableHlo.TRef sig ⟨S64x501, .i32⟩) (fun x v => Host.reduceWindow IntOp.addi ![1, 501] ![1, 1] ![0, 500] ![0, 0] x v reduceWindows_S64x501_S64x501_w1s1p0_0_w501s1p500_0 h_S_) ]
theorem hostOps0_1_sub : (hostOps0_1 : List (HloOp τ sig (Elt F))).Forall fun op => op.bufs ⊆ StableHlo.tcRefs τ sig :=
  ⟨StableHlo.nullary_bufs_sub .., StableHlo.unary_bufs_sub .., StableHlo.binary_bufs_sub ..⟩
abbrev hostOps0_2 : List (HloOp τ sig (Elt F)) :=
  [ StableHlo.unary main_v6 main_v7 ((extractStridedSlice S64x500 ![0, 0] · slices_S64x501_S64x500_0_0) : (⟨S64x501, .i32⟩ : BufTy).Contents (Elt F) → (⟨S64x500, .i32⟩ : BufTy).Contents (Elt F)),
    StableHlo.nullary main_c_1 (constantI S_ 32 1#32),
    StableHlo.unary main_c_1 main_v8 (broadcastInDim S64x500 ![] bcast_S_S64x500 : (⟨S_, .i32⟩ : BufTy).Contents (Elt F) → (⟨S64x500, .i32⟩ : BufTy).Contents (Elt F)),
    StableHlo.binary main_v7 main_v8 main_v9 (subi : (⟨S64x500, .i32⟩ : BufTy).Contents (Elt F) → (⟨S64x500, .i32⟩ : BufTy).Contents (Elt F) → (⟨S64x500, .i32⟩ : BufTy).Contents (Elt F)),
    StableHlo.nullary main_c_2 (constantI S_ 32 1#32),
    StableHlo.unary main_c_2 main_v10 (broadcastInDim S64x501 ![] bcast_S_S64x501 : (⟨S_, .i32⟩ : BufTy).Contents (Elt F) → (⟨S64x501, .i32⟩ : BufTy).Contents (Elt F)),
    StableHlo.binary main_v5 main_v10 main_v11 (cmpi .eq : (⟨S64x501, .i32⟩ : BufTy).Contents (Elt F) → (⟨S64x501, .i32⟩ : BufTy).Contents (Elt F) → (⟨S64x501, .i1⟩ : BufTy).Contents (Elt F)),
    StableHlo.nullary main_c_3 (constantI S_ 32 1#32),
    StableHlo.unary main_c_3 main_v12 (broadcastInDim S64x501 ![] bcast_S_S64x501 : (⟨S_, .i32⟩ : BufTy).Contents (Elt F) → (⟨S64x501, .i32⟩ : BufTy).Contents (Elt F)),
    StableHlo.binary main_v6 main_v12 main_v13 (subi : (⟨S64x501, .i32⟩ : BufTy).Contents (Elt F) → (⟨S64x501, .i32⟩ : BufTy).Contents (Elt F) → (⟨S64x501, .i32⟩ : BufTy).Contents (Elt F)),
    StableHlo.nullary main_c_4 (constantI S_ 32 501#32) ]
theorem hostOps0_2_sub : (hostOps0_2 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub ..⟩
abbrev hostOps0_3 : List (HloOp τ sig (Elt F)) :=
  [ StableHlo.TRef.unary (.of main_c_4 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S64x501, .i32⟩) (broadcastInDim S64x501 ![] bcast_S_S64x501),
    StableHlo.TRef.ternary (.of main_v11 : StableHlo.TRef sig ⟨S64x501, .i1⟩) (.of main_v13 : StableHlo.TRef sig ⟨S64x501, .i32⟩) (.of main_call1_v1 : StableHlo.TRef sig ⟨S64x501, .i32⟩) (.of main_v14 : StableHlo.TRef sig ⟨S64x501, .i32⟩) select ]
theorem hostOps0_3_sub : (hostOps0_3 : List (HloOp τ sig (Elt F))).Forall fun op => op.bufs ⊆ StableHlo.tcRefs τ sig :=
  ⟨StableHlo.unary_bufs_sub .., StableHlo.unary_bufs_sub .., StableHlo.ternary_bufs_sub ..⟩
abbrev hostOps0_4 : List (HloOp τ sig (Elt F)) :=
  [ StableHlo.nullary main_c_5 (constantI S_ 32 510#32),
    StableHlo.unary main_c_5 main_v15 (broadcastInDim S64x502 ![] bcast_S_S64x502 : (⟨S_, .i32⟩ : BufTy).Contents (Elt F) → (⟨S64x502, .i32⟩ : BufTy).Contents (Elt F)),
    StableHlo.nullary main_v16 (iotaInDim S501 32 0),
    StableHlo.unary main_v16 main_v17 (broadcastInDim S64x501 ![1] bcast_S501_S64x501_1 : (⟨S501, .i32⟩ : BufTy).Contents (Elt F) → (⟨S64x501, .i32⟩ : BufTy).Contents (Elt F)),
    StableHlo.nullary main_v18 (iotaInDim S64 32 0),
    StableHlo.unary main_v18 main_v19 (broadcastInDim S64x1 ![0] bcast_S64_S64x1_0 : (⟨S64, .i32⟩ : BufTy).Contents (Elt F) → (⟨S64x1, .i32⟩ : BufTy).Contents (Elt F)),
    StableHlo.nullary main_c_6 (constantI S_ 32 0#32),
    StableHlo.unary main_c_6 main_v20 (broadcastInDim S64x1 ![] bcast_S_S64x1 : (⟨S_, .i32⟩ : BufTy).Contents (Elt F) → (⟨S64x1, .i32⟩ : BufTy).Contents (Elt F)),
    StableHlo.binary main_v19 main_v20 main_v21 (cmpi .slt : (⟨S64x1, .i32⟩ : BufTy).Contents (Elt F) → (⟨S64x1, .i32⟩ : BufTy).Contents (Elt F) → (⟨S64x1, .i1⟩ : BufTy).Contents (Elt F)),
    StableHlo.nullary main_c_7 (constantI S_ 32 64#32),
    StableHlo.unary main_c_7 main_v22 (broadcastInDim S64x1 ![] bcast_S_S64x1 : (⟨S_, .i32⟩ : BufTy).Contents (Elt F) → (⟨S64x1, .i32⟩ : BufTy).Contents (Elt F)),
    StableHlo.binary main_v19 main_v22 main_v23 (addi : (⟨S64x1, .i32⟩ : BufTy).Contents (Elt F) → (⟨S64x1, .i32⟩ : BufTy).Contents (Elt F) → (⟨S64x1, .i32⟩ : BufTy).Contents (Elt F)),
    StableHlo.ternary main_v21 main_v23 main_v19 main_v24 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    StableHlo.nullary main_c_8 (constantI S_ 32 0#32),
    StableHlo.unary main_c_8 main_v25 (broadcastInDim S64x501 ![] bcast_S_S64x501 : (⟨S_, .i32⟩ : BufTy).Contents (Elt F) → (⟨S64x501, .i32⟩ : BufTy).Contents (Elt F)),
    StableHlo.binary main_v14 main_v25 main_v26 (cmpi .slt : (⟨S64x501, .i32⟩ : BufTy).Contents (Elt F) → (⟨S64x501, .i32⟩ : BufTy).Contents (Elt F) → (⟨S64x501, .i1⟩ : BufTy).Contents (Elt F)),
    StableHlo.nullary main_c_9 (constantI S_ 32 502#32),
    StableHlo.unary main_c_9 main_v27 (broadcastInDim S64x501 ![] bcast_S_S64x501 : (⟨S_, .i32⟩ : BufTy).Contents (Elt F) → (⟨S64x501, .i32⟩ : BufTy).Contents (Elt F)),
    StableHlo.binary main_v14 main_v27 main_v28 (addi : (⟨S64x501, .i32⟩ : BufTy).Contents (Elt F) → (⟨S64x501, .i32⟩ : BufTy).Contents (Elt F) → (⟨S64x501, .i32⟩ : BufTy).Contents (Elt F)),
    StableHlo.ternary main_v26 main_v28 main_v14 main_v29 (select : (⟨S64x501, .i1⟩ : BufTy).Contents (Elt F) → (⟨S64x501, .i32⟩ : BufTy).Contents (Elt F) → (⟨S64x501, .i32⟩ : BufTy).Contents (Elt F) → (⟨S64x501, .i32⟩ : BufTy).Contents (Elt F)),
    StableHlo.unary main_v24 main_v30 (broadcastInDim S64x501 ![0, 1] bcast_S64x1_S64x501_0_1 : (⟨S64x1, .i32⟩ : BufTy).Contents (Elt F) → (⟨S64x501, .i32⟩ : BufTy).Contents (Elt F)),
    StableHlo.unary main_v30 main_v31 (broadcastInDim S64x501x1 ![0, 1] bcast_S64x501_S64x501x1_0_1 : (⟨S64x501, .i32⟩ : BufTy).Contents (Elt F) → (⟨S64x501x1, .i32⟩ : BufTy).Contents (Elt F)),
    StableHlo.unary main_v29 main_v32 (broadcastInDim S64x501x1 ![0, 1] bcast_S64x501_S64x501x1_0_1 : (⟨S64x501, .i32⟩ : BufTy).Contents (Elt F) → (⟨S64x501x1, .i32⟩ : BufTy).Contents (Elt F)),
    StableHlo.binary main_v31 main_v32 main_v33 ((fun a b => concatenate S64x501x2 2 [⟨S64x501x1, a⟩, ⟨S64x501x1, b⟩] concatenates_S64x501x1_S64x501x1_S64x501x2_d2) : (⟨S64x501x1, .i32⟩ : BufTy).Contents (Elt F) → (⟨S64x501x1, .i32⟩ : BufTy).Contents (Elt F) → (⟨S64x501x2, .i32⟩ : BufTy).Contents (Elt F)),
    StableHlo.ternary main_v15 main_v33 main_v17 main_v34 ((fun x i u => Host.scatter scatter_S64x502_S64x501x2_S64x501_n_01_01_2 IntOp.minsi x i u) : (⟨S64x502, .i32⟩ : BufTy).Contents (Elt F) → (⟨S64x501x2, .i32⟩ : BufTy).Contents (Elt F) → (⟨S64x501, .i32⟩ : BufTy).Contents (Elt F) → (⟨S64x502, .i32⟩ : BufTy).Contents (Elt F)) ]
theorem hostOps0_4_sub : (hostOps0_4 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.ternary_bufs_sub ..⟩
abbrev hostOps0_5 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S64x500, .i32⟩) (broadcastInDim S64x500 ![] bcast_S_S64x500),
    StableHlo.TRef.binary (.of main_v9 : StableHlo.TRef sig ⟨S64x500, .i32⟩) (.of main_call2_v0 : StableHlo.TRef sig ⟨S64x500, .i32⟩) (.of main_call2_v1 : StableHlo.TRef sig ⟨S64x500, .i1⟩) (cmpi .slt),
    StableHlo.TRef.nullary (.of main_call2_c_0 : StableHlo.TRef sig ⟨S_, .i32⟩) (constantI S_ 32 502#32),
    StableHlo.TRef.unary (.of main_call2_c_0 : StableHlo.TRef sig ⟨S_, .i32⟩) (.of main_call2_v2 : StableHlo.TRef sig ⟨S64x500, .i32⟩) (broadcastInDim S64x500 ![] bcast_S_S64x500),
    StableHlo.TRef.binary (.of main_v9 : StableHlo.TRef sig ⟨S64x500, .i32⟩) (.of main_call2_v2 : StableHlo.TRef sig ⟨S64x500, .i32⟩) (.of main_call2_v3 : StableHlo.TRef sig ⟨S64x500, .i32⟩) addi,
    StableHlo.TRef.ternary (.of main_call2_v1 : StableHlo.TRef sig ⟨S64x500, .i1⟩) (.of main_call2_v3 : StableHlo.TRef sig ⟨S64x500, .i32⟩) (.of main_v9 : StableHlo.TRef sig ⟨S64x500, .i32⟩) (.of main_call2_v4 : StableHlo.TRef sig ⟨S64x500, .i32⟩) select,
    StableHlo.TRef.reshape (.of main_call2_v4 : StableHlo.TRef sig ⟨S64x500, .i32⟩) (.of main_call2_v5 : StableHlo.TRef sig ⟨S64x500x1, .i32⟩) rfl shapeCasts_S64x500_S64x500x1,
    StableHlo.TRef.nullary (.of main_call2_c_1 : StableHlo.TRef sig ⟨S1, .i32⟩) (constantI S1 32 501#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S64x500x1, .i32⟩) (broadcastInDim S64x500x1 ![] bcast_S_S64x500x1),
    StableHlo.TRef.binary (.of main_call2_v5 : StableHlo.TRef sig ⟨S64x500x1, .i32⟩) (.of main_call2_v6 : StableHlo.TRef sig ⟨S64x500x1, .i32⟩) (.of main_call2_v7 : StableHlo.TRef sig ⟨S64x500x1, .i1⟩) (cmpi .sge),
    StableHlo.TRef.unary (.of main_call2_c_1 : StableHlo.TRef sig ⟨S1, .i32⟩) (.of main_call2_v8 : StableHlo.TRef sig ⟨S1x1x1, .i32⟩) (broadcastInDim S1x1x1 ![2] bcast_S1_S1x1x1_2),
    StableHlo.TRef.unary (.of main_call2_v8 : StableHlo.TRef sig ⟨S1x1x1, .i32⟩) (.of main_call2_v9 : StableHlo.TRef sig ⟨S64x500x1, .i32⟩) (broadcastInDim S64x500x1 ![0, 1, 2] bcast_S1x1x1_S64x500x1_0_1_2),
    StableHlo.TRef.binary (.of main_call2_v5 : StableHlo.TRef sig ⟨S64x500x1, .i32⟩) (.of main_call2_v9 : StableHlo.TRef sig ⟨S64x500x1, .i32⟩) (.of main_call2_v10 : StableHlo.TRef sig ⟨S64x500x1, .i1⟩) (cmpi .sle),
    StableHlo.TRef.binary (.of main_call2_v7 : StableHlo.TRef sig ⟨S64x500x1, .i1⟩) (.of main_call2_v10 : StableHlo.TRef sig ⟨S64x500x1, .i1⟩) (.of main_call2_v11 : StableHlo.TRef sig ⟨S64x500x1, .i1⟩) andi,
    StableHlo.TRef.nullary (.of main_call2_c_3 : StableHlo.TRef sig ⟨S_, .i1⟩) (constantI S_ 1 1#1),
    StableHlo.TRef.binary (.of main_call2_v11 : StableHlo.TRef sig ⟨S64x500x1, .i1⟩) (.of main_call2_c_3 : StableHlo.TRef sig ⟨S_, .i1⟩) (.of main_call2_v12 : StableHlo.TRef sig ⟨S64x500, .i1⟩) (fun x v => Host.reduce IntOp.andi x v reducesTo_S64x500x1_S64x500_d2 h_S_),
    StableHlo.TRef.binary (.of main_v34 : StableHlo.TRef sig ⟨S64x502, .i32⟩) (.of main_call2_v5 : StableHlo.TRef sig ⟨S64x500x1, .i32⟩) (.of main_call2_v13 : StableHlo.TRef sig ⟨S64x500, .i32⟩) (fun x i => Host.gather gather_S64x502_S64x500x1_S64x500_n_1_0_0_1_2_11 x i),
    StableHlo.TRef.nullary (.of main_call2_c_4 : StableHlo.TRef sig ⟨S_, .i32⟩) (constantI S_ 32 2147483648#32),
    StableHlo.TRef.unary (.of main_call2_c_4 : StableHlo.TRef sig ⟨S_, .i32⟩) (.of main_call2_v14 : StableHlo.TRef sig ⟨S64x500, .i32⟩) (broadcastInDim S64x500 ![] bcast_S_S64x500),
    StableHlo.TRef.ternary (.of main_call2_v12 : StableHlo.TRef sig ⟨S64x500, .i1⟩) (.of main_call2_v13 : StableHlo.TRef sig ⟨S64x500, .i32⟩) (.of main_call2_v14 : StableHlo.TRef sig ⟨S64x500, .i32⟩) (.of main_v35 : StableHlo.TRef sig ⟨S64x500, .i32⟩) select ]
theorem hostOps0_5_sub : (hostOps0_5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
abbrev hostOps0_6 : List (HloOp τ sig (Elt F)) :=
  [ StableHlo.nullary main_c_10 (constantI S_ 32 1#32),
    StableHlo.unary main_c_10 main_v36 (broadcastInDim S64x500 ![] bcast_S_S64x500 : (⟨S_, .i32⟩ : BufTy).Contents (Elt F) → (⟨S64x500, .i32⟩ : BufTy).Contents (Elt F)),
    StableHlo.binary main_v9 main_v36 main_v37 (addi : (⟨S64x500, .i32⟩ : BufTy).Contents (Elt F) → (⟨S64x500, .i32⟩ : BufTy).Contents (Elt F) → (⟨S64x500, .i32⟩ : BufTy).Contents (Elt F)) ]
theorem hostOps0_6_sub : (hostOps0_6 : List (HloOp τ sig (Elt F))).Forall fun op => op.bufs ⊆ StableHlo.tcRefs τ sig :=
  ⟨StableHlo.nullary_bufs_sub .., StableHlo.unary_bufs_sub .., StableHlo.binary_bufs_sub ..⟩
abbrev hostOps0_7 : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S64x500, .i32⟩) (broadcastInDim S64x500 ![] bcast_S_S64x500),
    StableHlo.TRef.binary (.of main_v37 : StableHlo.TRef sig ⟨S64x500, .i32⟩) (.of main_call3_v0 : StableHlo.TRef sig ⟨S64x500, .i32⟩) (.of main_call3_v1 : StableHlo.TRef sig ⟨S64x500, .i1⟩) (cmpi .slt),
    StableHlo.TRef.nullary (.of main_call3_c_0 : StableHlo.TRef sig ⟨S_, .i32⟩) (constantI S_ 32 502#32),
    StableHlo.TRef.unary (.of main_call3_c_0 : StableHlo.TRef sig ⟨S_, .i32⟩) (.of main_call3_v2 : StableHlo.TRef sig ⟨S64x500, .i32⟩) (broadcastInDim S64x500 ![] bcast_S_S64x500),
    StableHlo.TRef.binary (.of main_v37 : StableHlo.TRef sig ⟨S64x500, .i32⟩) (.of main_call3_v2 : StableHlo.TRef sig ⟨S64x500, .i32⟩) (.of main_call3_v3 : StableHlo.TRef sig ⟨S64x500, .i32⟩) addi,
    StableHlo.TRef.ternary (.of main_call3_v1 : StableHlo.TRef sig ⟨S64x500, .i1⟩) (.of main_call3_v3 : StableHlo.TRef sig ⟨S64x500, .i32⟩) (.of main_v37 : StableHlo.TRef sig ⟨S64x500, .i32⟩) (.of main_call3_v4 : StableHlo.TRef sig ⟨S64x500, .i32⟩) select,
    StableHlo.TRef.reshape (.of main_call3_v4 : StableHlo.TRef sig ⟨S64x500, .i32⟩) (.of main_call3_v5 : StableHlo.TRef sig ⟨S64x500x1, .i32⟩) rfl shapeCasts_S64x500_S64x500x1,
    StableHlo.TRef.nullary (.of main_call3_c_1 : StableHlo.TRef sig ⟨S1, .i32⟩) (constantI S1 32 501#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S64x500x1, .i32⟩) (broadcastInDim S64x500x1 ![] bcast_S_S64x500x1),
    StableHlo.TRef.binary (.of main_call3_v5 : StableHlo.TRef sig ⟨S64x500x1, .i32⟩) (.of main_call3_v6 : StableHlo.TRef sig ⟨S64x500x1, .i32⟩) (.of main_call3_v7 : StableHlo.TRef sig ⟨S64x500x1, .i1⟩) (cmpi .sge),
    StableHlo.TRef.unary (.of main_call3_c_1 : StableHlo.TRef sig ⟨S1, .i32⟩) (.of main_call3_v8 : StableHlo.TRef sig ⟨S1x1x1, .i32⟩) (broadcastInDim S1x1x1 ![2] bcast_S1_S1x1x1_2),
    StableHlo.TRef.unary (.of main_call3_v8 : StableHlo.TRef sig ⟨S1x1x1, .i32⟩) (.of main_call3_v9 : StableHlo.TRef sig ⟨S64x500x1, .i32⟩) (broadcastInDim S64x500x1 ![0, 1, 2] bcast_S1x1x1_S64x500x1_0_1_2),
    StableHlo.TRef.binary (.of main_call3_v5 : StableHlo.TRef sig ⟨S64x500x1, .i32⟩) (.of main_call3_v9 : StableHlo.TRef sig ⟨S64x500x1, .i32⟩) (.of main_call3_v10 : StableHlo.TRef sig ⟨S64x500x1, .i1⟩) (cmpi .sle),
    StableHlo.TRef.binary (.of main_call3_v7 : StableHlo.TRef sig ⟨S64x500x1, .i1⟩) (.of main_call3_v10 : StableHlo.TRef sig ⟨S64x500x1, .i1⟩) (.of main_call3_v11 : StableHlo.TRef sig ⟨S64x500x1, .i1⟩) andi,
    StableHlo.TRef.nullary (.of main_call3_c_3 : StableHlo.TRef sig ⟨S_, .i1⟩) (constantI S_ 1 1#1),
    StableHlo.TRef.binary (.of main_call3_v11 : StableHlo.TRef sig ⟨S64x500x1, .i1⟩) (.of main_call3_c_3 : StableHlo.TRef sig ⟨S_, .i1⟩) (.of main_call3_v12 : StableHlo.TRef sig ⟨S64x500, .i1⟩) (fun x v => Host.reduce IntOp.andi x v reducesTo_S64x500x1_S64x500_d2 h_S_),
    StableHlo.TRef.binary (.of main_v34 : StableHlo.TRef sig ⟨S64x502, .i32⟩) (.of main_call3_v5 : StableHlo.TRef sig ⟨S64x500x1, .i32⟩) (.of main_call3_v13 : StableHlo.TRef sig ⟨S64x500, .i32⟩) (fun x i => Host.gather gather_S64x502_S64x500x1_S64x500_n_1_0_0_1_2_11 x i),
    StableHlo.TRef.nullary (.of main_call3_c_4 : StableHlo.TRef sig ⟨S_, .i32⟩) (constantI S_ 32 2147483648#32),
    StableHlo.TRef.unary (.of main_call3_c_4 : StableHlo.TRef sig ⟨S_, .i32⟩) (.of main_call3_v14 : StableHlo.TRef sig ⟨S64x500, .i32⟩) (broadcastInDim S64x500 ![] bcast_S_S64x500),
    StableHlo.TRef.ternary (.of main_call3_v12 : StableHlo.TRef sig ⟨S64x500, .i1⟩) (.of main_call3_v13 : StableHlo.TRef sig ⟨S64x500, .i32⟩) (.of main_call3_v14 : StableHlo.TRef sig ⟨S64x500, .i32⟩) (.of main_v38 : StableHlo.TRef sig ⟨S64x500, .i32⟩) select ]
theorem hostOps0_7_sub : (hostOps0_7 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
abbrev hostOps0_8 : List (HloOp τ sig (Elt F)) :=
  [ StableHlo.binary main_v38 main_v35 main_v39 (subi : (⟨S64x500, .i32⟩ : BufTy).Contents (Elt F) → (⟨S64x500, .i32⟩ : BufTy).Contents (Elt F) → (⟨S64x500, .i32⟩ : BufTy).Contents (Elt F)),
    StableHlo.nullary main_c_11 (constantI S_ 32 510#32),
    StableHlo.unary main_c_11 main_v40 (broadcastInDim S64x500 ![] bcast_S_S64x500 : (⟨S_, .i32⟩ : BufTy).Contents (Elt F) → (⟨S64x500, .i32⟩ : BufTy).Contents (Elt F)),
    StableHlo.binary main_v38 main_v40 main_v41 (cmpi .slt : (⟨S64x500, .i32⟩ : BufTy).Contents (Elt F) → (⟨S64x500, .i32⟩ : BufTy).Contents (Elt F) → (⟨S64x500, .i1⟩ : BufTy).Contents (Elt F)),
    StableHlo.nullary main_c_12 (constantI S_ 32 500#32),
    StableHlo.unary main_c_12 main_v42 (broadcastInDim S64x500 ![] bcast_S_S64x500 : (⟨S_, .i32⟩ : BufTy).Contents (Elt F) → (⟨S64x500, .i32⟩ : BufTy).Contents (Elt F)),
    StableHlo.binary main_v38 main_v42 main_v43 (cmpi .sle : (⟨S64x500, .i32⟩ : BufTy).Contents (Elt F) → (⟨S64x500, .i32⟩ : BufTy).Contents (Elt F) → (⟨S64x500, .i1⟩ : BufTy).Contents (Elt F)),
    StableHlo.binary main_v41 main_v43 main_v44 (andi : (⟨S64x500, .i1⟩ : BufTy).Contents (Elt F) → (⟨S64x500, .i1⟩ : BufTy).Contents (Elt F) → (⟨S64x500, .i1⟩ : BufTy).Contents (Elt F)),
    StableHlo.nullary main_c_13 (constantI S_ 32 50#32),
    StableHlo.unary main_c_13 main_v45 (broadcastInDim S64x500 ![] bcast_S_S64x500 : (⟨S_, .i32⟩ : BufTy).Contents (Elt F) → (⟨S64x500, .i32⟩ : BufTy).Contents (Elt F)),
    StableHlo.binary main_v9 main_v45 main_v46 (cmpi .slt : (⟨S64x500, .i32⟩ : BufTy).Contents (Elt F) → (⟨S64x500, .i32⟩ : BufTy).Contents (Elt F) → (⟨S64x500, .i1⟩ : BufTy).Contents (Elt F)),
    StableHlo.binary main_v44 main_v46 main_v47 (andi : (⟨S64x500, .i1⟩ : BufTy).Contents (Elt F) → (⟨S64x500, .i1⟩ : BufTy).Contents (Elt F) → (⟨S64x500, .i1⟩ : BufTy).Contents (Elt F)),
    StableHlo.nullary main_c_14 (constantI S_ 32 0#32),
    StableHlo.unary main_c_14 main_v48 (broadcastInDim S64x500 ![] bcast_S_S64x500 : (⟨S_, .i32⟩ : BufTy).Contents (Elt F) → (⟨S64x500, .i32⟩ : BufTy).Contents (Elt F)),
    StableHlo.binary main_v39 main_v48 main_v49 (cmpi .sgt : (⟨S64x500, .i32⟩ : BufTy).Contents (Elt F) → (⟨S64x500, .i32⟩ : BufTy).Contents (Elt F) → (⟨S64x500, .i1⟩ : BufTy).Contents (Elt F)),
    StableHlo.binary main_v47 main_v49 main_v50 (andi : (⟨S64x500, .i1⟩ : BufTy).Contents (Elt F) → (⟨S64x500, .i1⟩ : BufTy).Contents (Elt F) → (⟨S64x500, .i1⟩ : BufTy).Contents (Elt F)),
    StableHlo.nullary main_c_15 (constantI S_ 32 1#32),
    StableHlo.unary main_c_15 main_v51 (broadcastInDim S64x500 ![] bcast_S_S64x500 : (⟨S_, .i32⟩ : BufTy).Contents (Elt F) → (⟨S64x500, .i32⟩ : BufTy).Contents (Elt F)),
    StableHlo.binary main_v39 main_v51 main_v52 (maxsi : (⟨S64x500, .i32⟩ : BufTy).Contents (Elt F) → (⟨S64x500, .i32⟩ : BufTy).Contents (Elt F) → (⟨S64x500, .i32⟩ : BufTy).Contents (Elt F)),
    StableHlo.unary main_v52 main_v53 (sitofp .f32 : (⟨S64x500, .i32⟩ : BufTy).Contents (Elt F) → (⟨S64x500, .f32⟩ : BufTy).Contents (Elt F)),
    StableHlo.nullary main_cst_16 (constant S_ .f32 0x3F800000#32),
    StableHlo.unary main_cst_16 main_v54 (broadcastInDim S64x500 ![] bcast_S_S64x500 : (⟨S_, .f32⟩ : BufTy).Contents (Elt F) → (⟨S64x500, .f32⟩ : BufTy).Contents (Elt F)),
    StableHlo.binary main_v54 main_v53 main_v55 (Host.divf : (⟨S64x500, .f32⟩ : BufTy).Contents (Elt F) → (⟨S64x500, .f32⟩ : BufTy).Contents (Elt F) → (⟨S64x500, .f32⟩ : BufTy).Contents (Elt F)),
    StableHlo.nullary main_cst_17 (constant S_ .f32 0x00000000#32) ]
theorem hostOps0_8_sub : (hostOps0_8 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub ..⟩
abbrev hostOps0_9 : List (HloOp τ sig (Elt F)) :=
  [ StableHlo.TRef.unary (.of main_cst_17 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S64x500, .f32⟩) (broadcastInDim S64x500 ![] bcast_S_S64x500),
    StableHlo.TRef.ternary (.of main_v50 : StableHlo.TRef sig ⟨S64x500, .i1⟩) (.of main_v55 : StableHlo.TRef sig ⟨S64x500, .f32⟩) (.of main_call4_v1 : StableHlo.TRef sig ⟨S64x500, .f32⟩) (.of main_v56 : StableHlo.TRef sig ⟨S64x500, .f32⟩) select ]
theorem hostOps0_9_sub : (hostOps0_9 : List (HloOp τ sig (Elt F))).Forall fun op => op.bufs ⊆ StableHlo.tcRefs τ sig :=
  ⟨StableHlo.unary_bufs_sub .., StableHlo.unary_bufs_sub .., StableHlo.ternary_bufs_sub ..⟩
abbrev hostOps0_10 : List (HloOp τ sig (Elt F)) :=
  [ StableHlo.nullary main_c_18 (constantI S_ 32 50#32) ]
theorem hostOps0_10_sub : (hostOps0_10 : List (HloOp τ sig (Elt F))).Forall fun op => op.bufs ⊆ StableHlo.tcRefs τ sig :=
  StableHlo.nullary_bufs_sub ..
abbrev hostOps0_11 : List (HloOp τ sig (Elt F)) :=
  [ StableHlo.TRef.unary (.of main_c_18 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S64x500, .i32⟩) (broadcastInDim S64x500 ![] bcast_S_S64x500),
    StableHlo.TRef.ternary (.of main_v50 : StableHlo.TRef sig ⟨S64x500, .i1⟩) (.of main_v9 : StableHlo.TRef sig ⟨S64x500, .i32⟩) (.of main_call5_v1 : StableHlo.TRef sig ⟨S64x500, .i32⟩) (.of main_v57 : StableHlo.TRef sig ⟨S64x500, .i32⟩) select ]
theorem hostOps0_11_sub : (hostOps0_11 : List (HloOp τ sig (Elt F))).Forall fun op => op.bufs ⊆ StableHlo.tcRefs τ sig :=
  ⟨StableHlo.unary_bufs_sub .., StableHlo.unary_bufs_sub .., StableHlo.ternary_bufs_sub ..⟩
abbrev hostOps0_12 : List (HloOp τ sig (Elt F)) :=
  [ StableHlo.TRef.unary (.of main_v57 : StableHlo.TRef sig ⟨S64x500, .i32⟩) (.of main_call6_v0 : StableHlo.TRef sig ⟨S64x500x1, .i32⟩) (broadcastInDim S64x500x1 ![0, 1] bcast_S64x500_S64x500x1_0_1),
    StableHlo.TRef.nullary (.of main_call6_v1 : StableHlo.TRef sig ⟨S1x1x50, .i32⟩) (iotaInDim S1x1x50 32 2),
    StableHlo.TRef.unary (.of main_call6_v0 : StableHlo.TRef sig ⟨S64x500x1, .i32⟩) (.of main_call6_v2 : StableHlo.TRef sig ⟨S64x500x50, .i32⟩) (broadcastInDim S64x500x50 ![0, 1, 2] bcast_S64x500x1_S64x500x50_0_1_2),
    StableHlo.TRef.unary (.of main_call6_v1 : StableHlo.TRef sig ⟨S1x1x50, .i32⟩) (.of main_call6_v3 : StableHlo.TRef sig ⟨S64x500x50, .i32⟩) (broadcastInDim S64x500x50 ![0, 1, 2] bcast_S1x1x50_S64x500x50_0_1_2),
    StableHlo.TRef.binary (.of main_call6_v2 : StableHlo.TRef sig ⟨S64x500x50, .i32⟩) (.of main_call6_v3 : StableHlo.TRef sig ⟨S64x500x50, .i32⟩) (.of main_call6_v4 : StableHlo.TRef sig ⟨S64x500x50, .i1⟩) (cmpi .eq),
    StableHlo.TRef.unary (.of main_call6_v4 : StableHlo.TRef sig ⟨S64x500x50, .i1⟩) (.of main_v58 : StableHlo.TRef sig ⟨S64x500x50, .f32⟩) (uitofp .f32) ]
theorem hostOps0_12_sub : (hostOps0_12 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.binary_bufs_sub .., StableHlo.unary_bufs_sub ..⟩
abbrev hostOps0_13 : List (HloOp τ sig (Elt F)) :=
  [ StableHlo.unary main_v56 main_v59 (broadcastInDim S64x500x1 ![0, 1] bcast_S64x500_S64x500x1_0_1 : (⟨S64x500, .f32⟩ : BufTy).Contents (Elt F) → (⟨S64x500x1, .f32⟩ : BufTy).Contents (Elt F)),
    StableHlo.unary main_v59 main_v60 (broadcastInDim S64x500x50 ![0, 1, 2] bcast_S64x500x1_S64x500x50_0_1_2 : (⟨S64x500x1, .f32⟩ : BufTy).Contents (Elt F) → (⟨S64x500x50, .f32⟩ : BufTy).Contents (Elt F)),
    StableHlo.binary main_v58 main_v60 main_v61 (mulf : (⟨S64x500x50, .f32⟩ : BufTy).Contents (Elt F) → (⟨S64x500x50, .f32⟩ : BufTy).Contents (Elt F) → (⟨S64x500x50, .f32⟩ : BufTy).Contents (Elt F)),
    StableHlo.unary main_v61 main_v62 ((transpose S64x50x500 [0, 2, 1] · transposes_S64x500x50_S64x50x500_0_2_1) : (⟨S64x500x50, .f32⟩ : BufTy).Contents (Elt F) → (⟨S64x50x500, .f32⟩ : BufTy).Contents (Elt F)) ]
theorem hostOps0_13_sub : (hostOps0_13 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub ..⟩
abbrev hostOps1 : List (HloOp τ sig (Elt F)) :=
  [ StableHlo.binary main_v62 main_arg0 main_v63 ((fun l r => Host.dotGeneral dot_S64x50x500_S64x500x1024_S64x50x1024_2_1_1_2_0_0 none l r) : (⟨S64x50x500, .f32⟩ : BufTy).Contents (Elt F) → (⟨S64x500x1024, .f32⟩ : BufTy).Contents (Elt F) → (⟨S64x50x1024, .f32⟩ : BufTy).Contents (Elt F)),
    StableHlo.nullary main_cst_19 (constant S_ .f32 0x00000000#32),
    StableHlo.binary main_v62 main_cst_19 main_v64 ((fun x v => Host.reduceAdd x v reducesTo_S64x50x500_S64x50_d2 h_S_) : (⟨S64x50x500, .f32⟩ : BufTy).Contents (Elt F) → (⟨S_, .f32⟩ : BufTy).Contents (Elt F) → (⟨S64x50, .f32⟩ : BufTy).Contents (Elt F)) ]
theorem hostOps1_sub : (hostOps1 : List (HloOp τ sig (Elt F))).Forall fun op => op.bufs ⊆ StableHlo.tcRefs τ sig :=
  ⟨StableHlo.binary_bufs_sub .., StableHlo.nullary_bufs_sub .., StableHlo.binary_bufs_sub ..⟩
abbrev main_part0_ops0 : List (HloOp τ sig (Elt F)) :=
  [ StableHlo.nullary main_cst (constant S_ .f32 0x00000000#32),
    StableHlo.unary main_cst main_v0 (broadcastInDim S64x501 ![] bcast_S_S64x501 : (⟨S_, .f32⟩ : BufTy).Contents (Elt F) → (⟨S64x501, .f32⟩ : BufTy).Contents (Elt F)),
    StableHlo.binary main_arg1 main_v0 main_v1 (cmpf .une : (⟨S64x501, .f32⟩ : BufTy).Contents (Elt F) → (⟨S64x501, .f32⟩ : BufTy).Contents (Elt F) → (⟨S64x501, .i1⟩ : BufTy).Contents (Elt F)),
    StableHlo.unary main_v1 main_v2 ((extui 32 · natLt_1_32) : (⟨S64x501, .i1⟩ : BufTy).Contents (Elt F) → (⟨S64x501, .i32⟩ : BufTy).Contents (Elt F)),
    StableHlo.nullary main_c (constantI S_ 32 0#32),
    StableHlo.unary main_c main_v3 (broadcastInDim S1 ![] bcast_S_S1 : (⟨S_, .i32⟩ : BufTy).Contents (Elt F) → (⟨S1, .i32⟩ : BufTy).Contents (Elt F)),
    StableHlo.nullary main_c_0 (constantI S_ 32 1#32),
    StableHlo.unary main_c_0 main_v4 (broadcastInDim S64 ![] bcast_S_S64 : (⟨S_, .i32⟩ : BufTy).Contents (Elt F) → (⟨S64, .i32⟩ : BufTy).Contents (Elt F)),
    StableHlo.ternary main_v2 main_v3 main_v4 main_v5 ((fun x i u => Host.scatter scatter_S64x501_S1_S64_0_1_1_0 (fun _ b => b) x i u) : (⟨S64x501, .i32⟩ : BufTy).Contents (Elt F) → (⟨S1, .i32⟩ : BufTy).Contents (Elt F) → (⟨S64, .i32⟩ : BufTy).Contents (Elt F) → (⟨S64x501, .i32⟩ : BufTy).Contents (Elt F)) ]
theorem main_part0_ops0_sub : (main_part0_ops0 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.ternary_bufs_sub ..⟩
abbrev main_part0_ops1 : List (HloOp τ sig (Elt F)) :=
  [ StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_v5 : StableHlo.TRef sig ⟨S64x501, .i32⟩) (.of main_call0_call0_v0 : StableHlo.TRef sig ⟨S_, .i32⟩) (.of main_v6 : StableHlo.TRef sig ⟨S64x501, .i32⟩) (fun x v => Host.reduceWindow IntOp.addi ![1, 501] ![1, 1] ![0, 500] ![0, 0] x v reduceWindows_S64x501_S64x501_w1s1p0_0_w501s1p500_0 h_S_) ]
theorem main_part0_ops1_sub : (main_part0_ops1 : List (HloOp τ sig (Elt F))).Forall fun op => op.bufs ⊆ StableHlo.tcRefs τ sig :=
  ⟨StableHlo.nullary_bufs_sub .., StableHlo.unary_bufs_sub .., StableHlo.binary_bufs_sub ..⟩
abbrev main_part0_ops2 : List (HloOp τ sig (Elt F)) :=
  [ StableHlo.unary main_v6 main_v7 ((extractStridedSlice S64x500 ![0, 0] · slices_S64x501_S64x500_0_0) : (⟨S64x501, .i32⟩ : BufTy).Contents (Elt F) → (⟨S64x500, .i32⟩ : BufTy).Contents (Elt F)),
    StableHlo.nullary main_c_1 (constantI S_ 32 1#32),
    StableHlo.unary main_c_1 main_v8 (broadcastInDim S64x500 ![] bcast_S_S64x500 : (⟨S_, .i32⟩ : BufTy).Contents (Elt F) → (⟨S64x500, .i32⟩ : BufTy).Contents (Elt F)),
    StableHlo.binary main_v7 main_v8 main_v9 (subi : (⟨S64x500, .i32⟩ : BufTy).Contents (Elt F) → (⟨S64x500, .i32⟩ : BufTy).Contents (Elt F) → (⟨S64x500, .i32⟩ : BufTy).Contents (Elt F)),
    StableHlo.nullary main_c_2 (constantI S_ 32 1#32),
    StableHlo.unary main_c_2 main_v10 (broadcastInDim S64x501 ![] bcast_S_S64x501 : (⟨S_, .i32⟩ : BufTy).Contents (Elt F) → (⟨S64x501, .i32⟩ : BufTy).Contents (Elt F)),
    StableHlo.binary main_v5 main_v10 main_v11 (cmpi .eq : (⟨S64x501, .i32⟩ : BufTy).Contents (Elt F) → (⟨S64x501, .i32⟩ : BufTy).Contents (Elt F) → (⟨S64x501, .i1⟩ : BufTy).Contents (Elt F)),
    StableHlo.nullary main_c_3 (constantI S_ 32 1#32),
    StableHlo.unary main_c_3 main_v12 (broadcastInDim S64x501 ![] bcast_S_S64x501 : (⟨S_, .i32⟩ : BufTy).Contents (Elt F) → (⟨S64x501, .i32⟩ : BufTy).Contents (Elt F)),
    StableHlo.binary main_v6 main_v12 main_v13 (subi : (⟨S64x501, .i32⟩ : BufTy).Contents (Elt F) → (⟨S64x501, .i32⟩ : BufTy).Contents (Elt F) → (⟨S64x501, .i32⟩ : BufTy).Contents (Elt F)),
    StableHlo.nullary main_c_4 (constantI S_ 32 501#32) ]
theorem main_part0_ops2_sub : (main_part0_ops2 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub ..⟩
abbrev main_part0_ops3 : List (HloOp τ sig (Elt F)) :=
  [ StableHlo.TRef.unary (.of main_c_4 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S64x501, .i32⟩) (broadcastInDim S64x501 ![] bcast_S_S64x501),
    StableHlo.TRef.ternary (.of main_v11 : StableHlo.TRef sig ⟨S64x501, .i1⟩) (.of main_v13 : StableHlo.TRef sig ⟨S64x501, .i32⟩) (.of main_call1_v1 : StableHlo.TRef sig ⟨S64x501, .i32⟩) (.of main_v14 : StableHlo.TRef sig ⟨S64x501, .i32⟩) select ]
theorem main_part0_ops3_sub : (main_part0_ops3 : List (HloOp τ sig (Elt F))).Forall fun op => op.bufs ⊆ StableHlo.tcRefs τ sig :=
  ⟨StableHlo.unary_bufs_sub .., StableHlo.unary_bufs_sub .., StableHlo.ternary_bufs_sub ..⟩
abbrev main_part0_ops4 : List (HloOp τ sig (Elt F)) :=
  [ StableHlo.nullary main_c_5 (constantI S_ 32 510#32),
    StableHlo.unary main_c_5 main_v15 (broadcastInDim S64x502 ![] bcast_S_S64x502 : (⟨S_, .i32⟩ : BufTy).Contents (Elt F) → (⟨S64x502, .i32⟩ : BufTy).Contents (Elt F)),
    StableHlo.nullary main_v16 (iotaInDim S501 32 0),
    StableHlo.unary main_v16 main_v17 (broadcastInDim S64x501 ![1] bcast_S501_S64x501_1 : (⟨S501, .i32⟩ : BufTy).Contents (Elt F) → (⟨S64x501, .i32⟩ : BufTy).Contents (Elt F)),
    StableHlo.nullary main_v18 (iotaInDim S64 32 0),
    StableHlo.unary main_v18 main_v19 (broadcastInDim S64x1 ![0] bcast_S64_S64x1_0 : (⟨S64, .i32⟩ : BufTy).Contents (Elt F) → (⟨S64x1, .i32⟩ : BufTy).Contents (Elt F)),
    StableHlo.nullary main_c_6 (constantI S_ 32 0#32),
    StableHlo.unary main_c_6 main_v20 (broadcastInDim S64x1 ![] bcast_S_S64x1 : (⟨S_, .i32⟩ : BufTy).Contents (Elt F) → (⟨S64x1, .i32⟩ : BufTy).Contents (Elt F)),
    StableHlo.binary main_v19 main_v20 main_v21 (cmpi .slt : (⟨S64x1, .i32⟩ : BufTy).Contents (Elt F) → (⟨S64x1, .i32⟩ : BufTy).Contents (Elt F) → (⟨S64x1, .i1⟩ : BufTy).Contents (Elt F)),
    StableHlo.nullary main_c_7 (constantI S_ 32 64#32),
    StableHlo.unary main_c_7 main_v22 (broadcastInDim S64x1 ![] bcast_S_S64x1 : (⟨S_, .i32⟩ : BufTy).Contents (Elt F) → (⟨S64x1, .i32⟩ : BufTy).Contents (Elt F)),
    StableHlo.binary main_v19 main_v22 main_v23 (addi : (⟨S64x1, .i32⟩ : BufTy).Contents (Elt F) → (⟨S64x1, .i32⟩ : BufTy).Contents (Elt F) → (⟨S64x1, .i32⟩ : BufTy).Contents (Elt F)),
    StableHlo.ternary main_v21 main_v23 main_v19 main_v24 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    StableHlo.nullary main_c_8 (constantI S_ 32 0#32),
    StableHlo.unary main_c_8 main_v25 (broadcastInDim S64x501 ![] bcast_S_S64x501 : (⟨S_, .i32⟩ : BufTy).Contents (Elt F) → (⟨S64x501, .i32⟩ : BufTy).Contents (Elt F)),
    StableHlo.binary main_v14 main_v25 main_v26 (cmpi .slt : (⟨S64x501, .i32⟩ : BufTy).Contents (Elt F) → (⟨S64x501, .i32⟩ : BufTy).Contents (Elt F) → (⟨S64x501, .i1⟩ : BufTy).Contents (Elt F)),
    StableHlo.nullary main_c_9 (constantI S_ 32 502#32),
    StableHlo.unary main_c_9 main_v27 (broadcastInDim S64x501 ![] bcast_S_S64x501 : (⟨S_, .i32⟩ : BufTy).Contents (Elt F) → (⟨S64x501, .i32⟩ : BufTy).Contents (Elt F)),
    StableHlo.binary main_v14 main_v27 main_v28 (addi : (⟨S64x501, .i32⟩ : BufTy).Contents (Elt F) → (⟨S64x501, .i32⟩ : BufTy).Contents (Elt F) → (⟨S64x501, .i32⟩ : BufTy).Contents (Elt F)),
    StableHlo.ternary main_v26 main_v28 main_v14 main_v29 (select : (⟨S64x501, .i1⟩ : BufTy).Contents (Elt F) → (⟨S64x501, .i32⟩ : BufTy).Contents (Elt F) → (⟨S64x501, .i32⟩ : BufTy).Contents (Elt F) → (⟨S64x501, .i32⟩ : BufTy).Contents (Elt F)),
    StableHlo.unary main_v24 main_v30 (broadcastInDim S64x501 ![0, 1] bcast_S64x1_S64x501_0_1 : (⟨S64x1, .i32⟩ : BufTy).Contents (Elt F) → (⟨S64x501, .i32⟩ : BufTy).Contents (Elt F)),
    StableHlo.unary main_v30 main_v31 (broadcastInDim S64x501x1 ![0, 1] bcast_S64x501_S64x501x1_0_1 : (⟨S64x501, .i32⟩ : BufTy).Contents (Elt F) → (⟨S64x501x1, .i32⟩ : BufTy).Contents (Elt F)),
    StableHlo.unary main_v29 main_v32 (broadcastInDim S64x501x1 ![0, 1] bcast_S64x501_S64x501x1_0_1 : (⟨S64x501, .i32⟩ : BufTy).Contents (Elt F) → (⟨S64x501x1, .i32⟩ : BufTy).Contents (Elt F)),
    StableHlo.binary main_v31 main_v32 main_v33 ((fun a b => concatenate S64x501x2 2 [⟨S64x501x1, a⟩, ⟨S64x501x1, b⟩] concatenates_S64x501x1_S64x501x1_S64x501x2_d2) : (⟨S64x501x1, .i32⟩ : BufTy).Contents (Elt F) → (⟨S64x501x1, .i32⟩ : BufTy).Contents (Elt F) → (⟨S64x501x2, .i32⟩ : BufTy).Contents (Elt F)),
    StableHlo.ternary main_v15 main_v33 main_v17 main_v34 ((fun x i u => Host.scatter scatter_S64x502_S64x501x2_S64x501_n_01_01_2 IntOp.minsi x i u) : (⟨S64x502, .i32⟩ : BufTy).Contents (Elt F) → (⟨S64x501x2, .i32⟩ : BufTy).Contents (Elt F) → (⟨S64x501, .i32⟩ : BufTy).Contents (Elt F) → (⟨S64x502, .i32⟩ : BufTy).Contents (Elt F)) ]
theorem main_part0_ops4_sub : (main_part0_ops4 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.ternary_bufs_sub ..⟩
abbrev main_part0_ops5 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S64x500, .i32⟩) (broadcastInDim S64x500 ![] bcast_S_S64x500),
    StableHlo.TRef.binary (.of main_v9 : StableHlo.TRef sig ⟨S64x500, .i32⟩) (.of main_call2_v0 : StableHlo.TRef sig ⟨S64x500, .i32⟩) (.of main_call2_v1 : StableHlo.TRef sig ⟨S64x500, .i1⟩) (cmpi .slt),
    StableHlo.TRef.nullary (.of main_call2_c_0 : StableHlo.TRef sig ⟨S_, .i32⟩) (constantI S_ 32 502#32),
    StableHlo.TRef.unary (.of main_call2_c_0 : StableHlo.TRef sig ⟨S_, .i32⟩) (.of main_call2_v2 : StableHlo.TRef sig ⟨S64x500, .i32⟩) (broadcastInDim S64x500 ![] bcast_S_S64x500),
    StableHlo.TRef.binary (.of main_v9 : StableHlo.TRef sig ⟨S64x500, .i32⟩) (.of main_call2_v2 : StableHlo.TRef sig ⟨S64x500, .i32⟩) (.of main_call2_v3 : StableHlo.TRef sig ⟨S64x500, .i32⟩) addi,
    StableHlo.TRef.ternary (.of main_call2_v1 : StableHlo.TRef sig ⟨S64x500, .i1⟩) (.of main_call2_v3 : StableHlo.TRef sig ⟨S64x500, .i32⟩) (.of main_v9 : StableHlo.TRef sig ⟨S64x500, .i32⟩) (.of main_call2_v4 : StableHlo.TRef sig ⟨S64x500, .i32⟩) select,
    StableHlo.TRef.reshape (.of main_call2_v4 : StableHlo.TRef sig ⟨S64x500, .i32⟩) (.of main_call2_v5 : StableHlo.TRef sig ⟨S64x500x1, .i32⟩) rfl shapeCasts_S64x500_S64x500x1,
    StableHlo.TRef.nullary (.of main_call2_c_1 : StableHlo.TRef sig ⟨S1, .i32⟩) (constantI S1 32 501#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S64x500x1, .i32⟩) (broadcastInDim S64x500x1 ![] bcast_S_S64x500x1),
    StableHlo.TRef.binary (.of main_call2_v5 : StableHlo.TRef sig ⟨S64x500x1, .i32⟩) (.of main_call2_v6 : StableHlo.TRef sig ⟨S64x500x1, .i32⟩) (.of main_call2_v7 : StableHlo.TRef sig ⟨S64x500x1, .i1⟩) (cmpi .sge),
    StableHlo.TRef.unary (.of main_call2_c_1 : StableHlo.TRef sig ⟨S1, .i32⟩) (.of main_call2_v8 : StableHlo.TRef sig ⟨S1x1x1, .i32⟩) (broadcastInDim S1x1x1 ![2] bcast_S1_S1x1x1_2),
    StableHlo.TRef.unary (.of main_call2_v8 : StableHlo.TRef sig ⟨S1x1x1, .i32⟩) (.of main_call2_v9 : StableHlo.TRef sig ⟨S64x500x1, .i32⟩) (broadcastInDim S64x500x1 ![0, 1, 2] bcast_S1x1x1_S64x500x1_0_1_2),
    StableHlo.TRef.binary (.of main_call2_v5 : StableHlo.TRef sig ⟨S64x500x1, .i32⟩) (.of main_call2_v9 : StableHlo.TRef sig ⟨S64x500x1, .i32⟩) (.of main_call2_v10 : StableHlo.TRef sig ⟨S64x500x1, .i1⟩) (cmpi .sle),
    StableHlo.TRef.binary (.of main_call2_v7 : StableHlo.TRef sig ⟨S64x500x1, .i1⟩) (.of main_call2_v10 : StableHlo.TRef sig ⟨S64x500x1, .i1⟩) (.of main_call2_v11 : StableHlo.TRef sig ⟨S64x500x1, .i1⟩) andi,
    StableHlo.TRef.nullary (.of main_call2_c_3 : StableHlo.TRef sig ⟨S_, .i1⟩) (constantI S_ 1 1#1),
    StableHlo.TRef.binary (.of main_call2_v11 : StableHlo.TRef sig ⟨S64x500x1, .i1⟩) (.of main_call2_c_3 : StableHlo.TRef sig ⟨S_, .i1⟩) (.of main_call2_v12 : StableHlo.TRef sig ⟨S64x500, .i1⟩) (fun x v => Host.reduce IntOp.andi x v reducesTo_S64x500x1_S64x500_d2 h_S_),
    StableHlo.TRef.binary (.of main_v34 : StableHlo.TRef sig ⟨S64x502, .i32⟩) (.of main_call2_v5 : StableHlo.TRef sig ⟨S64x500x1, .i32⟩) (.of main_call2_v13 : StableHlo.TRef sig ⟨S64x500, .i32⟩) (fun x i => Host.gather gather_S64x502_S64x500x1_S64x500_n_1_0_0_1_2_11 x i),
    StableHlo.TRef.nullary (.of main_call2_c_4 : StableHlo.TRef sig ⟨S_, .i32⟩) (constantI S_ 32 2147483648#32),
    StableHlo.TRef.unary (.of main_call2_c_4 : StableHlo.TRef sig ⟨S_, .i32⟩) (.of main_call2_v14 : StableHlo.TRef sig ⟨S64x500, .i32⟩) (broadcastInDim S64x500 ![] bcast_S_S64x500),
    StableHlo.TRef.ternary (.of main_call2_v12 : StableHlo.TRef sig ⟨S64x500, .i1⟩) (.of main_call2_v13 : StableHlo.TRef sig ⟨S64x500, .i32⟩) (.of main_call2_v14 : StableHlo.TRef sig ⟨S64x500, .i32⟩) (.of main_v35 : StableHlo.TRef sig ⟨S64x500, .i32⟩) select ]
theorem main_part0_ops5_sub : (main_part0_ops5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
abbrev main_part0_ops6 : List (HloOp τ sig (Elt F)) :=
  [ StableHlo.nullary main_c_10 (constantI S_ 32 1#32),
    StableHlo.unary main_c_10 main_v36 (broadcastInDim S64x500 ![] bcast_S_S64x500 : (⟨S_, .i32⟩ : BufTy).Contents (Elt F) → (⟨S64x500, .i32⟩ : BufTy).Contents (Elt F)),
    StableHlo.binary main_v9 main_v36 main_v37 (addi : (⟨S64x500, .i32⟩ : BufTy).Contents (Elt F) → (⟨S64x500, .i32⟩ : BufTy).Contents (Elt F) → (⟨S64x500, .i32⟩ : BufTy).Contents (Elt F)) ]
theorem main_part0_ops6_sub : (main_part0_ops6 : List (HloOp τ sig (Elt F))).Forall fun op => op.bufs ⊆ StableHlo.tcRefs τ sig :=
  ⟨StableHlo.nullary_bufs_sub .., StableHlo.unary_bufs_sub .., StableHlo.binary_bufs_sub ..⟩
abbrev main_part0_ops7 : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S64x500, .i32⟩) (broadcastInDim S64x500 ![] bcast_S_S64x500),
    StableHlo.TRef.binary (.of main_v37 : StableHlo.TRef sig ⟨S64x500, .i32⟩) (.of main_call3_v0 : StableHlo.TRef sig ⟨S64x500, .i32⟩) (.of main_call3_v1 : StableHlo.TRef sig ⟨S64x500, .i1⟩) (cmpi .slt),
    StableHlo.TRef.nullary (.of main_call3_c_0 : StableHlo.TRef sig ⟨S_, .i32⟩) (constantI S_ 32 502#32),
    StableHlo.TRef.unary (.of main_call3_c_0 : StableHlo.TRef sig ⟨S_, .i32⟩) (.of main_call3_v2 : StableHlo.TRef sig ⟨S64x500, .i32⟩) (broadcastInDim S64x500 ![] bcast_S_S64x500),
    StableHlo.TRef.binary (.of main_v37 : StableHlo.TRef sig ⟨S64x500, .i32⟩) (.of main_call3_v2 : StableHlo.TRef sig ⟨S64x500, .i32⟩) (.of main_call3_v3 : StableHlo.TRef sig ⟨S64x500, .i32⟩) addi,
    StableHlo.TRef.ternary (.of main_call3_v1 : StableHlo.TRef sig ⟨S64x500, .i1⟩) (.of main_call3_v3 : StableHlo.TRef sig ⟨S64x500, .i32⟩) (.of main_v37 : StableHlo.TRef sig ⟨S64x500, .i32⟩) (.of main_call3_v4 : StableHlo.TRef sig ⟨S64x500, .i32⟩) select,
    StableHlo.TRef.reshape (.of main_call3_v4 : StableHlo.TRef sig ⟨S64x500, .i32⟩) (.of main_call3_v5 : StableHlo.TRef sig ⟨S64x500x1, .i32⟩) rfl shapeCasts_S64x500_S64x500x1,
    StableHlo.TRef.nullary (.of main_call3_c_1 : StableHlo.TRef sig ⟨S1, .i32⟩) (constantI S1 32 501#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S64x500x1, .i32⟩) (broadcastInDim S64x500x1 ![] bcast_S_S64x500x1),
    StableHlo.TRef.binary (.of main_call3_v5 : StableHlo.TRef sig ⟨S64x500x1, .i32⟩) (.of main_call3_v6 : StableHlo.TRef sig ⟨S64x500x1, .i32⟩) (.of main_call3_v7 : StableHlo.TRef sig ⟨S64x500x1, .i1⟩) (cmpi .sge),
    StableHlo.TRef.unary (.of main_call3_c_1 : StableHlo.TRef sig ⟨S1, .i32⟩) (.of main_call3_v8 : StableHlo.TRef sig ⟨S1x1x1, .i32⟩) (broadcastInDim S1x1x1 ![2] bcast_S1_S1x1x1_2),
    StableHlo.TRef.unary (.of main_call3_v8 : StableHlo.TRef sig ⟨S1x1x1, .i32⟩) (.of main_call3_v9 : StableHlo.TRef sig ⟨S64x500x1, .i32⟩) (broadcastInDim S64x500x1 ![0, 1, 2] bcast_S1x1x1_S64x500x1_0_1_2),
    StableHlo.TRef.binary (.of main_call3_v5 : StableHlo.TRef sig ⟨S64x500x1, .i32⟩) (.of main_call3_v9 : StableHlo.TRef sig ⟨S64x500x1, .i32⟩) (.of main_call3_v10 : StableHlo.TRef sig ⟨S64x500x1, .i1⟩) (cmpi .sle),
    StableHlo.TRef.binary (.of main_call3_v7 : StableHlo.TRef sig ⟨S64x500x1, .i1⟩) (.of main_call3_v10 : StableHlo.TRef sig ⟨S64x500x1, .i1⟩) (.of main_call3_v11 : StableHlo.TRef sig ⟨S64x500x1, .i1⟩) andi,
    StableHlo.TRef.nullary (.of main_call3_c_3 : StableHlo.TRef sig ⟨S_, .i1⟩) (constantI S_ 1 1#1),
    StableHlo.TRef.binary (.of main_call3_v11 : StableHlo.TRef sig ⟨S64x500x1, .i1⟩) (.of main_call3_c_3 : StableHlo.TRef sig ⟨S_, .i1⟩) (.of main_call3_v12 : StableHlo.TRef sig ⟨S64x500, .i1⟩) (fun x v => Host.reduce IntOp.andi x v reducesTo_S64x500x1_S64x500_d2 h_S_),
    StableHlo.TRef.binary (.of main_v34 : StableHlo.TRef sig ⟨S64x502, .i32⟩) (.of main_call3_v5 : StableHlo.TRef sig ⟨S64x500x1, .i32⟩) (.of main_call3_v13 : StableHlo.TRef sig ⟨S64x500, .i32⟩) (fun x i => Host.gather gather_S64x502_S64x500x1_S64x500_n_1_0_0_1_2_11 x i),
    StableHlo.TRef.nullary (.of main_call3_c_4 : StableHlo.TRef sig ⟨S_, .i32⟩) (constantI S_ 32 2147483648#32),
    StableHlo.TRef.unary (.of main_call3_c_4 : StableHlo.TRef sig ⟨S_, .i32⟩) (.of main_call3_v14 : StableHlo.TRef sig ⟨S64x500, .i32⟩) (broadcastInDim S64x500 ![] bcast_S_S64x500),
    StableHlo.TRef.ternary (.of main_call3_v12 : StableHlo.TRef sig ⟨S64x500, .i1⟩) (.of main_call3_v13 : StableHlo.TRef sig ⟨S64x500, .i32⟩) (.of main_call3_v14 : StableHlo.TRef sig ⟨S64x500, .i32⟩) (.of main_v38 : StableHlo.TRef sig ⟨S64x500, .i32⟩) select ]
theorem main_part0_ops7_sub : (main_part0_ops7 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
abbrev main_part0_ops8 : List (HloOp τ sig (Elt F)) :=
  [ StableHlo.binary main_v38 main_v35 main_v39 (subi : (⟨S64x500, .i32⟩ : BufTy).Contents (Elt F) → (⟨S64x500, .i32⟩ : BufTy).Contents (Elt F) → (⟨S64x500, .i32⟩ : BufTy).Contents (Elt F)),
    StableHlo.nullary main_c_11 (constantI S_ 32 510#32),
    StableHlo.unary main_c_11 main_v40 (broadcastInDim S64x500 ![] bcast_S_S64x500 : (⟨S_, .i32⟩ : BufTy).Contents (Elt F) → (⟨S64x500, .i32⟩ : BufTy).Contents (Elt F)),
    StableHlo.binary main_v38 main_v40 main_v41 (cmpi .slt : (⟨S64x500, .i32⟩ : BufTy).Contents (Elt F) → (⟨S64x500, .i32⟩ : BufTy).Contents (Elt F) → (⟨S64x500, .i1⟩ : BufTy).Contents (Elt F)),
    StableHlo.nullary main_c_12 (constantI S_ 32 500#32),
    StableHlo.unary main_c_12 main_v42 (broadcastInDim S64x500 ![] bcast_S_S64x500 : (⟨S_, .i32⟩ : BufTy).Contents (Elt F) → (⟨S64x500, .i32⟩ : BufTy).Contents (Elt F)),
    StableHlo.binary main_v38 main_v42 main_v43 (cmpi .sle : (⟨S64x500, .i32⟩ : BufTy).Contents (Elt F) → (⟨S64x500, .i32⟩ : BufTy).Contents (Elt F) → (⟨S64x500, .i1⟩ : BufTy).Contents (Elt F)),
    StableHlo.binary main_v41 main_v43 main_v44 (andi : (⟨S64x500, .i1⟩ : BufTy).Contents (Elt F) → (⟨S64x500, .i1⟩ : BufTy).Contents (Elt F) → (⟨S64x500, .i1⟩ : BufTy).Contents (Elt F)) ]
theorem main_part0_ops8_sub : (main_part0_ops8 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩
theorem main_part0_chain (c : Dev nD) : main_part0 (F := F) c = (Pipeline.chainK
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7 ]
  (StableHlo.seq main_part0_ops8) : Prog (TpuEff nD τ sig (Elt F) (Pipeline.Sig Λ₀ (Fin 0) fun p => (pcfgs (F := F) p).Adm) .tc) PUnit) := by
  chain_rfl

abbrev main_part1_ops0 : List (HloOp τ sig (Elt F)) :=
  [ StableHlo.nullary main_c_13 (constantI S_ 32 50#32),
    StableHlo.unary main_c_13 main_v45 (broadcastInDim S64x500 ![] bcast_S_S64x500 : (⟨S_, .i32⟩ : BufTy).Contents (Elt F) → (⟨S64x500, .i32⟩ : BufTy).Contents (Elt F)),
    StableHlo.binary main_v9 main_v45 main_v46 (cmpi .slt : (⟨S64x500, .i32⟩ : BufTy).Contents (Elt F) → (⟨S64x500, .i32⟩ : BufTy).Contents (Elt F) → (⟨S64x500, .i1⟩ : BufTy).Contents (Elt F)),
    StableHlo.binary main_v44 main_v46 main_v47 (andi : (⟨S64x500, .i1⟩ : BufTy).Contents (Elt F) → (⟨S64x500, .i1⟩ : BufTy).Contents (Elt F) → (⟨S64x500, .i1⟩ : BufTy).Contents (Elt F)),
    StableHlo.nullary main_c_14 (constantI S_ 32 0#32),
    StableHlo.unary main_c_14 main_v48 (broadcastInDim S64x500 ![] bcast_S_S64x500 : (⟨S_, .i32⟩ : BufTy).Contents (Elt F) → (⟨S64x500, .i32⟩ : BufTy).Contents (Elt F)),
    StableHlo.binary main_v39 main_v48 main_v49 (cmpi .sgt : (⟨S64x500, .i32⟩ : BufTy).Contents (Elt F) → (⟨S64x500, .i32⟩ : BufTy).Contents (Elt F) → (⟨S64x500, .i1⟩ : BufTy).Contents (Elt F)),
    StableHlo.binary main_v47 main_v49 main_v50 (andi : (⟨S64x500, .i1⟩ : BufTy).Contents (Elt F) → (⟨S64x500, .i1⟩ : BufTy).Contents (Elt F) → (⟨S64x500, .i1⟩ : BufTy).Contents (Elt F)),
    StableHlo.nullary main_c_15 (constantI S_ 32 1#32),
    StableHlo.unary main_c_15 main_v51 (broadcastInDim S64x500 ![] bcast_S_S64x500 : (⟨S_, .i32⟩ : BufTy).Contents (Elt F) → (⟨S64x500, .i32⟩ : BufTy).Contents (Elt F)),
    StableHlo.binary main_v39 main_v51 main_v52 (maxsi : (⟨S64x500, .i32⟩ : BufTy).Contents (Elt F) → (⟨S64x500, .i32⟩ : BufTy).Contents (Elt F) → (⟨S64x500, .i32⟩ : BufTy).Contents (Elt F)),
    StableHlo.unary main_v52 main_v53 (sitofp .f32 : (⟨S64x500, .i32⟩ : BufTy).Contents (Elt F) → (⟨S64x500, .f32⟩ : BufTy).Contents (Elt F)),
    StableHlo.nullary main_cst_16 (constant S_ .f32 0x3F800000#32),
    StableHlo.unary main_cst_16 main_v54 (broadcastInDim S64x500 ![] bcast_S_S64x500 : (⟨S_, .f32⟩ : BufTy).Contents (Elt F) → (⟨S64x500, .f32⟩ : BufTy).Contents (Elt F)),
    StableHlo.binary main_v54 main_v53 main_v55 (Host.divf : (⟨S64x500, .f32⟩ : BufTy).Contents (Elt F) → (⟨S64x500, .f32⟩ : BufTy).Contents (Elt F) → (⟨S64x500, .f32⟩ : BufTy).Contents (Elt F)),
    StableHlo.nullary main_cst_17 (constant S_ .f32 0x00000000#32) ]
theorem main_part1_ops0_sub : (main_part1_ops0 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub ..⟩
abbrev main_part1_ops1 : List (HloOp τ sig (Elt F)) :=
  [ StableHlo.TRef.unary (.of main_cst_17 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S64x500, .f32⟩) (broadcastInDim S64x500 ![] bcast_S_S64x500),
    StableHlo.TRef.ternary (.of main_v50 : StableHlo.TRef sig ⟨S64x500, .i1⟩) (.of main_v55 : StableHlo.TRef sig ⟨S64x500, .f32⟩) (.of main_call4_v1 : StableHlo.TRef sig ⟨S64x500, .f32⟩) (.of main_v56 : StableHlo.TRef sig ⟨S64x500, .f32⟩) select ]
theorem main_part1_ops1_sub : (main_part1_ops1 : List (HloOp τ sig (Elt F))).Forall fun op => op.bufs ⊆ StableHlo.tcRefs τ sig :=
  ⟨StableHlo.unary_bufs_sub .., StableHlo.unary_bufs_sub .., StableHlo.ternary_bufs_sub ..⟩
abbrev main_part1_ops2 : List (HloOp τ sig (Elt F)) :=
  [ StableHlo.nullary main_c_18 (constantI S_ 32 50#32) ]
theorem main_part1_ops2_sub : (main_part1_ops2 : List (HloOp τ sig (Elt F))).Forall fun op => op.bufs ⊆ StableHlo.tcRefs τ sig :=
  StableHlo.nullary_bufs_sub ..
abbrev main_part1_ops3 : List (HloOp τ sig (Elt F)) :=
  [ StableHlo.TRef.unary (.of main_c_18 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S64x500, .i32⟩) (broadcastInDim S64x500 ![] bcast_S_S64x500),
    StableHlo.TRef.ternary (.of main_v50 : StableHlo.TRef sig ⟨S64x500, .i1⟩) (.of main_v9 : StableHlo.TRef sig ⟨S64x500, .i32⟩) (.of main_call5_v1 : StableHlo.TRef sig ⟨S64x500, .i32⟩) (.of main_v57 : StableHlo.TRef sig ⟨S64x500, .i32⟩) select ]
theorem main_part1_ops3_sub : (main_part1_ops3 : List (HloOp τ sig (Elt F))).Forall fun op => op.bufs ⊆ StableHlo.tcRefs τ sig :=
  ⟨StableHlo.unary_bufs_sub .., StableHlo.unary_bufs_sub .., StableHlo.ternary_bufs_sub ..⟩
abbrev main_part1_ops4 : List (HloOp τ sig (Elt F)) :=
  [ StableHlo.TRef.unary (.of main_v57 : StableHlo.TRef sig ⟨S64x500, .i32⟩) (.of main_call6_v0 : StableHlo.TRef sig ⟨S64x500x1, .i32⟩) (broadcastInDim S64x500x1 ![0, 1] bcast_S64x500_S64x500x1_0_1),
    StableHlo.TRef.nullary (.of main_call6_v1 : StableHlo.TRef sig ⟨S1x1x50, .i32⟩) (iotaInDim S1x1x50 32 2),
    StableHlo.TRef.unary (.of main_call6_v0 : StableHlo.TRef sig ⟨S64x500x1, .i32⟩) (.of main_call6_v2 : StableHlo.TRef sig ⟨S64x500x50, .i32⟩) (broadcastInDim S64x500x50 ![0, 1, 2] bcast_S64x500x1_S64x500x50_0_1_2),
    StableHlo.TRef.unary (.of main_call6_v1 : StableHlo.TRef sig ⟨S1x1x50, .i32⟩) (.of main_call6_v3 : StableHlo.TRef sig ⟨S64x500x50, .i32⟩) (broadcastInDim S64x500x50 ![0, 1, 2] bcast_S1x1x50_S64x500x50_0_1_2),
    StableHlo.TRef.binary (.of main_call6_v2 : StableHlo.TRef sig ⟨S64x500x50, .i32⟩) (.of main_call6_v3 : StableHlo.TRef sig ⟨S64x500x50, .i32⟩) (.of main_call6_v4 : StableHlo.TRef sig ⟨S64x500x50, .i1⟩) (cmpi .eq),
    StableHlo.TRef.unary (.of main_call6_v4 : StableHlo.TRef sig ⟨S64x500x50, .i1⟩) (.of main_v58 : StableHlo.TRef sig ⟨S64x500x50, .f32⟩) (uitofp .f32) ]
theorem main_part1_ops4_sub : (main_part1_ops4 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.binary_bufs_sub .., StableHlo.unary_bufs_sub ..⟩
abbrev main_part1_ops5 : List (HloOp τ sig (Elt F)) :=
  [ StableHlo.unary main_v56 main_v59 (broadcastInDim S64x500x1 ![0, 1] bcast_S64x500_S64x500x1_0_1 : (⟨S64x500, .f32⟩ : BufTy).Contents (Elt F) → (⟨S64x500x1, .f32⟩ : BufTy).Contents (Elt F)),
    StableHlo.unary main_v59 main_v60 (broadcastInDim S64x500x50 ![0, 1, 2] bcast_S64x500x1_S64x500x50_0_1_2 : (⟨S64x500x1, .f32⟩ : BufTy).Contents (Elt F) → (⟨S64x500x50, .f32⟩ : BufTy).Contents (Elt F)),
    StableHlo.binary main_v58 main_v60 main_v61 (mulf : (⟨S64x500x50, .f32⟩ : BufTy).Contents (Elt F) → (⟨S64x500x50, .f32⟩ : BufTy).Contents (Elt F) → (⟨S64x500x50, .f32⟩ : BufTy).Contents (Elt F)),
    StableHlo.unary main_v61 main_v62 ((transpose S64x50x500 [0, 2, 1] · transposes_S64x500x50_S64x50x500_0_2_1) : (⟨S64x500x50, .f32⟩ : BufTy).Contents (Elt F) → (⟨S64x50x500, .f32⟩ : BufTy).Contents (Elt F)) ]
theorem main_part1_ops5_sub : (main_part1_ops5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub ..⟩
abbrev main_part1_ops6 : List (HloOp τ sig (Elt F)) :=
  [ StableHlo.binary main_v62 main_arg0 main_v63 ((fun l r => Host.dotGeneral dot_S64x50x500_S64x500x1024_S64x50x1024_2_1_1_2_0_0 none l r) : (⟨S64x50x500, .f32⟩ : BufTy).Contents (Elt F) → (⟨S64x500x1024, .f32⟩ : BufTy).Contents (Elt F) → (⟨S64x50x1024, .f32⟩ : BufTy).Contents (Elt F)),
    StableHlo.nullary main_cst_19 (constant S_ .f32 0x00000000#32),
    StableHlo.binary main_v62 main_cst_19 main_v64 ((fun x v => Host.reduceAdd x v reducesTo_S64x50x500_S64x50_d2 h_S_) : (⟨S64x50x500, .f32⟩ : BufTy).Contents (Elt F) → (⟨S_, .f32⟩ : BufTy).Contents (Elt F) → (⟨S64x50, .f32⟩ : BufTy).Contents (Elt F)) ]
theorem main_part1_ops6_sub : (main_part1_ops6 : List (HloOp τ sig (Elt F))).Forall fun op => op.bufs ⊆ StableHlo.tcRefs τ sig :=
  ⟨StableHlo.binary_bufs_sub .., StableHlo.nullary_bufs_sub .., StableHlo.binary_bufs_sub ..⟩
theorem main_part1_chain (c : Dev nD) : main_part1 (F := F) c = (Pipeline.chain
  [ StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6 ] : Prog (TpuEff nD τ sig (Elt F) (Pipeline.Sig Λ₀ (Fin 0) fun p => (pcfgs (F := F) p).Adm) .tc) PUnit) := by
  chain_rfl

theorem main_chain (c : Dev nD) : main (F := F) c = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    StableHlo.seq hostOps0_11,
    StableHlo.seq hostOps0_12,
    StableHlo.seq hostOps0_13,
    StableHlo.seq hostOps1 ] : Prog (TpuEff nD τ sig (Elt F) (Pipeline.Sig Λ₀ (Fin 0) fun p => (pcfgs (F := F) p).Adm) .tc) PUnit) := by
  show (main_part0 (F := F) c >>= fun _ => main_part1 (F := F) c) = _
  rewrite [main_part1_chain, main_part0_chain, Pipeline.chainK_bind_chain]
  chain_rfl

end Cert.ReferenceIdeal.Host

end
-- ==== Proof.RefRun.lean ====
/-
  The reference's run: every weakly fair execution of its @main terminates, and each buffer ends at the fold of
  the host operations' results over the launch contents.

  @main is the chain of its stretches (`Host.main_chain`), hence the straight line of
  all 143 operations (`chain_map_seq`); no operation allocates, each touches TensorCore buffers only, and the
  signature scopes nothing, so the library's run of a straight line applies.
-/
import proofs.«148147_j35012573397109_1_alg».proof.Proof.RefOps
import proofs.«148147_j35012573397109_1_alg».proof.Proof.LibHostChain

set_option maxRecDepth 4096

noncomputable section

namespace Cert.ReferenceIdeal.Host

open Cert.ReferenceIdeal Cert.ReferenceIdeal.Gen
open Idealize.ShloMosaic Idealize.ShloMosaic.TcCoe Idealize.ShloMosaic.StableHlo
open Idealize.SL Idealize.SL.Sem

variable {F : FTy → Type} [FloatOps F]

/-- The operations that build the weights `mask` from the indicators: 140, in order. -/
abbrev maskOps : List (HloOp τ sig (Elt F)) :=
  List.flatten [hostOps0, hostOps0_1, hostOps0_2, hostOps0_3, hostOps0_4, hostOps0_5, hostOps0_6, hostOps0_7, hostOps0_8, hostOps0_9, hostOps0_10, hostOps0_11, hostOps0_12, hostOps0_13]

/-- All of @main: the weights' operations, then the batched product, the zero and the counts. -/
abbrev ops : List (HloOp τ sig (Elt F)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps1]

/-- @main is the straight line of its operations. -/
theorem main_eq (c : Dev nD) : main (F := F) c = seq ops :=
  (main_chain c).trans (chain_map_seq [hostOps0, hostOps0_1, hostOps0_2, hostOps0_3, hostOps0_4, hostOps0_5, hostOps0_6, hostOps0_7, hostOps0_8, hostOps0_9, hostOps0_10, hostOps0_11, hostOps0_12, hostOps0_13, hostOps1])

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- Every operation touches TensorCore buffers only. -/
theorem ops_sub : (ops : List (HloOp τ sig (Elt F))).Forall fun op => op.bufs ⊆ tcRefs τ sig :=
  forall_flatten _ (by
    simp only [List.mem_cons, List.mem_nil_iff, or_false, forall_eq_or_imp, forall_eq]
    exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps1_sub⟩)

/-- No operation allocates a buffer. -/
theorem ops_fresh : ∀ op ∈ (ops : List (HloOp τ sig (Elt F))), op.fresh = ∅ :=
  List.forall_iff_forall_mem.mp (forall_flatten _ (by
    simp only [List.mem_cons, List.mem_nil_iff, or_false, forall_eq_or_imp, forall_eq]
    exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps1_fresh⟩))

theorem scopedRefs_eq : (Finset.univ.filter fun b : Ref sig .tc => b.isScoped) = ∅ := by decide
theorem scopedSems_eq : (Finset.univ.filter fun sm : SemLoc sig => sm.isScoped .tc) = ∅ := by decide

/-- At the compiled mesh, from any memory with zero counters: every weakly fair execution of the reference's @main
    terminates, and every final state has each TensorCore buffer at the operations' fold over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Host

end
-- ==== Proof.MaskR.lean ====
/- The weights read back from the host operations that build them.

  The 140 operations before the batched product are run stretch by stretch.  Of each stretch two things are
  recorded, for ANY contents `V` of the buffers before it: what it leaves in the buffers later stretches read,
  as the stage function of the weights' specification applied to `V` at the buffers the stretch reads; and that it
  leaves every buffer it does not write as it was.  Chaining the stretches, the weights' buffer ends at
  `SegMask.mask` of the indicators' buffer, whatever else the buffers held.
-/
import proofs.«148147_j35012573397109_1_alg».proof.Proof.MaskSpec
import proofs.«148147_j35012573397109_1_alg».proof.Proof.LibHostChain
import proofs.«148147_j35012573397109_1_alg».proof.Proof.Gen.KernelIdeal
import proofs.«148147_j35012573397109_1_alg».proof.Proof.RefOps

set_option maxRecDepth 8192

noncomputable section

namespace Cert.ReferenceIdeal.MaskEval

open Cert.ReferenceIdeal Cert.ReferenceIdeal.Gen Cert.ReferenceIdeal.Host
open Idealize.ShloMosaic Idealize.ShloMosaic.TcCoe Idealize.ShloMosaic.StableHlo Idealize.SL.Sem

variable {F : FTy → Type} [FloatOps F]

-- the gathers, scatters and windowed sums are folds over an operand's elements: no equation here looks inside one
attribute [local irreducible] Host.reduce Host.gather Host.scatter Host.reduceWindow

/-- An operation whose one written buffer is in the list writes inside the list. -/
theorem wr {op : HloOp τ sig (Elt F)} {y : Ref sig .tc} {W : List (Ref sig .tc)} (h : y ∈ W)
    (e : op.writes = {Proc.devRef .tc y} := by rfl) : op.writes ⊆ (W.map (Proc.devRef (τ := τ) .tc)).toFinset := by
  rw [e, Finset.singleton_subset_iff, List.mem_toFinset]
  exact List.mem_map_of_mem h

/-! ### Stretch 0: the boundary flags -/

/-- The stretch, named so that a rewrite is keyed on the name and never on its operations. -/
def s0 : List (HloOp τ sig (Elt F)) := hostOps0
/-- The buffers it writes. -/
abbrev W0 : List (Ref sig .tc) := [main_cst, main_v0, main_v1, main_v2, main_c, main_v3, main_c_0, main_v4, main_v5]
theorem writes0 : (s0 : List (HloOp τ sig (Elt F))).Forall fun op => op.writes ⊆ (W0.map (Proc.devRef (τ := τ) .tc)).toFinset :=
  ⟨wr (y := main_cst) (by decide), wr (y := main_v0) (by decide), wr (y := main_v1) (by decide), wr (y := main_v2) (by decide), wr (y := main_c) (by decide), wr (y := main_v3) (by decide), wr (y := main_c_0) (by decide), wr (y := main_v4) (by decide), wr (y := main_v5) (by decide)⟩
/-- Every other buffer keeps its contents. -/
theorem keep0 (V : Valuation τ sig (Elt F)) {r : Ref sig .tc} (h : r ∉ W0) :
    after s0 V (no_index (Proc.devRef .tc r)) = V (Proc.devRef .tc r) :=
  after_of_writes_sub _ V writes0 h
set_option maxHeartbeats 1000000 in
theorem out0_main_v5 (V : Valuation τ sig (Elt F)) :
    after s0 V (no_index (Proc.devRef .tc main_v5)) = SegMask.bnd (V (Proc.devRef .tc main_arg1)) := by
  unfold s0; simp only [hostOps0]; after_results <;> rfl

/-! ### Stretch 1: the running count (the call to cumsum) -/

/-- The stretch, named so that a rewrite is keyed on the name and never on its operations. -/
def s1 : List (HloOp τ sig (Elt F)) := hostOps0_1
/-- The buffers it writes. -/
abbrev W1 : List (Ref sig .tc) := [main_call0_call0_c, main_call0_call0_v0, main_v6]
theorem writes1 : (s1 : List (HloOp τ sig (Elt F))).Forall fun op => op.writes ⊆ (W1.map (Proc.devRef (τ := τ) .tc)).toFinset :=
  ⟨wr (y := main_call0_call0_c) (by decide), wr (y := main_call0_call0_v0) (by decide), wr (y := main_v6) (by decide)⟩
/-- Every other buffer keeps its contents. -/
theorem keep1 (V : Valuation τ sig (Elt F)) {r : Ref sig .tc} (h : r ∉ W1) :
    after s1 V (no_index (Proc.devRef .tc r)) = V (Proc.devRef .tc r) :=
  after_of_writes_sub _ V writes1 h
set_option maxHeartbeats 1000000 in
theorem out1_main_v6 (V : Valuation τ sig (Elt F)) :
    after s1 V (no_index (Proc.devRef .tc main_v6)) = SegMask.csOf (F := F) (V (Proc.devRef .tc main_v5)) := by
  unfold s1; simp only [hostOps0_1]; after_results <;> rfl

/-! ### Stretch 2: the segment indices, the boundary test, the ranks, the dump column -/

/-- The stretch, named so that a rewrite is keyed on the name and never on its operations. -/
def s2 : List (HloOp τ sig (Elt F)) := hostOps0_2
/-- The buffers it writes. -/
abbrev W2 : List (Ref sig .tc) := [main_v7, main_c_1, main_v8, main_v9, main_c_2, main_v10, main_v11, main_c_3, main_v12, main_v13, main_c_4]
theorem writes2 : (s2 : List (HloOp τ sig (Elt F))).Forall fun op => op.writes ⊆ (W2.map (Proc.devRef (τ := τ) .tc)).toFinset :=
  ⟨wr (y := main_v7) (by decide), wr (y := main_c_1) (by decide), wr (y := main_v8) (by decide), wr (y := main_v9) (by decide), wr (y := main_c_2) (by decide), wr (y := main_v10) (by decide), wr (y := main_v11) (by decide), wr (y := main_c_3) (by decide), wr (y := main_v12) (by decide), wr (y := main_v13) (by decide), wr (y := main_c_4) (by decide)⟩
/-- Every other buffer keeps its contents. -/
theorem keep2 (V : Valuation τ sig (Elt F)) {r : Ref sig .tc} (h : r ∉ W2) :
    after s2 V (no_index (Proc.devRef .tc r)) = V (Proc.devRef .tc r) :=
  after_of_writes_sub _ V writes2 h
set_option maxHeartbeats 1000000 in
theorem out2_main_v9 (V : Valuation τ sig (Elt F)) :
    after s2 V (no_index (Proc.devRef .tc main_v9)) = SegMask.segIdOf (F := F) (V (Proc.devRef .tc main_v6)) := by
  unfold s2; simp only [hostOps0_2]; after_results <;> rfl
set_option maxHeartbeats 1000000 in
theorem out2_main_v11 (V : Valuation τ sig (Elt F)) :
    after s2 V (no_index (Proc.devRef .tc main_v11)) = SegMask.isBndOf (F := F) (V (Proc.devRef .tc main_v5)) := by
  unfold s2; simp only [hostOps0_2]; after_results <;> rfl
set_option maxHeartbeats 1000000 in
theorem out2_main_v13 (V : Valuation τ sig (Elt F)) :
    after s2 V (no_index (Proc.devRef .tc main_v13)) = SegMask.rankOf (F := F) (V (Proc.devRef .tc main_v6)) := by
  unfold s2; simp only [hostOps0_2]; after_results <;> rfl
set_option maxHeartbeats 1000000 in
theorem out2_main_c_4 (V : Valuation τ sig (Elt F)) :
    after s2 V (no_index (Proc.devRef .tc main_c_4)) = SegMask.dumpCol (F := F) := by
  unfold s2; simp only [hostOps0_2]; after_results <;> rfl

/-! ### Stretch 3: the ranks where a boundary (the call to where) -/

/-- The stretch, named so that a rewrite is keyed on the name and never on its operations. -/
def s3 : List (HloOp τ sig (Elt F)) := hostOps0_3
/-- The buffers it writes. -/
abbrev W3 : List (Ref sig .tc) := [main_call1_v0, main_call1_v1, main_v14]
theorem writes3 : (s3 : List (HloOp τ sig (Elt F))).Forall fun op => op.writes ⊆ (W3.map (Proc.devRef (τ := τ) .tc)).toFinset :=
  ⟨wr (y := main_call1_v0) (by decide), wr (y := main_call1_v1) (by decide), wr (y := main_v14) (by decide)⟩
/-- Every other buffer keeps its contents. -/
theorem keep3 (V : Valuation τ sig (Elt F)) {r : Ref sig .tc} (h : r ∉ W3) :
    after s3 V (no_index (Proc.devRef .tc r)) = V (Proc.devRef .tc r) :=
  after_of_writes_sub _ V writes3 h
set_option maxHeartbeats 1000000 in
theorem out3_main_v14 (V : Valuation τ sig (Elt F)) :
    after s3 V (no_index (Proc.devRef .tc main_v14)) = SegMask.whereSlots (F := F) (V (Proc.devRef .tc main_v11)) (V (Proc.devRef .tc main_v13)) (V (Proc.devRef .tc main_c_4)) := by
  unfold s3; simp only [hostOps0_3]; after_results <;> rfl

/-! ### Stretch 4: the table of boundary slots by rank -/

/-- The stretch, named so that a rewrite is keyed on the name and never on its operations. -/
def s4 : List (HloOp τ sig (Elt F)) := hostOps0_4
/-- The buffers it writes. -/
abbrev W4 : List (Ref sig .tc) := [main_c_5, main_v15, main_v16, main_v17, main_v18, main_v19, main_c_6, main_v20, main_v21, main_c_7, main_v22, main_v23, main_v24, main_c_8, main_v25, main_v26, main_c_9, main_v27, main_v28, main_v29, main_v30, main_v31, main_v32, main_v33, main_v34]
theorem writes4 : (s4 : List (HloOp τ sig (Elt F))).Forall fun op => op.writes ⊆ (W4.map (Proc.devRef (τ := τ) .tc)).toFinset :=
  ⟨wr (y := main_c_5) (by decide), wr (y := main_v15) (by decide), wr (y := main_v16) (by decide), wr (y := main_v17) (by decide), wr (y := main_v18) (by decide), wr (y := main_v19) (by decide), wr (y := main_c_6) (by decide), wr (y := main_v20) (by decide), wr (y := main_v21) (by decide), wr (y := main_c_7) (by decide), wr (y := main_v22) (by decide), wr (y := main_v23) (by decide), wr (y := main_v24) (by decide), wr (y := main_c_8) (by decide), wr (y := main_v25) (by decide), wr (y := main_v26) (by decide), wr (y := main_c_9) (by decide), wr (y := main_v27) (by decide), wr (y := main_v28) (by decide), wr (y := main_v29) (by decide), wr (y := main_v30) (by decide), wr (y := main_v31) (by decide), wr (y := main_v32) (by decide), wr (y := main_v33) (by decide), wr (y := main_v34) (by decide)⟩
/-- Every other buffer keeps its contents. -/
theorem keep4 (V : Valuation τ sig (Elt F)) {r : Ref sig .tc} (h : r ∉ W4) :
    after s4 V (no_index (Proc.devRef .tc r)) = V (Proc.devRef .tc r) :=
  after_of_writes_sub _ V writes4 h
set_option maxHeartbeats 1000000 in
theorem out4_main_v34 (V : Valuation τ sig (Elt F)) :
    after s4 V (no_index (Proc.devRef .tc main_v34)) = SegMask.posOf (F := F) (V (Proc.devRef .tc main_v14)) := by
  unfold s4; simp only [hostOps0_4]; after_results <;> rfl

/-! ### Stretch 5: where each frame's segment starts (the first take_along_axis) -/

/-- The stretch, named so that a rewrite is keyed on the name and never on its operations. -/
def s5 : List (HloOp τ sig (Elt F)) := hostOps0_5
/-- The buffers it writes. -/
abbrev W5 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_c_4, main_call2_v14, main_v35]
theorem writes5 : (s5 : List (HloOp τ sig (Elt F))).Forall fun op => op.writes ⊆ (W5.map (Proc.devRef (τ := τ) .tc)).toFinset :=
  ⟨wr (y := main_call2_c) (by decide), wr (y := main_call2_v0) (by decide), wr (y := main_call2_v1) (by decide), wr (y := main_call2_c_0) (by decide), wr (y := main_call2_v2) (by decide), wr (y := main_call2_v3) (by decide), wr (y := main_call2_v4) (by decide), wr (y := main_call2_v5) (by decide), wr (y := main_call2_c_1) (by decide), wr (y := main_call2_c_2) (by decide), wr (y := main_call2_v6) (by decide), wr (y := main_call2_v7) (by decide), wr (y := main_call2_v8) (by decide), wr (y := main_call2_v9) (by decide), wr (y := main_call2_v10) (by decide), wr (y := main_call2_v11) (by decide), wr (y := main_call2_c_3) (by decide), wr (y := main_call2_v12) (by decide), wr (y := main_call2_v13) (by decide), wr (y := main_call2_c_4) (by decide), wr (y := main_call2_v14) (by decide), wr (y := main_v35) (by decide)⟩
/-- Every other buffer keeps its contents. -/
theorem keep5 (V : Valuation τ sig (Elt F)) {r : Ref sig .tc} (h : r ∉ W5) :
    after s5 V (no_index (Proc.devRef .tc r)) = V (Proc.devRef .tc r) :=
  after_of_writes_sub _ V writes5 h
set_option maxHeartbeats 1000000 in
theorem out5_main_v35 (V : Valuation τ sig (Elt F)) :
    after s5 V (no_index (Proc.devRef .tc main_v35)) = SegMask.take (F := F) (V (Proc.devRef .tc main_v34)) (V (Proc.devRef .tc main_v9)) := by
  unfold s5; simp only [hostOps0_5]; after_results <;> rfl

/-! ### Stretch 6: the next segment's index -/

/-- The stretch, named so that a rewrite is keyed on the name and never on its operations. -/
def s6 : List (HloOp τ sig (Elt F)) := hostOps0_6
/-- The buffers it writes. -/
abbrev W6 : List (Ref sig .tc) := [main_c_10, main_v36, main_v37]
theorem writes6 : (s6 : List (HloOp τ sig (Elt F))).Forall fun op => op.writes ⊆ (W6.map (Proc.devRef (τ := τ) .tc)).toFinset :=
  ⟨wr (y := main_c_10) (by decide), wr (y := main_v36) (by decide), wr (y := main_v37) (by decide)⟩
/-- Every other buffer keeps its contents. -/
theorem keep6 (V : Valuation τ sig (Elt F)) {r : Ref sig .tc} (h : r ∉ W6) :
    after s6 V (no_index (Proc.devRef .tc r)) = V (Proc.devRef .tc r) :=
  after_of_writes_sub _ V writes6 h
set_option maxHeartbeats 1000000 in
theorem out6_main_v37 (V : Valuation τ sig (Elt F)) :
    after s6 V (no_index (Proc.devRef .tc main_v37)) = SegMask.nextOf (F := F) (V (Proc.devRef .tc main_v9)) := by
  unfold s6; simp only [hostOps0_6]; after_results <;> rfl

/-! ### Stretch 7: where the next segment starts (the second take_along_axis) -/

/-- The stretch, named so that a rewrite is keyed on the name and never on its operations. -/
def s7 : List (HloOp τ sig (Elt F)) := hostOps0_7
/-- The buffers it writes. -/
abbrev W7 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_c_4, main_call3_v14, main_v38]
theorem writes7 : (s7 : List (HloOp τ sig (Elt F))).Forall fun op => op.writes ⊆ (W7.map (Proc.devRef (τ := τ) .tc)).toFinset :=
  ⟨wr (y := main_call3_c) (by decide), wr (y := main_call3_v0) (by decide), wr (y := main_call3_v1) (by decide), wr (y := main_call3_c_0) (by decide), wr (y := main_call3_v2) (by decide), wr (y := main_call3_v3) (by decide), wr (y := main_call3_v4) (by decide), wr (y := main_call3_v5) (by decide), wr (y := main_call3_c_1) (by decide), wr (y := main_call3_c_2) (by decide), wr (y := main_call3_v6) (by decide), wr (y := main_call3_v7) (by decide), wr (y := main_call3_v8) (by decide), wr (y := main_call3_v9) (by decide), wr (y := main_call3_v10) (by decide), wr (y := main_call3_v11) (by decide), wr (y := main_call3_c_3) (by decide), wr (y := main_call3_v12) (by decide), wr (y := main_call3_v13) (by decide), wr (y := main_call3_c_4) (by decide), wr (y := main_call3_v14) (by decide), wr (y := main_v38) (by decide)⟩
/-- Every other buffer keeps its contents. -/
theorem keep7 (V : Valuation τ sig (Elt F)) {r : Ref sig .tc} (h : r ∉ W7) :
    after s7 V (no_index (Proc.devRef .tc r)) = V (Proc.devRef .tc r) :=
  after_of_writes_sub _ V writes7 h
set_option maxHeartbeats 1000000 in
theorem out7_main_v38 (V : Valuation τ sig (Elt F)) :
    after s7 V (no_index (Proc.devRef .tc main_v38)) = SegMask.take (F := F) (V (Proc.devRef .tc main_v34)) (V (Proc.devRef .tc main_v37)) := by
  unfold s7; simp only [hostOps0_7]; after_results <;> rfl

/-! ### Stretch 8: the kept frames, the reciprocal lengths, the zero weight -/

/-- The stretch, named so that a rewrite is keyed on the name and never on its operations. -/
def s8 : List (HloOp τ sig (Elt F)) := hostOps0_8
/-- The buffers it writes. -/
abbrev W8 : List (Ref sig .tc) := [main_v39, main_c_11, main_v40, main_v41, main_c_12, main_v42, main_v43, main_v44, main_c_13, main_v45, main_v46, main_v47, main_c_14, main_v48, main_v49, main_v50, main_c_15, main_v51, main_v52, main_v53, main_cst_16, main_v54, main_v55, main_cst_17]
theorem writes8 : (s8 : List (HloOp τ sig (Elt F))).Forall fun op => op.writes ⊆ (W8.map (Proc.devRef (τ := τ) .tc)).toFinset :=
  ⟨wr (y := main_v39) (by decide), wr (y := main_c_11) (by decide), wr (y := main_v40) (by decide), wr (y := main_v41) (by decide), wr (y := main_c_12) (by decide), wr (y := main_v42) (by decide), wr (y := main_v43) (by decide), wr (y := main_v44) (by decide), wr (y := main_c_13) (by decide), wr (y := main_v45) (by decide), wr (y := main_v46) (by decide), wr (y := main_v47) (by decide), wr (y := main_c_14) (by decide), wr (y := main_v48) (by decide), wr (y := main_v49) (by decide), wr (y := main_v50) (by decide), wr (y := main_c_15) (by decide), wr (y := main_v51) (by decide), wr (y := main_v52) (by decide), wr (y := main_v53) (by decide), wr (y := main_cst_16) (by decide), wr (y := main_v54) (by decide), wr (y := main_v55) (by decide), wr (y := main_cst_17) (by decide)⟩
/-- Every other buffer keeps its contents. -/
theorem keep8 (V : Valuation τ sig (Elt F)) {r : Ref sig .tc} (h : r ∉ W8) :
    after s8 V (no_index (Proc.devRef .tc r)) = V (Proc.devRef .tc r) :=
  after_of_writes_sub _ V writes8 h
set_option maxHeartbeats 1000000 in
theorem out8_main_v50 (V : Valuation τ sig (Elt F)) :
    after s8 V (no_index (Proc.devRef .tc main_v50)) = SegMask.keepOf (F := F) (V (Proc.devRef .tc main_v38)) (V (Proc.devRef .tc main_v35)) (V (Proc.devRef .tc main_v9)) := by
  unfold s8; simp only [hostOps0_8]; after_results <;> rfl
set_option maxHeartbeats 1000000 in
theorem out8_main_v55 (V : Valuation τ sig (Elt F)) :
    after s8 V (no_index (Proc.devRef .tc main_v55)) = SegMask.recipOf (F := F) (V (Proc.devRef .tc main_v38)) (V (Proc.devRef .tc main_v35)) := by
  unfold s8; simp only [hostOps0_8]; after_results <;> rfl
set_option maxHeartbeats 1000000 in
theorem out8_main_cst_17 (V : Valuation τ sig (Elt F)) :
    after s8 V (no_index (Proc.devRef .tc main_cst_17)) = SegMask.zeroW (F := F) := by
  unfold s8; simp only [hostOps0_8]; after_results <;> rfl

/-! ### Stretch 9: the frames' weights (the call to where) -/

/-- The stretch, named so that a rewrite is keyed on the name and never on its operations. -/
def s9 : List (HloOp τ sig (Elt F)) := hostOps0_9
/-- The buffers it writes. -/
abbrev W9 : List (Ref sig .tc) := [main_call4_v0, main_call4_v1, main_v56]
theorem writes9 : (s9 : List (HloOp τ sig (Elt F))).Forall fun op => op.writes ⊆ (W9.map (Proc.devRef (τ := τ) .tc)).toFinset :=
  ⟨wr (y := main_call4_v0) (by decide), wr (y := main_call4_v1) (by decide), wr (y := main_v56) (by decide)⟩
/-- Every other buffer keeps its contents. -/
theorem keep9 (V : Valuation τ sig (Elt F)) {r : Ref sig .tc} (h : r ∉ W9) :
    after s9 V (no_index (Proc.devRef .tc r)) = V (Proc.devRef .tc r) :=
  after_of_writes_sub _ V writes9 h
set_option maxHeartbeats 1000000 in
theorem out9_main_v56 (V : Valuation τ sig (Elt F)) :
    after s9 V (no_index (Proc.devRef .tc main_v56)) = SegMask.whereFramesF (F := F) (V (Proc.devRef .tc main_v50)) (V (Proc.devRef .tc main_v55)) (V (Proc.devRef .tc main_cst_17)) := by
  unfold s9; simp only [hostOps0_9]; after_results <;> rfl

/-! ### Stretch 10: the index of no segment -/

/-- The stretch, named so that a rewrite is keyed on the name and never on its operations. -/
def s10 : List (HloOp τ sig (Elt F)) := hostOps0_10
/-- The buffers it writes. -/
abbrev W10 : List (Ref sig .tc) := [main_c_18]
theorem writes10 : (s10 : List (HloOp τ sig (Elt F))).Forall fun op => op.writes ⊆ (W10.map (Proc.devRef (τ := τ) .tc)).toFinset :=
  wr (y := main_c_18) (by decide)
/-- Every other buffer keeps its contents. -/
theorem keep10 (V : Valuation τ sig (Elt F)) {r : Ref sig .tc} (h : r ∉ W10) :
    after s10 V (no_index (Proc.devRef .tc r)) = V (Proc.devRef .tc r) :=
  after_of_writes_sub _ V writes10 h
set_option maxHeartbeats 1000000 in
theorem out10_main_c_18 (V : Valuation τ sig (Elt F)) :
    after s10 V (no_index (Proc.devRef .tc main_c_18)) = SegMask.noSeg (F := F) := by
  unfold s10; simp only [hostOps0_10]; after_results <;> rfl

/-! ### Stretch 11: the clamped segment indices (the call to where) -/

/-- The stretch, named so that a rewrite is keyed on the name and never on its operations. -/
def s11 : List (HloOp τ sig (Elt F)) := hostOps0_11
/-- The buffers it writes. -/
abbrev W11 : List (Ref sig .tc) := [main_call5_v0, main_call5_v1, main_v57]
theorem writes11 : (s11 : List (HloOp τ sig (Elt F))).Forall fun op => op.writes ⊆ (W11.map (Proc.devRef (τ := τ) .tc)).toFinset :=
  ⟨wr (y := main_call5_v0) (by decide), wr (y := main_call5_v1) (by decide), wr (y := main_v57) (by decide)⟩
/-- Every other buffer keeps its contents. -/
theorem keep11 (V : Valuation τ sig (Elt F)) {r : Ref sig .tc} (h : r ∉ W11) :
    after s11 V (no_index (Proc.devRef .tc r)) = V (Proc.devRef .tc r) :=
  after_of_writes_sub _ V writes11 h
set_option maxHeartbeats 1000000 in
theorem out11_main_v57 (V : Valuation τ sig (Elt F)) :
    after s11 V (no_index (Proc.devRef .tc main_v57)) = SegMask.whereFramesI (F := F) (V (Proc.devRef .tc main_v50)) (V (Proc.devRef .tc main_v9)) (V (Proc.devRef .tc main_c_18)) := by
  unfold s11; simp only [hostOps0_11]; after_results <;> rfl

/-! ### Stretch 12: the one-hot rows (the call to one_hot) -/

/-- The stretch, named so that a rewrite is keyed on the name and never on its operations. -/
def s12 : List (HloOp τ sig (Elt F)) := hostOps0_12
/-- The buffers it writes. -/
abbrev W12 : List (Ref sig .tc) := [main_call6_v0, main_call6_v1, main_call6_v2, main_call6_v3, main_call6_v4, main_v58]
theorem writes12 : (s12 : List (HloOp τ sig (Elt F))).Forall fun op => op.writes ⊆ (W12.map (Proc.devRef (τ := τ) .tc)).toFinset :=
  ⟨wr (y := main_call6_v0) (by decide), wr (y := main_call6_v1) (by decide), wr (y := main_call6_v2) (by decide), wr (y := main_call6_v3) (by decide), wr (y := main_call6_v4) (by decide), wr (y := main_v58) (by decide)⟩
/-- Every other buffer keeps its contents. -/
theorem keep12 (V : Valuation τ sig (Elt F)) {r : Ref sig .tc} (h : r ∉ W12) :
    after s12 V (no_index (Proc.devRef .tc r)) = V (Proc.devRef .tc r) :=
  after_of_writes_sub _ V writes12 h
set_option maxHeartbeats 1000000 in
theorem out12_main_v58 (V : Valuation τ sig (Elt F)) :
    after s12 V (no_index (Proc.devRef .tc main_v58)) = SegMask.hotOf (F := F) (V (Proc.devRef .tc main_v57)) := by
  unfold s12; simp only [hostOps0_12]; after_results <;> rfl

/-! ### Stretch 13: the weights, transposed -/

/-- The stretch, named so that a rewrite is keyed on the name and never on its operations. -/
def s13 : List (HloOp τ sig (Elt F)) := hostOps0_13
/-- The buffers it writes. -/
abbrev W13 : List (Ref sig .tc) := [main_v59, main_v60, main_v61, main_v62]
theorem writes13 : (s13 : List (HloOp τ sig (Elt F))).Forall fun op => op.writes ⊆ (W13.map (Proc.devRef (τ := τ) .tc)).toFinset :=
  ⟨wr (y := main_v59) (by decide), wr (y := main_v60) (by decide), wr (y := main_v61) (by decide), wr (y := main_v62) (by decide)⟩
/-- Every other buffer keeps its contents. -/
theorem keep13 (V : Valuation τ sig (Elt F)) {r : Ref sig .tc} (h : r ∉ W13) :
    after s13 V (no_index (Proc.devRef .tc r)) = V (Proc.devRef .tc r) :=
  after_of_writes_sub _ V writes13 h
set_option maxHeartbeats 1000000 in
theorem out13_main_v62 (V : Valuation τ sig (Elt F)) :
    after s13 V (no_index (Proc.devRef .tc main_v62)) = SegMask.maskOf (F := F) (V (Proc.devRef .tc main_v58)) (V (Proc.devRef .tc main_v56)) := by
  unfold s13; simp only [hostOps0_13]; after_results <;> rfl

/-! ## The chain -/

/-- The operations before the batched product are the stretches in order. -/
theorem maskOps_eq : (List.flatten [hostOps0, hostOps0_1, hostOps0_2, hostOps0_3, hostOps0_4, hostOps0_5, hostOps0_6, hostOps0_7, hostOps0_8, hostOps0_9, hostOps0_10, hostOps0_11, hostOps0_12, hostOps0_13] : List (HloOp τ sig (Elt F)))
    = s0 ++ (s1 ++ (s2 ++ (s3 ++ (s4 ++ (s5 ++ (s6 ++ (s7 ++ (s8 ++ (s9 ++ (s10 ++ (s11 ++ (s12 ++ s13)))))))))))) := by
  unfold s0 s1 s2 s3 s4 s5 s6 s7 s8 s9 s10 s11 s12 s13
  simp only [List.flatten_cons, List.flatten_nil, List.append_nil]

/-- After the 140 operations the weights' buffer holds `SegMask.mask` of the indicators' buffer as it was before them. -/
theorem mask_eval (V : Valuation τ sig (Elt F)) :
    after (List.flatten [hostOps0, hostOps0_1, hostOps0_2, hostOps0_3, hostOps0_4, hostOps0_5, hostOps0_6, hostOps0_7, hostOps0_8, hostOps0_9, hostOps0_10, hostOps0_11, hostOps0_12, hostOps0_13]) V (Proc.devRef .tc main_v62)
      = SegMask.mask (F := F) (V (Proc.devRef .tc main_arg1)) := by
  rw [maskOps_eq]
  simp only [after_append']
  simp (disch := decide) only [out0_main_v5, out1_main_v6, out2_main_v9, out2_main_v11, out2_main_v13, out2_main_c_4, out3_main_v14, out4_main_v34, out5_main_v35, out6_main_v37, out7_main_v38, out8_main_v50, out8_main_v55, out8_main_cst_17, out9_main_v56, out10_main_c_18, out11_main_v57, out12_main_v58, out13_main_v62,
    keep0, keep1, keep2, keep3, keep4, keep5, keep6, keep7, keep8, keep9, keep10, keep11, keep12, keep13]
  rfl

/-- None of the 140 operations writes an argument array. -/
theorem arg0_kept (V : Valuation τ sig (Elt F)) :
    after (List.flatten [hostOps0, hostOps0_1, hostOps0_2, hostOps0_3, hostOps0_4, hostOps0_5, hostOps0_6, hostOps0_7, hostOps0_8, hostOps0_9, hostOps0_10, hostOps0_11, hostOps0_12, hostOps0_13]) V (Proc.devRef .tc main_arg0) = V (Proc.devRef .tc main_arg0) := by
  rw [maskOps_eq]
  simp only [after_append']
  simp (disch := decide) only [keep0, keep1, keep2, keep3, keep4, keep5, keep6, keep7, keep8, keep9, keep10, keep11, keep12, keep13]
@[inherit_doc arg0_kept]
theorem arg1_kept (V : Valuation τ sig (Elt F)) :
    after (List.flatten [hostOps0, hostOps0_1, hostOps0_2, hostOps0_3, hostOps0_4, hostOps0_5, hostOps0_6, hostOps0_7, hostOps0_8, hostOps0_9, hostOps0_10, hostOps0_11, hostOps0_12, hostOps0_13]) V (Proc.devRef .tc main_arg1) = V (Proc.devRef .tc main_arg1) := by
  rw [maskOps_eq]
  simp only [after_append']
  simp (disch := decide) only [keep0, keep1, keep2, keep3, keep4, keep5, keep6, keep7, keep8, keep9, keep10, keep11, keep12, keep13]

end Cert.ReferenceIdeal.MaskEval

end
-- ==== Proof.RefValue.lean ====
/-
  What the reference leaves in its result buffers.

  Its 143 operations are the 140 that build the weights `mask` from the indicators and then three more: the batched
  product of the weights with the frames as ONE dot_general, a zero, and the sum of the weights over the frames.
  None of them writes an argument array.  So the run ends with the output at `dot_general (mask a) x`, the counts at
  `Σ_l (mask a)[b, s, l]`, and `a`, `x` as launched.
-/
import proofs.«148147_j35012573397109_1_alg».proof.Proof.RefRun
import proofs.«148147_j35012573397109_1_alg».proof.Proof.MaskR

set_option maxRecDepth 8192

noncomputable section

namespace Cert.ReferenceIdeal.RefValue

open Cert.ReferenceIdeal Cert.ReferenceIdeal.Gen Cert.ReferenceIdeal.Host
open Idealize.ShloMosaic Idealize.ShloMosaic.TcCoe Idealize.ShloMosaic.StableHlo Idealize.SL.Sem

variable {F : FTy → Type} [FloatOps F]

/-- All of @main is the weights' operations followed by the last three. -/
theorem ops_eq : (ops : List (HloOp τ sig (Elt F))) = maskOps ++ hostOps1 := by
  simp only [ops, maskOps, List.flatten_cons, List.flatten_nil, List.append_nil, List.append_assoc]

/-- The output: the one dot_general of the weights and the frames. -/
theorem out_v63 (V : Valuation τ sig (Elt F)) :
    after ops V (Proc.devRef .tc main_v63)
      = Host.dotGeneral dot_S64x50x500_S64x500x1024_S64x50x1024_2_1_1_2_0_0 none
          (SegMask.mask (F := F) (V (Proc.devRef .tc main_arg1))) (V (Proc.devRef .tc main_arg0)) := by
  rw [ops_eq, after_append']
  simp only [hostOps1]
  after_results
  rw [MaskEval.mask_eval, MaskEval.arg0_kept]

/-- The counts: the weights summed over the frames. -/
theorem out_v64 (V : Valuation τ sig (Elt F)) :
    after ops V (Proc.devRef .tc main_v64)
      = Host.reduceAdd (SegMask.mask (F := F) (V (Proc.devRef .tc main_arg1))) (constant S_ .f32 0x00000000#32)
          reducesTo_S64x50x500_S64x50_d2 h_S_ := by
  rw [ops_eq, after_append']
  simp only [hostOps1]
  after_results
  rw [MaskEval.mask_eval]

/-- The argument arrays are not written. -/
theorem out_arg0 (V : Valuation τ sig (Elt F)) : after ops V (Proc.devRef .tc main_arg0) = V (Proc.devRef .tc main_arg0) := by
  rw [ops_eq, after_append']
  simp only [hostOps1]
  after_results
  exact MaskEval.arg0_kept V
@[inherit_doc out_arg0]
theorem out_arg1 (V : Valuation τ sig (Elt F)) : after ops V (Proc.devRef .tc main_arg1) = V (Proc.devRef .tc main_arg1) := by
  rw [ops_eq, after_append']
  simp only [hostOps1]
  after_results
  exact MaskEval.arg1_kept V

/-- The reference's run with its results named. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63)
          = Host.dotGeneral dot_S64x50x500_S64x500x1024_S64x50x1024_2_1_1_2_0_0 none
              (SegMask.mask (F := F) (m ((c.tc : Thread nD τ).loc main_arg1))) (m ((c.tc : Thread nD τ).loc main_arg0))
      ∧ r.2.mem ((c.tc : Thread nD τ).loc main_v64)
          = Host.reduceAdd (SegMask.mask (F := F) (m ((c.tc : Thread nD τ).loc main_arg1))) (constant S_ .f32 0x00000000#32)
              reducesTo_S64x50x500_S64x50_d2 h_S_
      ∧ r.2.mem ((c.tc : Thread nD τ).loc main_arg1) = m ((c.tc : Thread nD τ).loc main_arg1)
      ∧ r.2.mem ((c.tc : Thread nD τ).loc main_arg0) = m ((c.tc : Thread nD τ).loc main_arg0) :=
  (θ_run defs _ _).mono (fun _ h c => ⟨(h c main_v63).trans (out_v63 (launchContents m c)),
      (h c main_v64).trans (out_v64 (launchContents m c)),
      (h c main_arg1).trans (out_arg1 (launchContents m c)),
      (h c main_arg0).trans (out_arg0 (launchContents m c))⟩)
    (run_main m ρ)

end Cert.ReferenceIdeal.RefValue

end
-- ==== Proof.lean ====
/-
  The certificate of the segment-mean kernel against its jnp reference, over the extended reals.

  Both programs first build the same weights `mask = SegMask.mask in_boundary : f32[64, 50, 500]` with the same host
  operations (`mask[b, s, l]` is the reciprocal length of segment `s` of row `b` on the frames of that segment, zero
  elsewhere).  The reference then takes ONE batched product `out[b, s, d] = Σ_l mask[b, s, l] · x[b, l, d]`; the kernel
  computes the same product four batch rows at a time on a grid of 16 points, the operands rounded to bf16 (the
  identity on the extended reals) and accumulated from zero.  A block of the kernel's output is the same rows of the
  whole product, term by term of the same sum over the 500 frames (`Block.pay_block`), and the 16 blocks tile the
  output (`KerValue.final2`); the counts `Σ_l mask[b, s, l]` are one host reduction of the same weights in both
  programs, and the indicators are returned untouched.  No law of arithmetic is used beyond "the same sum of the
  same products", so the precondition (finite inputs) is never opened.

  The frames of the two kernel programs are the generated ones; the reference's frame is its run read back
  (`RefValue.run`) with the results dropped; the idealization rewrote nothing, so `preserves` is trivial.
-/
import proofs.«148147_j35012573397109_1_alg».proof.Defs
import proofs.«148147_j35012573397109_1_alg».proof.Proof.Gen.Kernel
import proofs.«148147_j35012573397109_1_alg».proof.Proof.Gen.Kernel.Skeleton
import proofs.«148147_j35012573397109_1_alg».proof.Proof.Gen.Kernel.Launch
import proofs.«148147_j35012573397109_1_alg».proof.Proof.Gen.Kernel.Points
import proofs.«148147_j35012573397109_1_alg».proof.Proof.Gen.Kernel.Frame
import proofs.«148147_j35012573397109_1_alg».proof.Proof.Gen.KernelIdeal
import proofs.«148147_j35012573397109_1_alg».proof.Proof.Gen.KernelIdeal.Skeleton
import proofs.«148147_j35012573397109_1_alg».proof.Proof.Gen.KernelIdeal.Launch
import proofs.«148147_j35012573397109_1_alg».proof.Proof.Gen.KernelIdeal.Points
import proofs.«148147_j35012573397109_1_alg».proof.Proof.Gen.KernelIdeal.Frame
import proofs.«148147_j35012573397109_1_alg».proof.Proof.Gen.ReferenceIdeal
import proofs.«148147_j35012573397109_1_alg».proof.Proof.Gen.Pre_finite_inputs
import proofs.«148147_j35012573397109_1_alg».proof.Proof.MaskK
import proofs.«148147_j35012573397109_1_alg».proof.Proof.KerValue
import proofs.«148147_j35012573397109_1_alg».proof.Proof.RefValue
import Idealize.ShloMosaic.Adequacy
import Idealize.ShloMosaic.Init

noncomputable section

namespace Cert.Proof

open Idealize.ShloMosaic Idealize.SL.Sem

/-! ## The frames and the idealization -/

theorem frame_k : Cert.frame_Kernel := fun m ρ _ => Cert.Kernel.Gen.frame m ρ
theorem frame_ki : Cert.frame_KernelIdeal := fun m ρ _ => Cert.KernelIdeal.Gen.frame m ρ
/-- The reference runs and keeps its arguments: its run read back, the results dropped. -/
theorem frame_ri : Cert.frame_ReferenceIdeal := fun m ρ _ =>
  (θ_run Cert.ReferenceIdeal.defs _ _).mono (fun _ h c => ⟨(h c).2.2.2, (h c).2.2.1⟩)
    (Cert.ReferenceIdeal.RefValue.run (F := Ideal) m ρ)
/-- The ideal pass rewrote no operation. -/
theorem preserves : Cert.preserves_Kernel_KernelIdeal := trivial

/-! ## The kernel program's operands as the region finds them -/

/-- The weights the region finds are `SegMask.mask` of the indicators as launched. -/
theorem warr_eq (m : (ℓ : Loc Cert.KernelIdeal.nD Cert.KernelIdeal.τ Cert.KernelIdeal.sig) → Buf (Elt Ideal) ℓ) (c : Dev Cert.KernelIdeal.nD) :
    Cert.KernelIdeal.KerValue.warr m c
      = Cert.SegMask.mask (F := Ideal) (m ((c.tc : Thread Cert.KernelIdeal.nD Cert.KernelIdeal.τ).loc Cert.KernelIdeal.main_arg1)) :=
  Cert.KernelIdeal.MaskEval.mask_eval (F := Ideal) (fun b => m (c, b))

/-- The frames the region finds are the argument array as launched. -/
theorem xarr_eq (m : (ℓ : Loc Cert.KernelIdeal.nD Cert.KernelIdeal.τ Cert.KernelIdeal.sig) → Buf (Elt Ideal) ℓ) (c : Dev Cert.KernelIdeal.nD) :
    Cert.KernelIdeal.KerValue.xarr m c
      = m ((c.tc : Thread Cert.KernelIdeal.nD Cert.KernelIdeal.τ).loc Cert.KernelIdeal.main_arg0) :=
  Cert.KernelIdeal.Gen.V_main_arg0 m c

/-! ## The value claim -/

section
variable (m : (ℓ : Loc Cert.KernelIdeal.nD Cert.KernelIdeal.τ Cert.KernelIdeal.sig) → Buf (Elt Ideal) ℓ) (c : Dev Cert.KernelIdeal.nD)

/-- The indicators and the frames as launched, at their literal types. -/
abbrev inBoundary : FVec Ideal Cert.KernelIdeal.S64x501 .f32 :=
  m ((c.tc : Thread Cert.KernelIdeal.nD Cert.KernelIdeal.τ).loc Cert.KernelIdeal.main_arg1)
@[inherit_doc inBoundary]
abbrev frames : FVec Ideal Cert.ReferenceIdeal.S64x500x1024 .f32 :=
  m ((c.tc : Thread Cert.KernelIdeal.nD Cert.KernelIdeal.τ).loc Cert.KernelIdeal.main_arg0)

/-- The weights both programs build from the indicators. -/
abbrev weights : FVec Ideal Cert.ReferenceIdeal.S64x50x500 .f32 := Cert.SegMask.mask (F := Ideal) (inBoundary m c)

/-- The common output: the one batched product of the weights with the frames. -/
abbrev outV : FVec Ideal Cert.ReferenceIdeal.S64x50x1024 .f32 :=
  Host.dotGeneral (F := Ideal) Cert.KernelIdeal.Block.DR none (weights m c) (frames m c)

/-- The common counts: the weights summed over the frames. -/
abbrev cntV : FVec Ideal Cert.KernelIdeal.S64x50 .f32 :=
  Host.reduceAdd (F := Ideal) (weights m c) (constant Cert.KernelIdeal.S_ .f32 0x00000000#32)
    Cert.KernelIdeal.Facts₀.reducesTo_S64x50x500_S64x50_d2 Cert.KernelIdeal.Facts₀.h_S_
end

/-- From memories agreeing on `x` and `in_boundary` both programs end with the output at the one batched product of
    `SegMask.mask in_boundary` with `x`, the counts at that mask's sums over the frames, and the indicators. -/
theorem algebraic : Cert.algebraic_KernelIdeal_ReferenceIdeal := by
  intro m ρ m' ρ' _ hagree
  refine ⟨fun c => outV m c, ?_⟩
  refine ⟨fun c => cntV m c, ?_⟩
  refine ⟨fun c => inBoundary m c, ?_, ?_⟩
  · refine (θ_run Cert.KernelIdeal.defs _ _).mono (fun r h c => ?_) (Cert.KernelIdeal.KerValue.run_values m ρ)
    obtain ⟨h63, h64, h1, h0⟩ := h c
    refine ⟨h63.trans ?_, h64.trans ?_, h1, h0, h1⟩
    · show Host.dotGeneral (F := Ideal) Cert.KernelIdeal.Block.DR none (Cert.KernelIdeal.KerValue.warr m c) (Cert.KernelIdeal.KerValue.xarr m c) = outV m c
      rw [warr_eq, xarr_eq]
    · show _ = cntV m c
      rw [warr_eq]
  · refine (θ_run Cert.ReferenceIdeal.defs _ _).mono (fun r h c => ?_) (Cert.ReferenceIdeal.RefValue.run (F := Ideal) m' ρ')
    obtain ⟨h63, h64, h1, h0⟩ := h c
    refine ⟨h63.trans ?_, h64.trans ?_, h1.trans (hagree c).2, h0, h1⟩
    · show _ = outV m c
      rw [(hagree c).1, (hagree c).2]
    · show _ = cntV m c
      rw [(hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
